-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x1024 : Shape := ⟨2, ![64, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S8x2048x1024 .f32) (main_arg1 : FVec F S64x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S8x2048x1024 : Shape := ⟨3, ![8, 2048, 1024]⟩
abbrev S64x1024 : Shape := ⟨2, ![64, 1024]⟩
abbrev S8x2048x64 : Shape := ⟨3, ![8, 2048, 64]⟩
abbrev S1x2048x1024 : Shape := ⟨3, ![1, 2048, 1024]⟩
abbrev S1x2048x64 : Shape := ⟨3, ![1, 2048, 64]⟩
abbrev S2048x64 : Shape := ⟨2, ![2048, 64]⟩
abbrev S2048x1024 : Shape := ⟨2, ![2048, 1024]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S512x64 : Shape := ⟨2, ![512, 64]⟩
abbrev S256x512 : Shape := ⟨2, ![256, 512]⟩
abbrev S768x64 : Shape := ⟨2, ![768, 64]⟩
abbrev S256x768 : Shape := ⟨2, ![256, 768]⟩
abbrev S1024x64 : Shape := ⟨2, ![1024, 64]⟩
abbrev S256x1024 : Shape := ⟨2, ![256, 1024]⟩
abbrev S1280x64 : Shape := ⟨2, ![1280, 64]⟩
abbrev S256x1280 : Shape := ⟨2, ![256, 1280]⟩
abbrev S1536x64 : Shape := ⟨2, ![1536, 64]⟩
abbrev S256x1536 : Shape := ⟨2, ![256, 1536]⟩
abbrev S1792x64 : Shape := ⟨2, ![1792, 64]⟩
abbrev S256x1792 : Shape := ⟨2, ![256, 1792]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .f32⟩
  | .local _ .vmem, ⟨3, _⟩ => ⟨S1x2048x64, .f32⟩
  | .local _ .vmem, ⟨4, _⟩ => ⟨S1x2048x64, .f32⟩
  | .local _ .vmem, ⟨5, _⟩ => ⟨S2048x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S2048x64_S256x64_0_0 : ∀ a, (![0, 0] : Fin 2 → Nat) a + S256x64.size a ≤ S2048x64.size a
  h_S256x64 : 0 < S256x64.numel
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  inb_S1x2048x64_S1x2048x64_0_0_0 : ∀ a, (![0, 0, 0] : Fin 3 → Nat) a + S1x2048x64.size a ≤ S1x2048x64.size a
  squeezes_S1x2048x64_S2048x64 : S1x2048x64.Squeezes S2048x64
  inb_S2048x64_S256x64_256_0 : ∀ a, (![256, 0] : Fin 2 → Nat) a + S256x64.size a ≤ S2048x64.size a
  inb_S2048x64_S512x64_0_0 : ∀ a, (![0, 0] : Fin 2 → Nat) a + S512x64.size a ≤ S2048x64.size a
  h_S512x64 : 0 < S512x64.numel
  iota_S256x512_d0_w32 : S256x512.Iotas .tc 32 [0]
  iota_S256x512_d1_w32 : S256x512.Iotas .tc 32 [1]
  reduces_S256x512_S256 : S256x512.Reduces [1] S256
  broadcasts_S256x1_S256x512 : S256x1.Broadcasts S256x512
  inb_S2048x64_S256x64_512_0 : ∀ a, (![512, 0] : Fin 2 → Nat) a + S256x64.size a ≤ S2048x64.size a
  inb_S2048x64_S768x64_0_0 : ∀ a, (![0, 0] : Fin 2 → Nat) a + S768x64.size a ≤ S2048x64.size a
  h_S768x64 : 0 < S768x64.numel
  iota_S256x768_d0_w32 : S256x768.Iotas .tc 32 [0]
  iota_S256x768_d1_w32 : S256x768.Iotas .tc 32 [1]
  reduces_S256x768_S256 : S256x768.Reduces [1] S256
  broadcasts_S256x1_S256x768 : S256x1.Broadcasts S256x768
  inb_S2048x64_S256x64_768_0 : ∀ a, (![768, 0] : Fin 2 → Nat) a + S256x64.size a ≤ S2048x64.size a
  inb_S2048x64_S1024x64_0_0 : ∀ a, (![0, 0] : Fin 2 → Nat) a + S1024x64.size a ≤ S2048x64.size a
  h_S1024x64 : 0 < S1024x64.numel
  iota_S256x1024_d0_w32 : S256x1024.Iotas .tc 32 [0]
  iota_S256x1024_d1_w32 : S256x1024.Iotas .tc 32 [1]
  reduces_S256x1024_S256 : S256x1024.Reduces [1] S256
  broadcasts_S256x1_S256x1024 : S256x1.Broadcasts S256x1024
  inb_S2048x64_S256x64_1024_0 : ∀ a, (![1024, 0] : Fin 2 → Nat) a + S256x64.size a ≤ S2048x64.size a
  inb_S2048x64_S1280x64_0_0 : ∀ a, (![0, 0] : Fin 2 → Nat) a + S1280x64.size a ≤ S2048x64.size a
  h_S1280x64 : 0 < S1280x64.numel
  iota_S256x1280_d0_w32 : S256x1280.Iotas .tc 32 [0]
  iota_S256x1280_d1_w32 : S256x1280.Iotas .tc 32 [1]
  reduces_S256x1280_S256 : S256x1280.Reduces [1] S256
  broadcasts_S256x1_S256x1280 : S256x1.Broadcasts S256x1280
  inb_S2048x64_S256x64_1280_0 : ∀ a, (![1280, 0] : Fin 2 → Nat) a + S256x64.size a ≤ S2048x64.size a
  inb_S2048x64_S1536x64_0_0 : ∀ a, (![0, 0] : Fin 2 → Nat) a + S1536x64.size a ≤ S2048x64.size a
  h_S1536x64 : 0 < S1536x64.numel
  iota_S256x1536_d0_w32 : S256x1536.Iotas .tc 32 [0]
  iota_S256x1536_d1_w32 : S256x1536.Iotas .tc 32 [1]
  reduces_S256x1536_S256 : S256x1536.Reduces [1] S256
  broadcasts_S256x1_S256x1536 : S256x1.Broadcasts S256x1536
  inb_S2048x64_S256x64_1536_0 : ∀ a, (![1536, 0] : Fin 2 → Nat) a + S256x64.size a ≤ S2048x64.size a
  inb_S2048x64_S1792x64_0_0 : ∀ a, (![0, 0] : Fin 2 → Nat) a + S1792x64.size a ≤ S2048x64.size a
  h_S1792x64 : 0 < S1792x64.numel
  iota_S256x1792_d0_w32 : S256x1792.Iotas .tc 32 [0]
  iota_S256x1792_d1_w32 : S256x1792.Iotas .tc 32 [1]
  reduces_S256x1792_S256 : S256x1792.Reduces [1] S256
  broadcasts_S256x1_S256x1792 : S256x1.Broadcasts S256x1792
  inb_S2048x64_S256x64_1792_0 : ∀ a, (![1792, 0] : Fin 2 → Nat) a + S256x64.size a ≤ S2048x64.size a
  iota_S256x2048_d0_w32 : S256x2048.Iotas .tc 32 [0]
  iota_S256x2048_d1_w32 : S256x2048.Iotas .tc 32 [1]
  reduces_S256x2048_S256 : S256x2048.Reduces [1] S256
  broadcasts_S256x1_S256x2048 : S256x1.Broadcasts S256x2048
  dot_S2048x1024_S64x1024_S2048x64_1_1_0_0_n_n_wf : DotDims.WF S2048x1024 S64x1024 S2048x64 [1] [1] [0] [0] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  dot_S256x64_S512x64_S256x512_1_1_0_0_n_n_wf : DotDims.WF S256x64 S512x64 S256x512 [1] [1] [0] [0] [] []
  dot_S256x512_S512x64_S256x64_1_0_0_1_n_n_wf : DotDims.WF S256x512 S512x64 S256x64 [1] [0] [0] [1] [] []
  dot_S256x64_S768x64_S256x768_1_1_0_0_n_n_wf : DotDims.WF S256x64 S768x64 S256x768 [1] [1] [0] [0] [] []
  dot_S256x768_S768x64_S256x64_1_0_0_1_n_n_wf : DotDims.WF S256x768 S768x64 S256x64 [1] [0] [0] [1] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  dot_S256x64_S1280x64_S256x1280_1_1_0_0_n_n_wf : DotDims.WF S256x64 S1280x64 S256x1280 [1] [1] [0] [0] [] []
  dot_S256x1280_S1280x64_S256x64_1_0_0_1_n_n_wf : DotDims.WF S256x1280 S1280x64 S256x64 [1] [0] [0] [1] [] []
  dot_S256x64_S1536x64_S256x1536_1_1_0_0_n_n_wf : DotDims.WF S256x64 S1536x64 S256x1536 [1] [1] [0] [0] [] []
  dot_S256x1536_S1536x64_S256x64_1_0_0_1_n_n_wf : DotDims.WF S256x1536 S1536x64 S256x64 [1] [0] [0] [1] [] []
  dot_S256x64_S1792x64_S256x1792_1_1_0_0_n_n_wf : DotDims.WF S256x64 S1792x64 S256x1792 [1] [1] [0] [0] [] []
  dot_S256x1792_S1792x64_S256x64_1_0_0_1_n_n_wf : DotDims.WF S256x1792 S1792x64 S256x64 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S512x64_S256x512_1_1_0_0_n_n : DotDims S256x64 S512x64 S256x512 where
  lhsContracting := [1]
  rhsContracting := [1]
  lhsNonContracting := [0]
  rhsNonContracting := [0]
  lhsBatch := []
  rhsBatch := []
  wf := dot_S256x64_S512x64_S256x512_1_1_0_0_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x64_S768x64_S256x768_1_1_0_0_n_n : DotDims S256x64 S768x64 S256x768 where
  lhsContracting := [1]
  rhsContracting := [1]
  lhsNonContracting := [0]
  rhsNonContracting := [0]
  lhsBatch := []
  rhsBatch := []
  wf := dot_S256x64_S768x64_S256x768_1_1_0_0_n_n_wf
def dot_S256x768_S768x64_S256x64_1_0_0_1_n_n : DotDims S256x768 S768x64 S256x64 where
  lhsContracting := [1]
  rhsContracting := [0]
  lhsNonContracting := [0]
  rhsNonContracting := [1]
  lhsBatch := []
  rhsBatch := []
  wf := dot_S256x768_S768x64_S256x64_1_0_0_1_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S1280x64_S256x1280_1_1_0_0_n_n : DotDims S256x64 S1280x64 S256x1280 where
  lhsContracting := [1]
  rhsContracting := [1]
  lhsNonContracting := [0]
  rhsNonContracting := [0]
  lhsBatch := []
  rhsBatch := []
  wf := dot_S256x64_S1280x64_S256x1280_1_1_0_0_n_n_wf
def dot_S256x1280_S1280x64_S256x64_1_0_0_1_n_n : DotDims S256x1280 S1280x64 S256x64 where
  lhsContracting := [1]
  rhsContracting := [0]
  lhsNonContracting := [0]
  rhsNonContracting := [1]
  lhsBatch := []
  rhsBatch := []
  wf := dot_S256x1280_S1280x64_S256x64_1_0_0_1_n_n_wf
def dot_S256x64_S1536x64_S256x1536_1_1_0_0_n_n : DotDims S256x64 S1536x64 S256x1536 where
  lhsContracting := [1]
  rhsContracting := [1]
  lhsNonContracting := [0]
  rhsNonContracting := [0]
  lhsBatch := []
  rhsBatch := []
  wf := dot_S256x64_S1536x64_S256x1536_1_1_0_0_n_n_wf
def dot_S256x1536_S1536x64_S256x64_1_0_0_1_n_n : DotDims S256x1536 S1536x64 S256x64 where
  lhsContracting := [1]
  rhsContracting := [0]
  lhsNonContracting := [0]
  rhsNonContracting := [1]
  lhsBatch := []
  rhsBatch := []
  wf := dot_S256x1536_S1536x64_S256x64_1_0_0_1_n_n_wf
def dot_S256x64_S1792x64_S256x1792_1_1_0_0_n_n : DotDims S256x64 S1792x64 S256x1792 where
  lhsContracting := [1]
  rhsContracting := [1]
  lhsNonContracting := [0]
  rhsNonContracting := [0]
  lhsBatch := []
  rhsBatch := []
  wf := dot_S256x64_S1792x64_S256x1792_1_1_0_0_n_n_wf
def dot_S256x1792_S1792x64_S256x64_1_0_0_1_n_n : DotDims S256x1792 S1792x64 S256x64 where
  lhsContracting := [1]
  rhsContracting := [0]
  lhsNonContracting := [0]
  rhsNonContracting := [1]
  lhsBatch := []
  rhsBatch := []
  wf := dot_S256x1792_S1792x64_S256x64_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S64x1024 : Shape := ⟨2, ![64, 1024]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S8x2048x64, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S_, .i1⟩
  | .hbm, ⟨8, _⟩ => ⟨S2048x2048, .i1⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .i1⟩
  | .hbm, ⟨16, _⟩ => ⟨S2048x2048, .i1⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S8x2048x2048, .i1⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v5 : Ref sig .tc := ⟨.hbm, 17, rfl⟩
abbrev main_cst_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S64x1024_S8x2048x64_2_1_01_0_n_n_wf : DotDims.WF S8x2048x1024 S64x1024 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KTerms.lean ====
/-
  The kernel's body as terms, word by word as printed: per batch the projection `proj` (the keys, written whole into the scratch), the
  eight query tiles of 256 rows each — tile `k` attends rows `256k … 256k+255` against the first `256(k+1)` keys, both
  read back from the scratch — and the result block they tile, through the view that drops its unit leading axis.
-/
import proofs.«409626_j19258633355334_3_alg».proof.Proof.Gen.Kernel.Skeleton
import Idealize.ShloMosaic.Lib.Pipeline.FrameBody
import Idealize.ShloMosaic.Lib.ValueIdx

noncomputable section

namespace Cert.Kernel.Body

open Idealize.ShloMosaic Idealize.SL.Sem Cert.Kernel Cert.Kernel.Gen

variable {F : FTy → Type} [FloatOps F]

/-! ## The row rectangles of the scratch and of the result: a tile's 256 query rows, and the keys up to its end -/

abbrev rq0 : Rect S2048x64 := Rect.unit (s := S2048x64) ![0, 0] S256x64.size inb_S2048x64_S256x64_0_0
abbrev rq1 : Rect S2048x64 := Rect.unit (s := S2048x64) ![256, 0] S256x64.size inb_S2048x64_S256x64_256_0
abbrev rq2 : Rect S2048x64 := Rect.unit (s := S2048x64) ![512, 0] S256x64.size inb_S2048x64_S256x64_512_0
abbrev rq3 : Rect S2048x64 := Rect.unit (s := S2048x64) ![768, 0] S256x64.size inb_S2048x64_S256x64_768_0
abbrev rq4 : Rect S2048x64 := Rect.unit (s := S2048x64) ![1024, 0] S256x64.size inb_S2048x64_S256x64_1024_0
abbrev rq5 : Rect S2048x64 := Rect.unit (s := S2048x64) ![1280, 0] S256x64.size inb_S2048x64_S256x64_1280_0
abbrev rq6 : Rect S2048x64 := Rect.unit (s := S2048x64) ![1536, 0] S256x64.size inb_S2048x64_S256x64_1536_0
abbrev rq7 : Rect S2048x64 := Rect.unit (s := S2048x64) ![1792, 0] S256x64.size inb_S2048x64_S256x64_1792_0
abbrev rk1 : Rect S2048x64 := Rect.unit (s := S2048x64) ![0, 0] S512x64.size inb_S2048x64_S512x64_0_0
abbrev rk2 : Rect S2048x64 := Rect.unit (s := S2048x64) ![0, 0] S768x64.size inb_S2048x64_S768x64_0_0
abbrev rk3 : Rect S2048x64 := Rect.unit (s := S2048x64) ![0, 0] S1024x64.size inb_S2048x64_S1024x64_0_0
abbrev rk4 : Rect S2048x64 := Rect.unit (s := S2048x64) ![0, 0] S1280x64.size inb_S2048x64_S1280x64_0_0
abbrev rk5 : Rect S2048x64 := Rect.unit (s := S2048x64) ![0, 0] S1536x64.size inb_S2048x64_S1536x64_0_0
abbrev rk6 : Rect S2048x64 := Rect.unit (s := S2048x64) ![0, 0] S1792x64.size inb_S2048x64_S1792x64_0_0
abbrev rk7 : Rect S2048x64 := Rect.unit (s := S2048x64) ![0, 0] S2048x64.size inb_S2048x64_S2048x64_0_0

/-! ## The keys and the tiles -/

/-- The keys of one batch: the batch's rows of `x` against the rows of `W_k`. -/
def proj (x0 : Vec F S1x2048x1024 .f32) (x1 : Vec F S64x1024 .f32) : FVec F S2048x64 .bf16 := k0_pay1 x0 x1

/-- Tile `k` of the result from the keys `K`: its query rows and its key rows are rows of `K`. -/
def tile0 (K : Vec F S2048x64 .bf16) : FVec F S256x64 .f32 := k0_pay2 (View.ld K rq0) (View.ld K rq0)
def tile1 (K : Vec F S2048x64 .bf16) : FVec F S256x64 .f32 := k0_pay3 (View.ld K rq1) (View.ld K rk1)
def tile2 (K : Vec F S2048x64 .bf16) : FVec F S256x64 .f32 :=
  k0_pay6 (View.ld K rk2) (k0_pay4 (View.ld K rq2) (View.ld K rk2)) (iota .tc S256x768 32 [0] iota_S256x768_d0_w32) k0_pay5
def tile3 (K : Vec F S2048x64 .bf16) : FVec F S256x64 .f32 :=
  k0_pay10 (View.ld K rk3) (k0_pay8 (View.ld K rq3) (View.ld K rk3)) (k0_pay9 (View.ld K rq3) (View.ld K rk3)) (constant S256x64 .f32 0x00000000#32)
def tile4 (K : Vec F S2048x64 .bf16) : FVec F S256x64 .f32 := k0_pay11 (View.ld K rq4) (View.ld K rk4)
def tile5 (K : Vec F S2048x64 .bf16) : FVec F S256x64 .f32 := k0_pay12 (View.ld K rq5) (View.ld K rk5)
def tile6 (K : Vec F S2048x64 .bf16) : FVec F S256x64 .f32 :=
  k0_pay15 (View.ld K rk6) (k0_pay13 (View.ld K rq6) (View.ld K rk6)) (k0_pay14 (View.ld K rq6) (View.ld K rk6))
def tile7 (K : Vec F S2048x64 .bf16) : FVec F S256x64 .f32 := k0_pay16 (View.ld K rq7) (View.ld K rk7)

/-- The eight stores, last first. -/
def pieces (K : Vec F S2048x64 .bf16) : List (View.Piece (Elt F) S2048x64 .f32) :=
  [⟨rq7, tile7 K⟩, ⟨rq6, tile6 K⟩, ⟨rq5, tile5 K⟩, ⟨rq4, tile4 K⟩, ⟨rq3, tile3 K⟩, ⟨rq2, tile2 K⟩, ⟨rq1, tile1 K⟩, ⟨rq0, tile0 K⟩]

/-- The 2048 × 64 result of one batch. -/
def outS (x0 : Vec F S1x2048x1024 .f32) (x1 : Vec F S64x1024 .f32) : Vec F S2048x64 .f32 := View.canon (pieces (proj x0 x1))

/-- An index of the 1 × 2048 × 64 block without its unit axis. -/
def sq (i : S1x2048x64.Idx) : S2048x64.Idx := ValueIdx.ix2 (⟨(i 1).val, (i 1).isLt⟩ : Fin 2048) (⟨(i 2).val, (i 2).isLt⟩ : Fin 64)

/-- The result block of one grid point. -/
def out0_2 (x0 : Vec F S1x2048x1024 .f32) (x1 : Vec F S64x1024 .f32) : Vec F S1x2048x64 .f32 := fun i => outS x0 x1 (sq i)

end Cert.Kernel.Body

end
-- ==== Proof.KBody.lean ====
/-
  The kernel's frame, at the word level: at each of the eight grid points (one per batch) the body projects the batch's block of
  `x` against `W_k` into the scratch, then for each of eight query tiles reads its rows and the keys up to its end back
  from the scratch and stores the tile's rows of the result block. The result block's buffer is written through the view
  that drops its unit leading axis; the eight row rectangles tile that view, so what the buffer reads afterwards is a
  function of the two input blocks alone (`out0_2`), whatever it held before. The scratch is the kernel's own and is
  overwritten whole before it is read, so the class invariant (the scratch at some contents) is kept.
-/
import proofs.«409626_j19258633355334_3_alg».proof.Proof.Gen.Kernel.Frame
import proofs.«409626_j19258633355334_3_alg».proof.Proof.Gen.Kernel.Skeleton
import proofs.«409626_j19258633355334_3_alg».proof.Proof.KTerms
import Idealize.ShloMosaic.Lib.Pipeline.Value

set_option maxRecDepth 16384

noncomputable section
namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

abbrev rwhole : Rect S1x2048x64 := Rect.unit (s := S1x2048x64) ![0, 0, 0] S1x2048x64.size inb_S1x2048x64_S1x2048x64_0_0_0

/-- The result block's buffer read through the view that drops its unit axis. -/
theorem read_through_squeeze (arg3 : Memref sig .tc .vmem S1x2048x64 .f32) (hs : ∀ a, rwhole.stride a = 1)
    (G : arg3.view.ty.Contents (Elt F)) (i : S1x2048x64.Idx) :
    arg3.view.read (Elt F) G i
      = ((arg3.slice rwhole hs).squeeze S2048x64 squeezes_S1x2048x64_S2048x64).view.read (Elt F) G (sq i) := by
  rw [Memref.read_squeeze_slice arg3 rwhole hs squeezes_S1x2048x64_S2048x64 (by decide) G]
  refine Eq.trans ?_ (shapeCast_dropUnit_apply (n := 2) ![2048, 64] (View.readAt (Elt F) arg3.view rwhole.toLoadRect G) _ (sq i)).symm
  rw [View.readAt_apply]
  refine congrArg _ (funext fun a => Fin.ext ?_)
  match a with
  | ⟨0, _⟩ =>
    have h0 : (i ⟨0, by decide⟩).val < 1 := by exact (i ⟨0, by decide⟩).isLt
    show (i ⟨0, _⟩).val = 0 + 1 * 0
    omega
  | ⟨1, _⟩ => show (i ⟨1, _⟩).val = 0 + 1 * (i ⟨1, by decide⟩).val; omega
  | ⟨2, _⟩ => show (i ⟨2, _⟩).val = 0 + 1 * (i ⟨2, by decide⟩).val; omega

/-- The eight row rectangles tile the 2048 × 64 block, whatever the payloads. -/
theorem cover_pieces (p0 p1 p2 p3 p4 p5 p6 p7 : Vec F S256x64 .f32) (y : S2048x64.Idx) :
    ∃ pc ∈ ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S2048x64 .f32)), y ∈ pc.1.set :=
  View.cover_of_tiled ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S2048x64 .f32)) S256x64.size (by rfl) y

set_option maxHeartbeats 4000000 in
theorem sound_kernel (c : Dev nD) (E : Set ℕ) (i : grid0.Coords)
    (arg1 : Memref sig .tc .vmem S1x2048x1024 .f32) (harg1 : arg1.IsWhole)
    (arg2 : Memref sig .tc .vmem S64x1024 .f32) (harg2 : arg2.IsWhole)
    (arg3 : Memref sig .tc .vmem S1x2048x64 .f32) (harg3 : arg3.IsWhole)
    (arg4 : Memref sig .tc .vmem S2048x64 .bf16) (harg4 : arg4.IsWhole)
    (x0 : Vec F S1x2048x1024 .f32) (x1 : Vec F S64x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ (∃ d, owns (c : Thread nD τ) arg4 fullShare d)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  unfold owns
  rw [harg3.set_eq_univ, harg4.set_eq_univ]
  iintro ⟨⟨%f0, %hf0, H0⟩, ⟨%f1, %hf1, H1⟩, ⟨%d2, %f2, -, H2⟩, ⟨%d3, %f3, -, H3⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    funext i
    rw [read_through_squeeze arg3 (fun _ => rfl) _ i]
    have hz2 : (![0, 0] : Fin S2048x64.rank → Nat) = fun _ => 0 := funext fun a => by fin_cases a <;> rfl
    have hz3 : (![0, 0, 0] : Fin S1x2048x1024.rank → Nat) = fun _ => 0 := funext fun a => by fin_cases a <;> rfl
    have hz2' : (![0, 0] : Fin S64x1024.rank → Nat) = fun _ => 0 := funext fun a => by fin_cases a <;> rfl
    sl_unfold_run_names
    simp only [View.readCov_eq_canon', View.canon_unit_zero (S := S2048x64) hz2, View.readAt_eq_ld, View.ld_unit_zero (S := S1x2048x1024) hz3, View.ld_unit_zero (S := S64x1024) hz2']
    exact congrFun (View.read_writes_eq_canon ((arg3.slice rwhole (fun _ => rfl)).squeeze S2048x64 squeezes_S1x2048x64_S2048x64).view f2
      (pieces (proj (arg1.view.read (Elt F) f0) (arg2.view.read (Elt F) f1))) (cover_pieces _ _ _ _ _ _ _ _)) (sq i)
  · iexists _; iexists _; isplitr
    swap; · iexact H3
    ipureintro; rfl

variable (m : (ℓ : Loc nD τ sig) → Buf (Elt F) ℓ) (ρ : Dev nD → PrngReg)

/-! ## The pipeline's proof data -/

/-- The arrays as the region finds them; after the body at point `t` each input's buffer at its block and the
    result's at `out0_2` of the two input blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The class invariant with the scratch as a memref owned at some contents. -/
theorem PhiA0_eq (c : Dev nD) :
    (Pipeline.ΦA spec0 c : sProp 𝕄)
      = iprop(iprop((∃ d, owns (c : Thread nD τ) (Memref.whole cc0_scratch0 : Memref sig .tc .vmem S2048x64 .bf16) fullShare d)) ∗ (∃ r, prngReg c r)) := by
  unfold Pipeline.ΦA; rw [scopedRest0_eq]; simp only [owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA0_eq]
  iintro ⟨⟨Hs, Hr⟩, Ho, ⟨%d0, H0⟩, ⟨%d1, H1⟩, ⟨%d2, H2⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [Hs]; · iexact Hs
  iintro ⟨H0, H1, H2, Hs⟩
  isplitl [Hs Hr]
  · isplitl [Hs]; · iexact Hs
    iexact Hr
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body
end
-- ==== Proof.KITerms.lean ====
/-
  The idealized kernel's body as terms: per batch the projection `proj` (the keys, written whole into the scratch), the
  eight query tiles of 256 rows each — tile `k` attends rows `256k … 256k+255` against the first `256(k+1)` keys, both
  read back from the scratch — and the result block they tile, through the view that drops its unit leading axis.
-/
import proofs.«409626_j19258633355334_3_alg».proof.Proof.Gen.KernelIdeal.Skeleton
import Idealize.ShloMosaic.Lib.Pipeline.FrameBody
import Idealize.ShloMosaic.Lib.ValueIdx

noncomputable section

namespace Cert.KernelIdeal.Body

open Idealize.ShloMosaic Idealize.SL.Sem Cert.KernelIdeal Cert.KernelIdeal.Gen

variable {F : FTy → Type} [FloatOps F] [Named F]

/-! ## The row rectangles of the scratch and of the result: a tile's 256 query rows, and the keys up to its end -/

abbrev rq0 : Rect S2048x64 := Rect.unit (s := S2048x64) ![0, 0] S256x64.size inb_S2048x64_S256x64_0_0
abbrev rq1 : Rect S2048x64 := Rect.unit (s := S2048x64) ![256, 0] S256x64.size inb_S2048x64_S256x64_256_0
abbrev rq2 : Rect S2048x64 := Rect.unit (s := S2048x64) ![512, 0] S256x64.size inb_S2048x64_S256x64_512_0
abbrev rq3 : Rect S2048x64 := Rect.unit (s := S2048x64) ![768, 0] S256x64.size inb_S2048x64_S256x64_768_0
abbrev rq4 : Rect S2048x64 := Rect.unit (s := S2048x64) ![1024, 0] S256x64.size inb_S2048x64_S256x64_1024_0
abbrev rq5 : Rect S2048x64 := Rect.unit (s := S2048x64) ![1280, 0] S256x64.size inb_S2048x64_S256x64_1280_0
abbrev rq6 : Rect S2048x64 := Rect.unit (s := S2048x64) ![1536, 0] S256x64.size inb_S2048x64_S256x64_1536_0
abbrev rq7 : Rect S2048x64 := Rect.unit (s := S2048x64) ![1792, 0] S256x64.size inb_S2048x64_S256x64_1792_0
abbrev rk1 : Rect S2048x64 := Rect.unit (s := S2048x64) ![0, 0] S512x64.size inb_S2048x64_S512x64_0_0
abbrev rk2 : Rect S2048x64 := Rect.unit (s := S2048x64) ![0, 0] S768x64.size inb_S2048x64_S768x64_0_0
abbrev rk3 : Rect S2048x64 := Rect.unit (s := S2048x64) ![0, 0] S1024x64.size inb_S2048x64_S1024x64_0_0
abbrev rk4 : Rect S2048x64 := Rect.unit (s := S2048x64) ![0, 0] S1280x64.size inb_S2048x64_S1280x64_0_0
abbrev rk5 : Rect S2048x64 := Rect.unit (s := S2048x64) ![0, 0] S1536x64.size inb_S2048x64_S1536x64_0_0
abbrev rk6 : Rect S2048x64 := Rect.unit (s := S2048x64) ![0, 0] S1792x64.size inb_S2048x64_S1792x64_0_0
abbrev rk7 : Rect S2048x64 := Rect.unit (s := S2048x64) ![0, 0] S2048x64.size inb_S2048x64_S2048x64_0_0

/-! ## The keys and the tiles -/

/-- The keys of one batch: the batch's rows of `x` against the rows of `W_k`. -/
def proj (x0 : Vec F S1x2048x1024 .f32) (x1 : Vec F S64x1024 .f32) : FVec F S2048x64 .bf16 := k0_pay1 x0 x1

/-- Tile `k` of the result from the keys `K`: its query rows and its key rows are rows of `K`. -/
def tile0 (K : Vec F S2048x64 .bf16) : FVec F S256x64 .f32 := k0_pay2 (View.ld K rq0) (View.ld K rq0)
def tile1 (K : Vec F S2048x64 .bf16) : FVec F S256x64 .f32 := k0_pay3 (View.ld K rq1) (View.ld K rk1)
def tile2 (K : Vec F S2048x64 .bf16) : FVec F S256x64 .f32 :=
  k0_pay6 (View.ld K rk2) (k0_pay4 (View.ld K rq2) (View.ld K rk2)) (iota .tc S256x768 32 [0] iota_S256x768_d0_w32) k0_pay5
def tile3 (K : Vec F S2048x64 .bf16) : FVec F S256x64 .f32 :=
  k0_pay10 (View.ld K rk3) (k0_pay8 (View.ld K rq3) (View.ld K rk3)) (k0_pay9 (View.ld K rq3) (View.ld K rk3)) (constant S256x64 .f32 0x00000000#32)
def tile4 (K : Vec F S2048x64 .bf16) : FVec F S256x64 .f32 := k0_pay11 (View.ld K rq4) (View.ld K rk4)
def tile5 (K : Vec F S2048x64 .bf16) : FVec F S256x64 .f32 := k0_pay12 (View.ld K rq5) (View.ld K rk5)
def tile6 (K : Vec F S2048x64 .bf16) : FVec F S256x64 .f32 :=
  k0_pay15 (View.ld K rk6) (k0_pay13 (View.ld K rq6) (View.ld K rk6)) (k0_pay14 (View.ld K rq6) (View.ld K rk6))
def tile7 (K : Vec F S2048x64 .bf16) : FVec F S256x64 .f32 := k0_pay16 (View.ld K rq7) (View.ld K rk7)

/-- The eight stores, last first. -/
def pieces (K : Vec F S2048x64 .bf16) : List (View.Piece (Elt F) S2048x64 .f32) :=
  [⟨rq7, tile7 K⟩, ⟨rq6, tile6 K⟩, ⟨rq5, tile5 K⟩, ⟨rq4, tile4 K⟩, ⟨rq3, tile3 K⟩, ⟨rq2, tile2 K⟩, ⟨rq1, tile1 K⟩, ⟨rq0, tile0 K⟩]

/-- The 2048 × 64 result of one batch. -/
def outS (x0 : Vec F S1x2048x1024 .f32) (x1 : Vec F S64x1024 .f32) : Vec F S2048x64 .f32 := View.canon (pieces (proj x0 x1))

/-- An index of the 1 × 2048 × 64 block without its unit axis. -/
def sq (i : S1x2048x64.Idx) : S2048x64.Idx := ValueIdx.ix2 (⟨(i 1).val, (i 1).isLt⟩ : Fin 2048) (⟨(i 2).val, (i 2).isLt⟩ : Fin 64)

/-- The result block of one grid point. -/
def out0_2 (x0 : Vec F S1x2048x1024 .f32) (x1 : Vec F S64x1024 .f32) : Vec F S1x2048x64 .f32 := fun i => outS x0 x1 (sq i)

end Cert.KernelIdeal.Body

end
-- ==== Proof.KIBody.lean ====
/-
  The idealized kernel's frame: at each of the eight grid points (one per batch) the body projects the batch's block of
  `x` against `W_k` into the scratch, then for each of eight query tiles reads its rows and the keys up to its end back
  from the scratch and stores the tile's rows of the result block. The result block's buffer is written through the view
  that drops its unit leading axis; the eight row rectangles tile that view, so what the buffer reads afterwards is a
  function of the two input blocks alone (`out0_2`), whatever it held before. The scratch is the kernel's own and is
  overwritten whole before it is read, so the class invariant (the scratch at some contents) is kept.
-/
import proofs.«409626_j19258633355334_3_alg».proof.Proof.Gen.KernelIdeal.Frame
import proofs.«409626_j19258633355334_3_alg».proof.Proof.Gen.KernelIdeal.Skeleton
import proofs.«409626_j19258633355334_3_alg».proof.Proof.KITerms
import Idealize.ShloMosaic.Lib.Pipeline.Value

set_option maxRecDepth 16384

noncomputable section
namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ

abbrev rwhole : Rect S1x2048x64 := Rect.unit (s := S1x2048x64) ![0, 0, 0] S1x2048x64.size inb_S1x2048x64_S1x2048x64_0_0_0

/-- The result block's buffer read through the view that drops its unit axis. -/
theorem read_through_squeeze (arg3 : Memref sig .tc .vmem S1x2048x64 .f32) (hs : ∀ a, rwhole.stride a = 1)
    (G : arg3.view.ty.Contents (Elt F)) (i : S1x2048x64.Idx) :
    arg3.view.read (Elt F) G i
      = ((arg3.slice rwhole hs).squeeze S2048x64 squeezes_S1x2048x64_S2048x64).view.read (Elt F) G (sq i) := by
  rw [Memref.read_squeeze_slice arg3 rwhole hs squeezes_S1x2048x64_S2048x64 (by decide) G]
  refine Eq.trans ?_ (shapeCast_dropUnit_apply (n := 2) ![2048, 64] (View.readAt (Elt F) arg3.view rwhole.toLoadRect G) _ (sq i)).symm
  rw [View.readAt_apply]
  refine congrArg _ (funext fun a => Fin.ext ?_)
  match a with
  | ⟨0, _⟩ =>
    have h0 : (i ⟨0, by decide⟩).val < 1 := by exact (i ⟨0, by decide⟩).isLt
    show (i ⟨0, _⟩).val = 0 + 1 * 0
    omega
  | ⟨1, _⟩ => show (i ⟨1, _⟩).val = 0 + 1 * (i ⟨1, by decide⟩).val; omega
  | ⟨2, _⟩ => show (i ⟨2, _⟩).val = 0 + 1 * (i ⟨2, by decide⟩).val; omega

/-- The eight row rectangles tile the 2048 × 64 block, whatever the payloads. -/
theorem cover_pieces (p0 p1 p2 p3 p4 p5 p6 p7 : Vec F S256x64 .f32) (y : S2048x64.Idx) :
    ∃ pc ∈ ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S2048x64 .f32)), y ∈ pc.1.set :=
  View.cover_of_tiled ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S2048x64 .f32)) S256x64.size (by rfl) y

set_option maxHeartbeats 4000000 in
theorem sound_kernel (c : Dev nD) (E : Set ℕ) (i : grid0.Coords)
    (arg1 : Memref sig .tc .vmem S1x2048x1024 .f32) (harg1 : arg1.IsWhole)
    (arg2 : Memref sig .tc .vmem S64x1024 .f32) (harg2 : arg2.IsWhole)
    (arg3 : Memref sig .tc .vmem S1x2048x64 .f32) (harg3 : arg3.IsWhole)
    (arg4 : Memref sig .tc .vmem S2048x64 .bf16) (harg4 : arg4.IsWhole)
    (x0 : Vec F S1x2048x1024 .f32) (x1 : Vec F S64x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ (∃ d, owns (c : Thread nD τ) arg4 fullShare d)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  unfold owns
  rw [harg3.set_eq_univ, harg4.set_eq_univ]
  iintro ⟨⟨%f0, %hf0, H0⟩, ⟨%f1, %hf1, H1⟩, ⟨%d2, %f2, -, H2⟩, ⟨%d3, %f3, -, H3⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    funext i
    rw [read_through_squeeze arg3 (fun _ => rfl) _ i]
    have hz2 : (![0, 0] : Fin S2048x64.rank → Nat) = fun _ => 0 := funext fun a => by fin_cases a <;> rfl
    have hz3 : (![0, 0, 0] : Fin S1x2048x1024.rank → Nat) = fun _ => 0 := funext fun a => by fin_cases a <;> rfl
    have hz2' : (![0, 0] : Fin S64x1024.rank → Nat) = fun _ => 0 := funext fun a => by fin_cases a <;> rfl
    sl_unfold_run_names
    simp only [View.readCov_eq_canon', View.canon_unit_zero (S := S2048x64) hz2, View.readAt_eq_ld, View.ld_unit_zero (S := S1x2048x1024) hz3, View.ld_unit_zero (S := S64x1024) hz2']
    exact congrFun (View.read_writes_eq_canon ((arg3.slice rwhole (fun _ => rfl)).squeeze S2048x64 squeezes_S1x2048x64_S2048x64).view f2
      (pieces (proj (arg1.view.read (Elt F) f0) (arg2.view.read (Elt F) f1))) (cover_pieces _ _ _ _ _ _ _ _)) (sq i)
  · iexists _; iexists _; isplitr
    swap; · iexact H3
    ipureintro; rfl

variable (m : (ℓ : Loc nD τ sig) → Buf (Elt F) ℓ) (ρ : Dev nD → PrngReg)

/-! ## The pipeline's proof data -/

/-- The arrays as the region finds them; after the body at point `t` each input's buffer at its block and the
    result's at `out0_2` of the two input blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The class invariant with the scratch as a memref owned at some contents. -/
theorem PhiA0_eq (c : Dev nD) :
    (Pipeline.ΦA spec0 c : sProp 𝕄)
      = iprop(iprop((∃ d, owns (c : Thread nD τ) (Memref.whole cc0_scratch0 : Memref sig .tc .vmem S2048x64 .bf16) fullShare d)) ∗ (∃ r, prngReg c r)) := by
  unfold Pipeline.ΦA; rw [scopedRest0_eq]; simp only [owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA0_eq]
  iintro ⟨⟨Hs, Hr⟩, Ho, ⟨%d0, H0⟩, ⟨%d1, H1⟩, ⟨%d2, H2⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [Hs]; · iexact Hs
  iintro ⟨H0, H1, H2, Hs⟩
  isplitl [Hs Hr]
  · isplitl [Hs]; · iexact Hs
    iexact Hr
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body
end
-- ==== Proof.Spec.lean ====
/-
  Causal self-attention with q = k = v, row by row, on the extended reals: the two arrangements of one
  softmax-weighted average that the two programs compute, and the statement that they agree when the keys are real.

  For one query row at absolute position `t`, a score row over `n` key columns is
  `s j = (∑ h, q h * K j h) * sc` where column `j` is at or before `t`, and `⊥` (−∞) after it.
  `attnTile` takes the maximum `M` of the row, the weights `e j = exp (s j − M)`, and divides the weighted sum of
  the keys by the sum of the weights ONCE. `attnRef` normalises each weight first and then sums, and takes the maximum and
  the sum of weights from the neutral elements `⊥` and `0`. A masked column has weight `exp ⊥ = 0`, so columns after
  `t` add nothing to either sum, which is why a row may be cut off at any `n > t`.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The masked, scaled score row of the query `q` at position `t` against `n` keys. -/
def srow {n : ℕ} (t : ℕ) (sc : EReal) (q : Fin 64 → EReal) (K : Fin n → Fin 64 → EReal) (j : Fin n) : EReal :=
  if j.val ≤ t then (∑ h : Fin 64, q h * K j h) * sc else ⊥

/-- One division after the weighted sum. -/
def attnTile {n : ℕ} (t : ℕ) (sc : EReal) (q : Fin 64 → EReal) (K : Fin n → Fin 64 → EReal) (h : Fin 64) : EReal :=
  Ideal.div (∑ j : Fin n, Ideal.exp (srow t sc q K j - Finset.univ.fold max ⊥ (srow t sc q K)) * K j h)
            (∑ j : Fin n, Ideal.exp (srow t sc q K j - Finset.univ.fold max ⊥ (srow t sc q K)))

/-- Each weight normalised, then the sum. -/
def attnRef {N : ℕ} (t : ℕ) (sc : EReal) (q : Fin 64 → EReal) (K : Fin N → Fin 64 → EReal) (h : Fin 64) : EReal :=
  ∑ j : Fin N, Ideal.div (Ideal.exp (srow t sc q K j - max ⊥ (Finset.univ.fold max ⊥ (srow t sc q K))))
      (0 + ∑ j' : Fin N, Ideal.exp (srow t sc q K j' - max ⊥ (Finset.univ.fold max ⊥ (srow t sc q K)))) * K j h

/-- The projected key of batch `b`, position `t`, head column `h`: the row of `X` against the row of `W`. -/
def kk (X : (⟨3, ![8, 2048, 1024]⟩ : Shape).Idx → EReal) (W : (⟨2, ![64, 1024]⟩ : Shape).Idx → EReal)
    (b : Fin 8) (t : Fin 2048) (h : Fin 64) : EReal :=
  ∑ c : Fin 1024, X (ix3 b t c) * W (ix2 h c)

/-- The scale 1/32 as the float word both programs carry. -/
def scI : EReal := Ideal.ofBits .f32 0x3D000000#32

/-- The whole result: every batch, every position, every head column. -/
def G (X : (⟨3, ![8, 2048, 1024]⟩ : Shape).Idx → EReal) (W : (⟨2, ![64, 1024]⟩ : Shape).Idx → EReal) :
    (⟨3, ![8, 2048, 64]⟩ : Shape).Idx → EReal := fun i =>
  attnRef (N := 2048) (i 1).val scI (kk X W ⟨(i 0).val, (i 0).isLt⟩ ⟨(i 1).val, (i 1).isLt⟩)
    (kk X W ⟨(i 0).val, (i 0).isLt⟩) ⟨(i 2).val, (i 2).isLt⟩

end Cert.Attn

end
-- ==== Proof.KIProj.lean ====
/-
  The keys read at one entry: position `t`, head column `h` is the row `t` of the batch's `x` against row `h` of `W_k`.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Idealize.SL.Sem Cert.KernelIdeal Cert.KernelIdeal.Gen

namespace Pj

/-! ### The projection's product: a row of `x` against a row of `W_k` -/

theorem lhs_0 (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl
theorem lhs_1 (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q
theorem rhs_0 (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl
theorem rhs_1 (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q

/-- The product into a zero accumulator, at position `t` and head column `h`: row `t` of the left operand against row `h` of the right. -/
theorem mm (x : FVec Ideal S2048x1024 .bf16) (y : FVec Ideal S64x1024 .bf16) (t : Fin 2048) (h : Fin 64) :
    matmul dot_S2048x1024_S64x1024_S2048x64_1_1_0_0_n_n none x y (constant (F := Ideal) S2048x64 .f32 0x00000000#32) (ix2 t h)
      = ∑ c : Fin 1024, x (ix2 t c) * y (ix2 h c) := by
  refine (Ideal.matmul_constant_zero_apply dot_S2048x1024_S64x1024_S2048x64_1_1_0_0_n_n none x y (ix2 t h)).trans ?_
  rw [← Equiv.sum_comp (ValueIdx.contrEquiv1 dot_S2048x1024_S64x1024_S2048x64_1_1_0_0_n_n 1024 rfl rfl).symm]
  refine Finset.sum_congr rfl fun k _ => ?_
  have hk := ValueIdx.contrEquiv1_symm_val dot_S2048x1024_S64x1024_S2048x64_1_1_0_0_n_n 1024 rfl rfl k
  have el : dot_S2048x1024_S64x1024_S2048x64_1_1_0_0_n_n.lhsIdx (ix2 t h) ((ValueIdx.contrEquiv1 dot_S2048x1024_S64x1024_S2048x64_1_1_0_0_n_n 1024 rfl rfl).symm k) = ix2 t k := funext fun a => Fin.ext (by
    match a with
    | ⟨0, _⟩ => exact lhs_0 _ _
    | ⟨1, _⟩ => exact (lhs_1 _ _).trans hk)
  have er : dot_S2048x1024_S64x1024_S2048x64_1_1_0_0_n_n.rhsIdx (ix2 t h) ((ValueIdx.contrEquiv1 dot_S2048x1024_S64x1024_S2048x64_1_1_0_0_n_n 1024 rfl rfl).symm k) = ix2 h k := funext fun a => Fin.ext (by
    match a with
    | ⟨0, _⟩ => exact rhs_0 _ _
    | ⟨1, _⟩ => exact (rhs_1 _ _).trans hk)
  rw [el, er]

/-- The payload, its steps written out: the unit axis dropped, the product, and a cast to the same shape. -/
theorem pay_eq (x0 : FVec Ideal S1x2048x1024 .f32) (x1 : FVec Ideal S64x1024 .f32) :
    k0_pay1 (F := Ideal) x0 x1
      = shapeCast S2048x64
          (truncf .bf16
            (matmul dot_S2048x1024_S64x1024_S2048x64_1_1_0_0_n_n none
              (truncf .bf16 (shapeCast S2048x1024 x0 shapeCasts_S1x2048x1024_S2048x1024) bitsLt_bf16_f32)
              (truncf .bf16 x1 bitsLt_bf16_f32) (constant (F := Ideal) S2048x64 .f32 0x00000000#32))
            bitsLt_bf16_f32)
          shapeCasts_S2048x64_S2048x64 := rfl

end Pj

theorem proj_apply (x0 : Vec Ideal S1x2048x1024 .f32) (x1 : Vec Ideal S64x1024 .f32) (t : Fin 2048) (h : Fin 64) :
    proj (F := Ideal) x0 x1 (ix2 t h) = ∑ c : Fin 1024, x0 (ix3 (0 : Fin 1) t c) * x1 (ix2 h c) := by
  unfold proj
  rw [Pj.pay_eq, shapeCast_self, truncf_apply, Pj.mm]
  refine Finset.sum_congr rfl fun c _ => ?_
  rw [truncf_apply, truncf_apply]
  exact congrArg (· * x1 (ix2 h c)) (shapeCast_1ab_ab_apply x0 shapeCasts_S1x2048x1024_S2048x1024 t c)

end Cert.KernelIdeal.Body

end
-- ==== Proof.KITile0.lean ====
/-
  Tile 0 of the idealized kernel read at one entry: rows 0 … 255 against the first 256 keys.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Idealize.SL.Sem Cert.KernelIdeal Cert.KernelIdeal.Gen

namespace T0

/-! ### The first 256 rows of the keys

In the first tile the queries and the keys are one and the same block: the rectangle of 256 rows at offset zero. A load
through it reads the keys at the same row and column. -/

theorem ld_rows (K : Vec Ideal S2048x64 .bf16) (i : Fin 256) (c : Fin 64) :
    View.ld K rq0 (ix2 i c) = K (ix2 (Fin.castLE (by decide : 256 ≤ 2048) i) c) :=
  congrArg K (funext fun a => Fin.ext (by
    match a with
    | ⟨0, _⟩ => show 0 + 1 * i.val = i.val; omega
    | ⟨1, _⟩ => show 0 + 1 * c.val = c.val; omega))

/-- The query row `r` of the first tile sits at position `0 + r`. -/
theorem castLE_row (r : Fin 256) :
    Fin.castLE (by decide : 256 ≤ 2048) r = (⟨0 + r.val, by have := r.isLt; omega⟩ : Fin 2048) :=
  Fin.ext (by show r.val = 0 + r.val; omega)

/-! ### Query rows against key rows: the 256 × 256 block of scores before scaling -/

theorem qk_lhs_0 (i : S256x256.Idx) (q : dot_S256x64_S256x64_S256x256_1_1_0_0_n_n.contr.Idx) :
    (dot_S256x64_S256x64_S256x256_1_1_0_0_n_n.lhsIdx i q 0).val = (i 0).val := by
  unfold DotDims.lhsIdx
  rw [dif_neg (show ¬(0 : Fin S256x64.rank) ∈ dot_S256x64_S256x64_S256x256_1_1_0_0_n_n.lhsBatch by decide),
    dif_pos (show (0 : Fin S256x64.rank) ∈ dot_S256x64_S256x64_S256x256_1_1_0_0_n_n.lhsNonContracting by decide)]
  rfl

theorem qk_lhs_1 (i : S256x256.Idx) (q : dot_S256x64_S256x64_S256x256_1_1_0_0_n_n.contr.Idx) :
    (dot_S256x64_S256x64_S256x256_1_1_0_0_n_n.lhsIdx i q 1).val = (q ⟨0, by decide⟩).val :=
  dot_S256x64_S256x64_S256x256_1_1_0_0_n_n.lhsIdx_val_of_single rfl i q

theorem qk_rhs_0 (i : S256x256.Idx) (q : dot_S256x64_S256x64_S256x256_1_1_0_0_n_n.contr.Idx) :
    (dot_S256x64_S256x64_S256x256_1_1_0_0_n_n.rhsIdx i q 0).val = (i 1).val := by
  unfold DotDims.rhsIdx
  rw [dif_neg (show ¬(0 : Fin S256x64.rank) ∈ dot_S256x64_S256x64_S256x256_1_1_0_0_n_n.rhsBatch by decide),
    dif_pos (show (0 : Fin S256x64.rank) ∈ dot_S256x64_S256x64_S256x256_1_1_0_0_n_n.rhsNonContracting by decide)]
  rfl

theorem qk_rhs_1 (i : S256x256.Idx) (q : dot_S256x64_S256x64_S256x256_1_1_0_0_n_n.contr.Idx) :
    (dot_S256x64_S256x64_S256x256_1_1_0_0_n_n.rhsIdx i q 1).val = (q ⟨0, by decide⟩).val :=
  dot_S256x64_S256x64_S256x256_1_1_0_0_n_n.rhsIdx_val_of_single rfl i q

/-- Entry `(r, j)` of the product into zero: the sum over the 64 head columns of query `r` times key `j`. -/
theorem qk_apply (x y : FVec Ideal S256x64 .bf16) (r j : Fin 256) :
    matmul dot_S256x64_S256x64_S256x256_1_1_0_0_n_n none x y (constant (F := Ideal) S256x256 .f32 0x00000000#32) (ix2 r j)
      = ∑ c : Fin 64, x (ix2 r c) * y (ix2 j c) := by
  refine (Ideal.matmul_constant_zero_apply dot_S256x64_S256x64_S256x256_1_1_0_0_n_n none x y (ix2 r j)).trans ?_
  rw [← Equiv.sum_comp (ValueIdx.contrEquiv1 dot_S256x64_S256x64_S256x256_1_1_0_0_n_n 64 rfl rfl).symm]
  refine Finset.sum_congr rfl fun c _ => ?_
  have hc := ValueIdx.contrEquiv1_symm_val dot_S256x64_S256x64_S256x256_1_1_0_0_n_n 64 rfl rfl c
  have el : dot_S256x64_S256x64_S256x256_1_1_0_0_n_n.lhsIdx (ix2 r j)
      ((ValueIdx.contrEquiv1 dot_S256x64_S256x64_S256x256_1_1_0_0_n_n 64 rfl rfl).symm c) = ix2 r c :=
    funext fun a => Fin.ext (by
      match a with
      | ⟨0, _⟩ => exact qk_lhs_0 _ _
      | ⟨1, _⟩ => exact (qk_lhs_1 _ _).trans hc)
  have er : dot_S256x64_S256x64_S256x256_1_1_0_0_n_n.rhsIdx (ix2 r j)
      ((ValueIdx.contrEquiv1 dot_S256x64_S256x64_S256x256_1_1_0_0_n_n 64 rfl rfl).symm c) = ix2 j c :=
    funext fun a => Fin.ext (by
      match a with
      | ⟨0, _⟩ => exact qk_rhs_0 _ _
      | ⟨1, _⟩ => exact (qk_rhs_1 _ _).trans hc)
  rw [el, er]

/-! ### Weights against the keys' columns: the 256 × 64 block of weighted sums -/

theorem wk_lhs_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide),
    dif_pos (show (0 : Fin S256x256.rank) ∈ dot_S256x256_S256x64_S256x64_1_0_0_1_n_n.lhsNonContracting by decide)]
  rfl

theorem wk_lhs_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q

theorem wk_rhs_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q

theorem wk_rhs_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide),
    dif_pos (show (1 : Fin S256x64.rank) ∈ dot_S256x256_S256x64_S256x64_1_0_0_1_n_n.rhsNonContracting by decide)]
  rfl

/-- Entry `(r, h)` of the product into zero: the sum over the 256 keys of weight `(r, j)` times key `j`'s column `h`. -/
theorem wk_apply (w : FVec Ideal S256x256 .bf16) (y : FVec Ideal S256x64 .bf16) (r : Fin 256) (h : Fin 64) :
    matmul dot_S256x256_S256x64_S256x64_1_0_0_1_n_n none w y (constant (F := Ideal) S256x64 .f32 0x00000000#32) (ix2 r h)
      = ∑ j : Fin 256, w (ix2 r j) * y (ix2 j h) := by
  refine (Ideal.matmul_constant_zero_apply dot_S256x256_S256x64_S256x64_1_0_0_1_n_n none w y (ix2 r h)).trans ?_
  rw [← Equiv.sum_comp (ValueIdx.contrEquiv1 dot_S256x256_S256x64_S256x64_1_0_0_1_n_n 256 rfl rfl).symm]
  refine Finset.sum_congr rfl fun j _ => ?_
  have hj := ValueIdx.contrEquiv1_symm_val dot_S256x256_S256x64_S256x64_1_0_0_1_n_n 256 rfl rfl j
  have el : dot_S256x256_S256x64_S256x64_1_0_0_1_n_n.lhsIdx (ix2 r h)
      ((ValueIdx.contrEquiv1 dot_S256x256_S256x64_S256x64_1_0_0_1_n_n 256 rfl rfl).symm j) = ix2 r j :=
    funext fun a => Fin.ext (by
      match a with
      | ⟨0, _⟩ => exact wk_lhs_0 _ _
      | ⟨1, _⟩ => exact (wk_lhs_1 _ _).trans hj)
  have er : dot_S256x256_S256x64_S256x64_1_0_0_1_n_n.rhsIdx (ix2 r h)
      ((ValueIdx.contrEquiv1 dot_S256x256_S256x64_S256x64_1_0_0_1_n_n 256 rfl rfl).symm j) = ix2 j h :=
    funext fun a => Fin.ext (by
      match a with
      | ⟨0, _⟩ => exact (wk_rhs_0 _ _).trans hj
      | ⟨1, _⟩ => exact wk_rhs_1 _ _)
  rw [el, er]

/-! ### The causal mask of the first tile: with no offset, key `j` is kept for query `r` exactly when `j ≤ r` -/

/-- A natural below 2³¹ compares, as a signed 32-bit word, as itself. -/
theorem sle_small (a b : ℕ) (ha : a < 2147483648) (hb : b < 2147483648) :
    (BitVec.ofNat 32 a).sle (BitVec.ofNat 32 b) = decide (a ≤ b) := by
  rw [BitVec.sle_eq_decide, BitVec.toInt_eq_toNat_of_lt (by simp; omega), BitVec.toInt_eq_toNat_of_lt (by simp; omega),
    BitVec.toNat_ofNat, BitVec.toNat_ofNat, Nat.mod_eq_of_lt (by omega), Nat.mod_eq_of_lt (by omega)]
  exact decide_eq_decide.mpr Int.ofNat_le

theorem keep_bit (r j : Fin 256) :
    cmpi .sge (addi (iota .tc S256x256 32 [0] iota_S256x256_d0_w32) (broadcast S256x256 0#32))
        (iota .tc S256x256 32 [1] iota_S256x256_d1_w32) (ix2 r j)
      = if j.val ≤ 0 + r.val then 1#1 else 0#1 := by
  show IntOp.cmpi .sge (IntOp.addi (iota .tc S256x256 32 [0] iota_S256x256_d0_w32 (ix2 r j)) 0#32)
      (iota .tc S256x256 32 [1] iota_S256x256_d1_w32 (ix2 r j)) = _
  rw [iota_single_apply, iota_single_apply]
  show BitVec.ofBool ((BitVec.ofNat 32 j.val).sle (BitVec.ofNat 32 r.val + 0#32)) = _
  have hr := r.isLt
  have hj := j.isLt
  rw [BitVec.add_zero, sle_small j.val r.val (by omega) (by omega)]
  by_cases hle : j.val ≤ 0 + r.val
  · rw [if_pos hle, decide_eq_true (by omega)]; rfl
  · rw [if_neg hle, decide_eq_false (by omega)]; rfl

/-! ### One row of a 256 × 256 block folded: its maximum from −∞, and its sum -/

/-- Coordinate `j` put back on the folded axis of row `r` is the entry `(r, j)`. -/
theorem lift_row (r j : Fin 256) : reduces_S256x256_S256.lift (ix1 r) j = ix2 r j :=
  funext fun a => Fin.ext (by
    match a with
    | ⟨0, _⟩ => rfl
    | ⟨1, _⟩ => rfl)

theorem max_row (v : FVec Ideal S256x256 .f32) (hacc : (0xFF800000#32 : BitVec 32) = 0xFF800000#32) (r : Fin 256) :
    multiReduction (F := Ideal) .maximumf [1] S256 v 0xFF800000#32 reduces_S256x256_S256 (.inl rfl) hacc (ix1 r)
      = (Finset.univ : Finset (Fin 256)).fold max ⊥ (fun j => v (ix2 r j)) := by
  refine (Ideal.multiReduction_maximumf_single v 0xFF800000#32 reduces_S256x256_S256 (.inl rfl) hacc (ix1 r)).trans ?_
  -- the fold starts from the word of −∞
  have hbot : (FloatOps.ofBits (F := Ideal) .f32 0xFF800000#32 : EReal) = ⊥ := by
    simp [Ideal.ofBits, Ideal.ieee]
  have hrow : (v ∘ reduces_S256x256_S256.lift (ix1 r)) = fun j : Fin 256 => v (ix2 r j) :=
    funext fun j => congrArg v (lift_row r j)
  rw [hbot]
  exact congrArg (fun f => (Finset.univ : Finset (Fin 256)).fold max ⊥ f) hrow

theorem sum_row (v : FVec Ideal S256x256 .f32) (hacc : (0x00000000#32 : BitVec 32) = 0x00000000#32) (r : Fin 256) :
    multiReduction (F := Ideal) .add [1] S256 v 0x00000000#32 reduces_S256x256_S256 (.inl rfl) hacc (ix1 r)
      = ∑ j : Fin 256, v (ix2 r j) := by
  refine (Ideal.multiReduction_add_single v 0x00000000#32 reduces_S256x256_S256 (.inl rfl) hacc (ix1 r)).trans ?_
  exact Finset.sum_congr rfl fun j _ => congrArg v (lift_row r j)

/-! ### One value per row, as a column, spread over the row -/

/-- The 256 row values as a 256 × 1 column: entry `(r, 0)` is value `r`. -/
theorem column_apply (v : FVec Ideal S256 .f32) (r : Fin 256) :
    shapeCast S256x1 v shapeCasts_S256_S256x1 (ix2 r (0 : Fin 1)) = v (ix1 r) := by
  refine shapeCast_apply v shapeCasts_S256_S256x1 _ (ix1 r) ?_
  rw [Shape.rowMajor_val_two, Shape.rowMajor_val_one]
  show r.val = r.val * 1 + 0
  omega

theorem spread_keys (v : FVec Ideal S256 .f32) (r j : Fin 256) :
    broadcastTo S256x256 (shapeCast S256x1 v shapeCasts_S256_S256x1) broadcasts_S256x1_S256x256 (ix2 r j) = v (ix1 r) := by
  refine (broadcastTo_apply _ broadcasts_S256x1_S256x256 (ix2 r j) (ix2 r (0 : Fin 1)) fun ax => ?_).trans (column_apply v r)
  match ax with
  | ⟨0, _⟩ => rfl
  | ⟨1, _⟩ => rfl

theorem spread_heads (v : FVec Ideal S256 .f32) (r : Fin 256) (h : Fin 64) :
    broadcastTo S256x64 (shapeCast S256x1 v shapeCasts_S256_S256x1) broadcasts_S256x1_S256x64 (ix2 r h) = v (ix1 r) := by
  refine (broadcastTo_apply _ broadcasts_S256x1_S256x64 (ix2 r h) (ix2 r (0 : Fin 1)) fun ax => ?_).trans (column_apply v r)
  match ax with
  | ⟨0, _⟩ => rfl
  | ⟨1, _⟩ => rfl

/-- The value put in a masked place is −∞. -/
theorem fill_bot : Named.named (F := Ideal) Cert.KernelIdeal.κ "neg_big" (φ := .f32) 0xFF333332#32 = (⊥ : EReal) :=
  IdealRules.named_const.ideal_named_scalar _ _ _ _ rfl

/-! ### The payload of the first tile: masked scaled scores, then weights, then one division -/

/-- Scaled scores of the queries `x` against the keys `y`, with −∞ where the key comes after the query. -/
def masked (x y : FVec Ideal S256x64 .bf16) : FVec Ideal S256x256 .f32 :=
  select
    (cmpi .sge (addi (iota .tc S256x256 32 [0] iota_S256x256_d0_w32) (broadcast S256x256 0#32))
      (iota .tc S256x256 32 [1] iota_S256x256_d1_w32))
    (mulf (matmul dot_S256x64_S256x64_S256x256_1_1_0_0_n_n none x y (constant (F := Ideal) S256x256 .f32 0x00000000#32))
      (broadcast S256x256 (Scalar.ofBits (F := Ideal) .f32 0x3D000000#32)))
    (broadcast S256x256 (Named.named (F := Ideal) Cert.KernelIdeal.κ "neg_big" (φ := .f32) 0xFF333332#32))

/-- Each masked score less the maximum of its row, exponentiated. -/
def expd (x y : FVec Ideal S256x64 .bf16) : FVec Ideal S256x256 .f32 :=
  exp (subf (masked x y)
    (broadcastTo S256x256
      (shapeCast S256x1
        (multiReduction (F := Ideal) .maximumf [1] S256 (masked x y) 0xFF800000#32 reduces_S256x256_S256 (.inl rfl) rfl)
        shapeCasts_S256_S256x1)
      broadcasts_S256x1_S256x256))

/-- The payload is the weighted sums of the keys divided by the row sums of the weights. -/
theorem pay2_unfolded (x y : FVec Ideal S256x64 .bf16) :
    k0_pay2 (F := Ideal) x y
      = divf
          (matmul dot_S256x256_S256x64_S256x64_1_0_0_1_n_n none (truncf .bf16 (expd x y) bitsLt_bf16_f32) y
            (constant (F := Ideal) S256x64 .f32 0x00000000#32))
          (broadcastTo S256x64
            (shapeCast S256x1
              (multiReduction (F := Ideal) .add [1] S256 (expd x y) 0x00000000#32 reduces_S256x256_S256 (.inl rfl) rfl)
              shapeCasts_S256_S256x1)
            broadcasts_S256x1_S256x64) := rfl

theorem masked_apply (x y : FVec Ideal S256x64 .bf16) (r j : Fin 256) :
    masked x y (ix2 r j)
      = Attn.srow (n := 256) (0 + r.val) Attn.scI (fun c => x (ix2 r c)) (fun (j : Fin 256) c => y (ix2 j c)) j := by
  unfold masked Attn.srow
  rw [select_apply, keep_bit, mulf_apply, qk_apply, broadcast_apply, broadcast_apply, fill_bot]
  by_cases hle : j.val ≤ 0 + r.val
  · rw [if_pos hle, if_pos hle, select_one]; rfl
  · rw [if_neg hle, if_neg hle, select_zero]

theorem masked_row (x y : FVec Ideal S256x64 .bf16) (r : Fin 256) :
    (fun j : Fin 256 => masked x y (ix2 r j))
      = Attn.srow (n := 256) (0 + r.val) Attn.scI (fun c => x (ix2 r c)) (fun (j : Fin 256) c => y (ix2 j c)) :=
  funext fun j => masked_apply x y r j

theorem expd_apply (x y : FVec Ideal S256x64 .bf16) (r j : Fin 256) :
    expd x y (ix2 r j)
      = Ideal.exp
          (Attn.srow (n := 256) (0 + r.val) Attn.scI (fun c => x (ix2 r c)) (fun (j : Fin 256) c => y (ix2 j c)) j
            - Finset.univ.fold max ⊥
                (Attn.srow (n := 256) (0 + r.val) Attn.scI (fun c => x (ix2 r c)) (fun (j : Fin 256) c => y (ix2 j c)))) := by
  unfold expd
  show Ideal.exp (subf (masked x y) _ (ix2 r j)) = _
  rw [subf_apply, spread_keys, max_row, masked_row, masked_apply]

/-- The payload at `(r, h)` is the specification's tile row of query `r`, at head column `h`. -/
theorem pay2_apply (x y : FVec Ideal S256x64 .bf16) (r : Fin 256) (h : Fin 64) :
    k0_pay2 (F := Ideal) x y (ix2 r h)
      = Attn.attnTile (n := 256) (0 + r.val) Attn.scI (fun c => x (ix2 r c)) (fun (j : Fin 256) c => y (ix2 j c)) h := by
  rw [pay2_unfolded, divf_apply, wk_apply, spread_heads, sum_row]
  unfold Attn.attnTile
  simp only [truncf_apply, expd_apply]

end T0

/-- Entry `(r, h)` of tile 0 is the softmax-weighted average of the first 256 keys' column `h`, for the query at position
    `0 + r`, divided once by the sum of the weights. -/
theorem tile0_apply (K : Vec Ideal S2048x64 .bf16) (r : Fin 256) (h : Fin 64) :
    tile0 (F := Ideal) K (ix2 r h)
      = Attn.attnTile (n := 256) (0 + r.val) Attn.scI
          (fun h' => K (ix2 (⟨0 + r.val, by have := r.isLt; omega⟩ : Fin 2048) h'))
          (fun (j : Fin 256) h' => K (ix2 (Fin.castLE (by decide : 256 ≤ 2048) j) h')) h := by
  unfold tile0
  refine (T0.pay2_apply _ _ r h).trans ?_
  -- both operands are the first 256 rows of the keys; the query's row is row `0 + r`
  have hq : (fun c => View.ld K rq0 (ix2 r c))
      = fun h' => K (ix2 (⟨0 + r.val, by have := r.isLt; omega⟩ : Fin 2048) h') :=
    funext fun c => (T0.ld_rows K r c).trans (congrArg (fun i => K (ix2 i c)) (T0.castLE_row r))
  have hk : (fun (j : Fin 256) c => View.ld K rq0 (ix2 j c))
      = fun (j : Fin 256) h' => K (ix2 (Fin.castLE (by decide : 256 ≤ 2048) j) h') :=
    funext fun j => funext fun c => T0.ld_rows K j c
  exact congrArg₂ (fun q Kk => Attn.attnTile (n := 256) (0 + r.val) Attn.scI q Kk h) hq hk

end Cert.KernelIdeal.Body

end
-- ==== Proof.KITile1.lean ====
/-
  Tile 1 of the idealized kernel read at one entry: rows 256 … 511 against the first 512 keys.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Idealize.SL.Sem Cert.KernelIdeal Cert.KernelIdeal.Gen

namespace T1

/-! ### The two row rectangles: a load through a rectangle reads the keys at the rectangle's offset plus the coordinate -/

theorem ld_q (K : Vec Ideal S2048x64 .bf16) (r : Fin 256) (h' : Fin 64) :
    View.ld K rq1 (ix2 r h') = K (ix2 (⟨256 + r.val, by have := r.isLt; omega⟩ : Fin 2048) h') :=
  congrArg K (funext fun a => Fin.ext (by
    match a with
    | ⟨0, _⟩ => show 256 + 1 * r.val = 256 + r.val; omega
    | ⟨1, _⟩ => show 0 + 1 * h'.val = h'.val; omega))

theorem ld_k (K : Vec Ideal S2048x64 .bf16) (j : Fin 512) (h' : Fin 64) :
    View.ld K rk1 (ix2 j h') = K (ix2 (Fin.castLE (by decide : 512 ≤ 2048) j) h') :=
  congrArg K (funext fun a => Fin.ext (by
    match a with
    | ⟨0, _⟩ => show 0 + 1 * j.val = j.val; omega
    | ⟨1, _⟩ => show 0 + 1 * h'.val = h'.val; omega))

/-! ### The scores' product: a row of the queries against a row of the keys -/

theorem lhsA_0 (i : S256x512.Idx) (q : dot_S256x64_S512x64_S256x512_1_1_0_0_n_n.contr.Idx) :
    (dot_S256x64_S512x64_S256x512_1_1_0_0_n_n.lhsIdx i q 0).val = (i 0).val := by
  unfold DotDims.lhsIdx
  rw [dif_neg (show ¬(0 : Fin S256x64.rank) ∈ dot_S256x64_S512x64_S256x512_1_1_0_0_n_n.lhsBatch by decide), dif_pos (show (0 : Fin S256x64.rank) ∈ dot_S256x64_S512x64_S256x512_1_1_0_0_n_n.lhsNonContracting by decide)]
  rfl
theorem lhsA_1 (i : S256x512.Idx) (q : dot_S256x64_S512x64_S256x512_1_1_0_0_n_n.contr.Idx) :
    (dot_S256x64_S512x64_S256x512_1_1_0_0_n_n.lhsIdx i q 1).val = (q ⟨0, by decide⟩).val :=
  dot_S256x64_S512x64_S256x512_1_1_0_0_n_n.lhsIdx_val_of_single rfl i q
theorem rhsA_0 (i : S256x512.Idx) (q : dot_S256x64_S512x64_S256x512_1_1_0_0_n_n.contr.Idx) :
    (dot_S256x64_S512x64_S256x512_1_1_0_0_n_n.rhsIdx i q 0).val = (i 1).val := by
  unfold DotDims.rhsIdx
  rw [dif_neg (show ¬(0 : Fin S512x64.rank) ∈ dot_S256x64_S512x64_S256x512_1_1_0_0_n_n.rhsBatch by decide), dif_pos (show (0 : Fin S512x64.rank) ∈ dot_S256x64_S512x64_S256x512_1_1_0_0_n_n.rhsNonContracting by decide)]
  rfl
theorem rhsA_1 (i : S256x512.Idx) (q : dot_S256x64_S512x64_S256x512_1_1_0_0_n_n.contr.Idx) :
    (dot_S256x64_S512x64_S256x512_1_1_0_0_n_n.rhsIdx i q 1).val = (q ⟨0, by decide⟩).val :=
  dot_S256x64_S512x64_S256x512_1_1_0_0_n_n.rhsIdx_val_of_single rfl i q

/-- The product into a zero accumulator, at row `r` and column `j`: the query row `r` against the key row `j`. -/
theorem mmA (x : FVec Ideal S256x64 .bf16) (y : FVec Ideal S512x64 .bf16) (r : Fin 256) (j : Fin 512) :
    matmul dot_S256x64_S512x64_S256x512_1_1_0_0_n_n none x y (constant (F := Ideal) S256x512 .f32 0x00000000#32) (ix2 r j)
      = ∑ h : Fin 64, x (ix2 r h) * y (ix2 j h) := by
  refine (Ideal.matmul_constant_zero_apply dot_S256x64_S512x64_S256x512_1_1_0_0_n_n none x y (ix2 r j)).trans ?_
  rw [← Equiv.sum_comp (ValueIdx.contrEquiv1 dot_S256x64_S512x64_S256x512_1_1_0_0_n_n 64 rfl rfl).symm]
  refine Finset.sum_congr rfl fun k _ => ?_
  have hk := ValueIdx.contrEquiv1_symm_val dot_S256x64_S512x64_S256x512_1_1_0_0_n_n 64 rfl rfl k
  have el : dot_S256x64_S512x64_S256x512_1_1_0_0_n_n.lhsIdx (ix2 r j) ((ValueIdx.contrEquiv1 dot_S256x64_S512x64_S256x512_1_1_0_0_n_n 64 rfl rfl).symm k) = ix2 r k := funext fun a => Fin.ext (by
    match a with
    | ⟨0, _⟩ => exact lhsA_0 _ _
    | ⟨1, _⟩ => exact (lhsA_1 _ _).trans hk)
  have er : dot_S256x64_S512x64_S256x512_1_1_0_0_n_n.rhsIdx (ix2 r j) ((ValueIdx.contrEquiv1 dot_S256x64_S512x64_S256x512_1_1_0_0_n_n 64 rfl rfl).symm k) = ix2 j k := funext fun a => Fin.ext (by
    match a with
    | ⟨0, _⟩ => exact rhsA_0 _ _
    | ⟨1, _⟩ => exact (rhsA_1 _ _).trans hk)
  rw [el, er]

/-! ### The weighted sum's product: a row of weights against a column of the keys -/

theorem lhsB_0 (i : S256x64.Idx) (q : dot_S256x512_S512x64_S256x64_1_0_0_1_n_n.contr.Idx) :
    (dot_S256x512_S512x64_S256x64_1_0_0_1_n_n.lhsIdx i q 0).val = (i 0).val := by
  unfold DotDims.lhsIdx
  rw [dif_neg (show ¬(0 : Fin S256x512.rank) ∈ dot_S256x512_S512x64_S256x64_1_0_0_1_n_n.lhsBatch by decide), dif_pos (show (0 : Fin S256x512.rank) ∈ dot_S256x512_S512x64_S256x64_1_0_0_1_n_n.lhsNonContracting by decide)]
  rfl
theorem lhsB_1 (i : S256x64.Idx) (q : dot_S256x512_S512x64_S256x64_1_0_0_1_n_n.contr.Idx) :
    (dot_S256x512_S512x64_S256x64_1_0_0_1_n_n.lhsIdx i q 1).val = (q ⟨0, by decide⟩).val :=
  dot_S256x512_S512x64_S256x64_1_0_0_1_n_n.lhsIdx_val_of_single rfl i q
theorem rhsB_0 (i : S256x64.Idx) (q : dot_S256x512_S512x64_S256x64_1_0_0_1_n_n.contr.Idx) :
    (dot_S256x512_S512x64_S256x64_1_0_0_1_n_n.rhsIdx i q 0).val = (q ⟨0, by decide⟩).val :=
  dot_S256x512_S512x64_S256x64_1_0_0_1_n_n.rhsIdx_val_of_single rfl i q
theorem rhsB_1 (i : S256x64.Idx) (q : dot_S256x512_S512x64_S256x64_1_0_0_1_n_n.contr.Idx) :
    (dot_S256x512_S512x64_S256x64_1_0_0_1_n_n.rhsIdx i q 1).val = (i 1).val := by
  unfold DotDims.rhsIdx
  rw [dif_neg (show ¬(1 : Fin S512x64.rank) ∈ dot_S256x512_S512x64_S256x64_1_0_0_1_n_n.rhsBatch by decide), dif_pos (show (1 : Fin S512x64.rank) ∈ dot_S256x512_S512x64_S256x64_1_0_0_1_n_n.rhsNonContracting by decide)]
  rfl

/-- The product into a zero accumulator, at row `r` and head column `h`: the weights of row `r` against column `h` of the keys. -/
theorem mmB (x : FVec Ideal S256x512 .bf16) (y : FVec Ideal S512x64 .bf16) (r : Fin 256) (h : Fin 64) :
    matmul dot_S256x512_S512x64_S256x64_1_0_0_1_n_n none x y (constant (F := Ideal) S256x64 .f32 0x00000000#32) (ix2 r h)
      = ∑ j : Fin 512, x (ix2 r j) * y (ix2 j h) := by
  refine (Ideal.matmul_constant_zero_apply dot_S256x512_S512x64_S256x64_1_0_0_1_n_n none x y (ix2 r h)).trans ?_
  rw [← Equiv.sum_comp (ValueIdx.contrEquiv1 dot_S256x512_S512x64_S256x64_1_0_0_1_n_n 512 rfl rfl).symm]
  refine Finset.sum_congr rfl fun k _ => ?_
  have hk := ValueIdx.contrEquiv1_symm_val dot_S256x512_S512x64_S256x64_1_0_0_1_n_n 512 rfl rfl k
  have el : dot_S256x512_S512x64_S256x64_1_0_0_1_n_n.lhsIdx (ix2 r h) ((ValueIdx.contrEquiv1 dot_S256x512_S512x64_S256x64_1_0_0_1_n_n 512 rfl rfl).symm k) = ix2 r k := funext fun a => Fin.ext (by
    match a with
    | ⟨0, _⟩ => exact lhsB_0 _ _
    | ⟨1, _⟩ => exact (lhsB_1 _ _).trans hk)
  have er : dot_S256x512_S512x64_S256x64_1_0_0_1_n_n.rhsIdx (ix2 r h) ((ValueIdx.contrEquiv1 dot_S256x512_S512x64_S256x64_1_0_0_1_n_n 512 rfl rfl).symm k) = ix2 k h := funext fun a => Fin.ext (by
    match a with
    | ⟨0, _⟩ => exact (rhsB_0 _ _).trans hk
    | ⟨1, _⟩ => exact rhsB_1 _ _)
  rw [el, er]

/-! ### The causal mask: column `j` is kept for the query at position `256 + r` exactly when `j ≤ 256 + r` -/

theorem mask (r : Fin 256) (j : Fin 512) :
    cmpi .sge (addi (iota .tc S256x512 32 [0] iota_S256x512_d0_w32) (broadcast S256x512 256#32)) (iota .tc S256x512 32 [1] iota_S256x512_d1_w32) (ix2 r j)
      = if j.val ≤ 256 + r.val then 1#1 else 0#1 := by
  show IntOp.cmpi .sge (IntOp.addi (iota .tc S256x512 32 [0] iota_S256x512_d0_w32 (ix2 r j)) 256#32) (iota .tc S256x512 32 [1] iota_S256x512_d1_w32 (ix2 r j)) = _
  rw [iota_single_apply, iota_single_apply]
  show BitVec.ofBool ((BitVec.ofNat 32 j.val).sle (BitVec.ofNat 32 r.val + 256#32)) = _
  have hr := r.isLt
  have hj := j.isLt
  -- both words are small naturals, so the signed comparison is the comparison of the naturals
  have e1 : (BitVec.ofNat 32 r.val + 256#32) = BitVec.ofNat 32 (r.val + 256) := by
    apply BitVec.eq_of_toNat_eq; simp
  rw [e1]
  have e2 : (BitVec.ofNat 32 j.val).sle (BitVec.ofNat 32 (r.val + 256)) = decide (j.val ≤ r.val + 256) := by
    rw [BitVec.sle_eq_decide, BitVec.toInt_eq_toNat_of_lt (by simp; omega), BitVec.toInt_eq_toNat_of_lt (by simp; omega),
      BitVec.toNat_ofNat, BitVec.toNat_ofNat, Nat.mod_eq_of_lt (by omega), Nat.mod_eq_of_lt (by omega)]
    exact decide_eq_decide.mpr Int.ofNat_le
  rw [e2]
  by_cases hle : j.val ≤ 256 + r.val
  · rw [if_pos hle, decide_eq_true (by omega)]; rfl
  · rw [if_neg hle, decide_eq_false (by omega)]; rfl

/-! ### The row maximum (from −∞) and the row sum -/

theorem rowmax (v : FVec Ideal S256x512 .f32) (hacc : (0xFF800000#32 : BitVec 32) = 0xFF800000#32) (r : Fin 256) :
    multiReduction (F := Ideal) .maximumf [1] S256 v 0xFF800000#32 reduces_S256x512_S256 (.inl rfl) hacc (ix1 r)
      = (Finset.univ : Finset (Fin 512)).fold max ⊥ (fun j => v (ix2 r j)) := by
  refine (Ideal.multiReduction_maximumf_single v 0xFF800000#32 reduces_S256x512_S256 (.inl rfl) hacc (ix1 r)).trans ?_
  have e0 : (FloatOps.ofBits (F := Ideal) .f32 0xFF800000#32 : EReal) = ⊥ := by
    simp [Ideal.ofBits, Ideal.ieee]
  have e1 : (v ∘ reduces_S256x512_S256.lift (ix1 r)) = fun j : Fin 512 => v (ix2 r j) := by
    funext j
    refine congrArg v (funext fun a => Fin.ext ?_)
    match a with
    | ⟨0, _⟩ => rfl
    | ⟨1, _⟩ => rfl
  rw [e0]
  exact congrArg (fun f => (Finset.univ : Finset (Fin 512)).fold max ⊥ f) e1

theorem rowsum (v : FVec Ideal S256x512 .f32) (hacc : (0x00000000#32 : BitVec 32) = 0x00000000#32) (r : Fin 256) :
    multiReduction (F := Ideal) .add [1] S256 v 0x00000000#32 reduces_S256x512_S256 (.inl rfl) hacc (ix1 r)
      = ∑ j : Fin 512, v (ix2 r j) := by
  refine (Ideal.multiReduction_add_single v 0x00000000#32 reduces_S256x512_S256 (.inl rfl) hacc (ix1 r)).trans ?_
  refine Finset.sum_congr rfl fun j _ => ?_
  refine congrArg v (funext fun a => Fin.ext ?_)
  match a with
  | ⟨0, _⟩ => rfl
  | ⟨1, _⟩ => rfl

/-! ### A column of row values spread along the row -/

theorem col_row (v : FVec Ideal S256 .f32) (r : Fin 256) (j : Fin 512) :
    broadcastTo S256x512 (shapeCast S256x1 v shapeCasts_S256_S256x1) broadcasts_S256x1_S256x512 (ix2 r j) = v (ix1 r) := by
  refine (broadcastTo_apply _ broadcasts_S256x1_S256x512 (ix2 r j) (ix2 r (0 : Fin 1)) fun ax => ?_).trans ?_
  · match ax with
    | ⟨0, _⟩ => rfl
    | ⟨1, _⟩ => rfl
  · refine shapeCast_apply v shapeCasts_S256_S256x1 _ (ix1 r) ?_
    rw [Shape.rowMajor_val_two, Shape.rowMajor_val_one]
    show r.val = r.val * 1 + 0
    omega

theorem col_out (v : FVec Ideal S256 .f32) (r : Fin 256) (h : Fin 64) :
    broadcastTo S256x64 (shapeCast S256x1 v shapeCasts_S256_S256x1) broadcasts_S256x1_S256x64 (ix2 r h) = v (ix1 r) := by
  refine (broadcastTo_apply _ broadcasts_S256x1_S256x64 (ix2 r h) (ix2 r (0 : Fin 1)) fun ax => ?_).trans ?_
  · match ax with
    | ⟨0, _⟩ => rfl
    | ⟨1, _⟩ => rfl
  · refine shapeCast_apply v shapeCasts_S256_S256x1 _ (ix1 r) ?_
    rw [Shape.rowMajor_val_two, Shape.rowMajor_val_one]
    show r.val = r.val * 1 + 0
    omega

/-- The fill of a masked column is −∞. -/
theorem neg_big : Named.named (F := Ideal) Cert.KernelIdeal.κ "neg_big" (φ := .f32) 0xFF333332#32 = (⊥ : EReal) :=
  IdealRules.named_const.ideal_named_scalar _ _ _ _ rfl

/-! ### The payload in three steps: masked scaled scores, weights, and the quotient -/

/-- The masked, scaled scores of the 256 queries `x` against the 512 keys `y`. -/
def scores (x : FVec Ideal S256x64 .bf16) (y : FVec Ideal S512x64 .bf16) : FVec Ideal S256x512 .f32 :=
  select (cmpi .sge (addi (iota .tc S256x512 32 [0] iota_S256x512_d0_w32) (broadcast S256x512 256#32)) (iota .tc S256x512 32 [1] iota_S256x512_d1_w32))
    (mulf (matmul dot_S256x64_S512x64_S256x512_1_1_0_0_n_n none x y (constant (F := Ideal) S256x512 .f32 0x00000000#32))
      (broadcast S256x512 (Scalar.ofBits (F := Ideal) .f32 0x3D000000#32)))
    (broadcast S256x512 (Named.named (F := Ideal) Cert.KernelIdeal.κ "neg_big" (φ := .f32) 0xFF333332#32))

/-- The weights: the exponential of each score less its row's maximum. -/
def weights (x : FVec Ideal S256x64 .bf16) (y : FVec Ideal S512x64 .bf16) : FVec Ideal S256x512 .f32 :=
  exp (subf (scores x y)
    (broadcastTo S256x512 (shapeCast S256x1 (multiReduction (F := Ideal) .maximumf [1] S256 (scores x y) 0xFF800000#32 reduces_S256x512_S256 (.inl rfl) rfl)
      shapeCasts_S256_S256x1) broadcasts_S256x1_S256x512))

theorem pay_eq (x : FVec Ideal S256x64 .bf16) (y : FVec Ideal S512x64 .bf16) :
    k0_pay3 (F := Ideal) x y
      = divf (matmul dot_S256x512_S512x64_S256x64_1_0_0_1_n_n none (truncf .bf16 (weights x y) bitsLt_bf16_f32) y (constant (F := Ideal) S256x64 .f32 0x00000000#32))
          (broadcastTo S256x64 (shapeCast S256x1 (multiReduction (F := Ideal) .add [1] S256 (weights x y) 0x00000000#32 reduces_S256x512_S256 (.inl rfl) rfl)
            shapeCasts_S256_S256x1) broadcasts_S256x1_S256x64) := rfl

/-- A score at `(r, j)` is the masked scaled score of the specification's row. -/
theorem scores_apply (x : FVec Ideal S256x64 .bf16) (y : FVec Ideal S512x64 .bf16) (r : Fin 256) (j : Fin 512) :
    scores x y (ix2 r j)
      = Attn.srow (n := 512) (256 + r.val) Attn.scI (fun h' => x (ix2 r h')) (fun (j : Fin 512) h' => y (ix2 j h')) j := by
  unfold scores Attn.srow
  rw [select_apply, mask, mulf_apply, mmA, broadcast_apply, broadcast_apply, neg_big]
  by_cases hle : j.val ≤ 256 + r.val
  · rw [if_pos hle, if_pos hle, select_one]; rfl
  · rw [if_neg hle, if_neg hle, select_zero]

theorem scores_row (x : FVec Ideal S256x64 .bf16) (y : FVec Ideal S512x64 .bf16) (r : Fin 256) :
    (fun j : Fin 512 => scores x y (ix2 r j))
      = Attn.srow (n := 512) (256 + r.val) Attn.scI (fun h' => x (ix2 r h')) (fun (j : Fin 512) h' => y (ix2 j h')) :=
  funext fun j => scores_apply x y r j

/-- A weight at `(r, j)`: the exponential of the score less the row's maximum. -/
theorem weights_apply (x : FVec Ideal S256x64 .bf16) (y : FVec Ideal S512x64 .bf16) (r : Fin 256) (j : Fin 512) :
    weights x y (ix2 r j)
      = Ideal.exp (Attn.srow (n := 512) (256 + r.val) Attn.scI (fun h' => x (ix2 r h')) (fun (j : Fin 512) h' => y (ix2 j h')) j
          - Finset.univ.fold max ⊥ (Attn.srow (n := 512) (256 + r.val) Attn.scI (fun h' => x (ix2 r h')) (fun (j : Fin 512) h' => y (ix2 j h')))) := by
  unfold weights
  show Ideal.exp (subf (scores x y) _ (ix2 r j)) = _
  rw [subf_apply, col_row, rowmax, scores_row, scores_apply]

/-- The payload at `(r, h)`: the weighted sum of the keys' column `h`, divided once by the sum of the weights. -/
theorem pay_apply (x : FVec Ideal S256x64 .bf16) (y : FVec Ideal S512x64 .bf16) (r : Fin 256) (h : Fin 64) :
    k0_pay3 (F := Ideal) x y (ix2 r h)
      = Attn.attnTile (n := 512) (256 + r.val) Attn.scI (fun h' => x (ix2 r h')) (fun (j : Fin 512) h' => y (ix2 j h')) h := by
  rw [pay_eq, divf_apply, mmB, col_out, rowsum]
  unfold Attn.attnTile
  simp only [truncf_apply, weights_apply]

end T1

/-- Entry `(r, h)` of tile 1 is the softmax-weighted average of the first 512 keys' column `h`, for the query at position
    `256 + r`, divided once by the sum of the weights. -/
theorem tile1_apply (K : Vec Ideal S2048x64 .bf16) (r : Fin 256) (h : Fin 64) :
    tile1 (F := Ideal) K (ix2 r h)
      = Attn.attnTile (n := 512) (256 + r.val) Attn.scI
          (fun h' => K (ix2 (⟨256 + r.val, by have := r.isLt; omega⟩ : Fin 2048) h'))
          (fun (j : Fin 512) h' => K (ix2 (Fin.castLE (by decide : 512 ≤ 2048) j) h')) h := by
  unfold tile1
  refine (T1.pay_apply _ _ r h).trans ?_
  exact congrArg₂ (fun q Kk => Attn.attnTile (n := 512) (256 + r.val) Attn.scI q Kk h)
    (funext fun h' => T1.ld_q K r h') (funext fun j => funext fun h' => T1.ld_k K j h')

end Cert.KernelIdeal.Body

end
-- ==== Proof.KITile2.lean ====
/-
  Tile 2 of the idealized kernel read at one entry: rows 512 … 767 against the first 768 keys.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Idealize.SL.Sem Cert.KernelIdeal Cert.KernelIdeal.Gen

namespace T2

/-! ### The score product: a 256 × 64 block against a 768 × 64 block, contracted over the 64 columns -/

theorem sc_lhs_0 (i : S256x768.Idx) (q : dot_S256x64_S768x64_S256x768_1_1_0_0_n_n.contr.Idx) :
    (dot_S256x64_S768x64_S256x768_1_1_0_0_n_n.lhsIdx i q 0).val = (i 0).val := by
  unfold DotDims.lhsIdx
  rw [dif_neg (show ¬(0 : Fin S256x64.rank) ∈ dot_S256x64_S768x64_S256x768_1_1_0_0_n_n.lhsBatch by decide), dif_pos (show (0 : Fin S256x64.rank) ∈ dot_S256x64_S768x64_S256x768_1_1_0_0_n_n.lhsNonContracting by decide)]
  rfl
theorem sc_lhs_1 (i : S256x768.Idx) (q : dot_S256x64_S768x64_S256x768_1_1_0_0_n_n.contr.Idx) :
    (dot_S256x64_S768x64_S256x768_1_1_0_0_n_n.lhsIdx i q 1).val = (q ⟨0, by decide⟩).val :=
  dot_S256x64_S768x64_S256x768_1_1_0_0_n_n.lhsIdx_val_of_single rfl i q
theorem sc_rhs_0 (i : S256x768.Idx) (q : dot_S256x64_S768x64_S256x768_1_1_0_0_n_n.contr.Idx) :
    (dot_S256x64_S768x64_S256x768_1_1_0_0_n_n.rhsIdx i q 0).val = (i 1).val := by
  unfold DotDims.rhsIdx
  rw [dif_neg (show ¬(0 : Fin S768x64.rank) ∈ dot_S256x64_S768x64_S256x768_1_1_0_0_n_n.rhsBatch by decide), dif_pos (show (0 : Fin S768x64.rank) ∈ dot_S256x64_S768x64_S256x768_1_1_0_0_n_n.rhsNonContracting by decide)]
  rfl
theorem sc_rhs_1 (i : S256x768.Idx) (q : dot_S256x64_S768x64_S256x768_1_1_0_0_n_n.contr.Idx) :
    (dot_S256x64_S768x64_S256x768_1_1_0_0_n_n.rhsIdx i q 1).val = (q ⟨0, by decide⟩).val :=
  dot_S256x64_S768x64_S256x768_1_1_0_0_n_n.rhsIdx_val_of_single rfl i q

/-- Entry `(r, j)` of the product is the inner product of query row `r` with key row `j`. -/
theorem scores_mm (q : FVec Ideal S256x64 .bf16) (kb : FVec Ideal S768x64 .bf16) (r : Fin 256) (j : Fin 768) :
    matmul dot_S256x64_S768x64_S256x768_1_1_0_0_n_n none q kb (constant (F := Ideal) S256x768 .f32 0x00000000#32) (ix2 r j)
      = ∑ h' : Fin 64, q (ix2 r h') * kb (ix2 j h') := by
  simp only [matmul]
  rw [Ideal.matmul_constant_zero_apply, ← Equiv.sum_comp (ValueIdx.contrEquiv1 dot_S256x64_S768x64_S256x768_1_1_0_0_n_n 64 rfl rfl).symm]
  refine Finset.sum_congr rfl fun k _ => ?_
  have hk := ValueIdx.contrEquiv1_symm_val dot_S256x64_S768x64_S256x768_1_1_0_0_n_n 64 rfl rfl k
  have el : dot_S256x64_S768x64_S256x768_1_1_0_0_n_n.lhsIdx (ix2 r j) ((ValueIdx.contrEquiv1 dot_S256x64_S768x64_S256x768_1_1_0_0_n_n 64 rfl rfl).symm k) = ix2 r k := funext fun a => Fin.ext (by
    match a with
    | ⟨0, _⟩ => exact sc_lhs_0 _ _
    | ⟨1, _⟩ => exact (sc_lhs_1 _ _).trans hk)
  have er : dot_S256x64_S768x64_S256x768_1_1_0_0_n_n.rhsIdx (ix2 r j) ((ValueIdx.contrEquiv1 dot_S256x64_S768x64_S256x768_1_1_0_0_n_n 64 rfl rfl).symm k) = ix2 j k := funext fun a => Fin.ext (by
    match a with
    | ⟨0, _⟩ => exact sc_rhs_0 _ _
    | ⟨1, _⟩ => exact (sc_rhs_1 _ _).trans hk)
  rw [el, er]

/-! ### The weighted sum: a 256 × 768 block of weights against the 768 × 64 keys, contracted over the 768 keys -/

theorem ws_lhs_0 (i : S256x64.Idx) (q : dot_S256x768_S768x64_S256x64_1_0_0_1_n_n.contr.Idx) :
    (dot_S256x768_S768x64_S256x64_1_0_0_1_n_n.lhsIdx i q 0).val = (i 0).val := by
  unfold DotDims.lhsIdx
  rw [dif_neg (show ¬(0 : Fin S256x768.rank) ∈ dot_S256x768_S768x64_S256x64_1_0_0_1_n_n.lhsBatch by decide), dif_pos (show (0 : Fin S256x768.rank) ∈ dot_S256x768_S768x64_S256x64_1_0_0_1_n_n.lhsNonContracting by decide)]
  rfl
theorem ws_lhs_1 (i : S256x64.Idx) (q : dot_S256x768_S768x64_S256x64_1_0_0_1_n_n.contr.Idx) :
    (dot_S256x768_S768x64_S256x64_1_0_0_1_n_n.lhsIdx i q 1).val = (q ⟨0, by decide⟩).val :=
  dot_S256x768_S768x64_S256x64_1_0_0_1_n_n.lhsIdx_val_of_single rfl i q
theorem ws_rhs_0 (i : S256x64.Idx) (q : dot_S256x768_S768x64_S256x64_1_0_0_1_n_n.contr.Idx) :
    (dot_S256x768_S768x64_S256x64_1_0_0_1_n_n.rhsIdx i q 0).val = (q ⟨0, by decide⟩).val :=
  dot_S256x768_S768x64_S256x64_1_0_0_1_n_n.rhsIdx_val_of_single rfl i q
theorem ws_rhs_1 (i : S256x64.Idx) (q : dot_S256x768_S768x64_S256x64_1_0_0_1_n_n.contr.Idx) :
    (dot_S256x768_S768x64_S256x64_1_0_0_1_n_n.rhsIdx i q 1).val = (i 1).val := by
  unfold DotDims.rhsIdx
  rw [dif_neg (show ¬(1 : Fin S768x64.rank) ∈ dot_S256x768_S768x64_S256x64_1_0_0_1_n_n.rhsBatch by decide), dif_pos (show (1 : Fin S768x64.rank) ∈ dot_S256x768_S768x64_S256x64_1_0_0_1_n_n.rhsNonContracting by decide)]
  rfl

/-- Entry `(r, h)` of the product is the sum over the keys `j` of weight `(r, j)` times key `(j, h)`. -/
theorem wsum_mm (w : FVec Ideal S256x768 .bf16) (kb : FVec Ideal S768x64 .bf16) (r : Fin 256) (h : Fin 64) :
    matmul dot_S256x768_S768x64_S256x64_1_0_0_1_n_n none w kb (constant (F := Ideal) S256x64 .f32 0x00000000#32) (ix2 r h)
      = ∑ j : Fin 768, w (ix2 r j) * kb (ix2 j h) := by
  simp only [matmul]
  rw [Ideal.matmul_constant_zero_apply, ← Equiv.sum_comp (ValueIdx.contrEquiv1 dot_S256x768_S768x64_S256x64_1_0_0_1_n_n 768 rfl rfl).symm]
  refine Finset.sum_congr rfl fun k _ => ?_
  have hk := ValueIdx.contrEquiv1_symm_val dot_S256x768_S768x64_S256x64_1_0_0_1_n_n 768 rfl rfl k
  have el : dot_S256x768_S768x64_S256x64_1_0_0_1_n_n.lhsIdx (ix2 r h) ((ValueIdx.contrEquiv1 dot_S256x768_S768x64_S256x64_1_0_0_1_n_n 768 rfl rfl).symm k) = ix2 r k := funext fun a => Fin.ext (by
    match a with
    | ⟨0, _⟩ => exact ws_lhs_0 _ _
    | ⟨1, _⟩ => exact (ws_lhs_1 _ _).trans hk)
  have er : dot_S256x768_S768x64_S256x64_1_0_0_1_n_n.rhsIdx (ix2 r h) ((ValueIdx.contrEquiv1 dot_S256x768_S768x64_S256x64_1_0_0_1_n_n 768 rfl rfl).symm k) = ix2 k h := funext fun a => Fin.ext (by
    match a with
    | ⟨0, _⟩ => exact (ws_rhs_0 _ _).trans hk
    | ⟨1, _⟩ => exact ws_rhs_1 _ _)
  rw [el, er]

/-! ### The two row reductions and the column they are spread back over -/

/-- The index a reduced row index `r` and a column `k` name in the 256 × 768 block. -/
theorem lift_eq (r : Fin 256) (k : Fin 768) : reduces_S256x768_S256.lift (ix1 r) k = ix2 r k :=
  funext fun a => Fin.ext (by
    match a with
    | ⟨0, _⟩ => rfl
    | ⟨1, _⟩ => rfl)

/-- The row maximum, from −∞. -/
theorem rowmax (src : FVec Ideal S256x768 .f32) (r : Fin 256) :
    multiReduction (F := Ideal) .maximumf [1] S256 src 0xFF800000#32 reduces_S256x768_S256 (.inl rfl) rfl (ix1 r)
      = Finset.univ.fold max ⊥ (fun j : Fin 768 => src (ix2 r j)) := by
  refine (Ideal.multiReduction_maximumf_single src 0xFF800000#32 reduces_S256x768_S256 (.inl rfl) rfl (ix1 r)).trans ?_
  have hb : (FloatOps.ofBits (F := Ideal) .f32 0xFF800000#32 : EReal) = ⊥ := by
    show Ideal.ofBits .f32 0xFF800000#32 = ⊥
    simp [Ideal.ofBits, Ideal.ieee]
  have hf : (src ∘ reduces_S256x768_S256.lift (ix1 r)) = fun j : Fin 768 => src (ix2 r j) :=
    funext fun k => congrArg src (lift_eq r k)
  rw [hb, hf]
  rfl

/-- The row sum. -/
theorem rowsum (src : FVec Ideal S256x768 .f32) (r : Fin 256) :
    multiReduction (F := Ideal) .add [1] S256 src 0x00000000#32 reduces_S256x768_S256 (.inl rfl) rfl (ix1 r)
      = ∑ j : Fin 768, src (ix2 r j) := by
  refine (Ideal.multiReduction_add_single src 0x00000000#32 reduces_S256x768_S256 (.inl rfl) rfl (ix1 r)).trans ?_
  exact Finset.sum_congr rfl fun k _ => congrArg src (lift_eq r k)

/-- A length-256 vector made a column and spread over 768 columns reads its row's entry. -/
theorem col768 {α : Type} (v : S256.Idx → α) (r : Fin 256) (j : Fin 768) :
    broadcastTo S256x768 (shapeCast S256x1 v shapeCasts_S256_S256x1) broadcasts_S256x1_S256x768 (ix2 r j) = v (ix1 r) := by
  refine (broadcastTo_apply _ broadcasts_S256x1_S256x768 (ix2 r j) (ix2 r (0 : Fin 1)) fun a => ?_).trans ?_
  · match a with
    | ⟨0, _⟩ => rfl
    | ⟨1, _⟩ => rfl
  · refine shapeCast_apply v shapeCasts_S256_S256x1 (ix2 r (0 : Fin 1)) (ix1 r) ?_
    rw [Shape.rowMajor_val_two, Shape.rowMajor_val_one]
    show r.val = r.val * 1 + 0
    omega

/-- The same column spread over the 64 head columns. -/
theorem col64 {α : Type} (v : S256x1.Idx → α) (r : Fin 256) (h : Fin 64) :
    broadcastTo S256x64 v broadcasts_S256x1_S256x64 (ix2 r h) = v (ix2 r (0 : Fin 1)) := by
  refine broadcastTo_apply _ broadcasts_S256x1_S256x64 (ix2 r h) (ix2 r (0 : Fin 1)) fun a => ?_
  match a with
  | ⟨0, _⟩ => rfl
  | ⟨1, _⟩ => rfl

theorem cast_col {α : Type} (v : S256.Idx → α) (r : Fin 256) :
    shapeCast S256x1 v shapeCasts_S256_S256x1 (ix2 r (0 : Fin 1)) = v (ix1 r) := by
  refine shapeCast_apply v shapeCasts_S256_S256x1 (ix2 r (0 : Fin 1)) (ix1 r) ?_
  rw [Shape.rowMajor_val_two, Shape.rowMajor_val_one]
  show r.val = r.val * 1 + 0
  omega

/-! ### The causal mask -/

/-- A small natural carried as a 32-bit word is itself as a signed integer. -/
theorem toInt_small (n : ℕ) (hn : n < 4096) : (BitVec.ofNat 32 n).toInt = (n : ℤ) := by
  have hm : (BitVec.ofNat 32 n).toNat = n := by
    rw [BitVec.toNat_ofNat]; exact Nat.mod_eq_of_lt (by omega)
  rw [BitVec.toInt_eq_toNat_of_lt (by rw [hm]; omega), hm]

/-- The signed comparison of two small naturals carried as 32-bit words. -/
theorem sge_small (c r j : ℕ) (hr : r < 256) (hc : c ≤ 2048) (hj : j < 2048) :
    IntOp.cmpi .sge (IntOp.addi (BitVec.ofNat 32 r) (BitVec.ofNat 32 c)) (BitVec.ofNat 32 j)
      = if j ≤ c + r then 1#1 else 0#1 := by
  unfold IntOp.cmpi IntOp.addi
  have h1 : (BitVec.ofNat 32 r + BitVec.ofNat 32 c).toInt = ((r + c : ℕ) : ℤ) := by
    rw [← BitVec.ofNat_add]; exact toInt_small _ (by omega)
  have h2 : (BitVec.ofNat 32 j).toInt = (j : ℤ) := toInt_small _ (by omega)
  simp only [BitVec.sle_eq_decide, h1, h2]
  by_cases h : j ≤ c + r
  · rw [if_pos h]
    have : decide ((j : ℤ) ≤ ((r + c : ℕ) : ℤ)) = true := by
      simp only [decide_eq_true_eq]; omega
    rw [this]; rfl
  · rw [if_neg h]
    have : decide ((j : ℤ) ≤ ((r + c : ℕ) : ℤ)) = false := by
      simp only [decide_eq_false_iff_not]; omega
    rw [this]; rfl

/-- The masked entry: the score where the key is at or before the query's position `512 + r`, the fill after it. -/
theorem masked (s : FVec Ideal S256x768 .f32) (fill : EReal) (r : Fin 256) (j : Fin 768) :
    select (cmpi .sge (addi (iota .tc S256x768 32 [0] iota_S256x768_d0_w32) (broadcast S256x768 512#32))
        (iota .tc S256x768 32 [1] iota_S256x768_d1_w32)) s (broadcast S256x768 fill) (ix2 r j)
      = if j.val ≤ 512 + r.val then s (ix2 r j) else fill := by
  show Scalar.select (IntOp.cmpi .sge (IntOp.addi (iota .tc S256x768 32 [0] iota_S256x768_d0_w32 (ix2 r j)) 512#32)
        (iota .tc S256x768 32 [1] iota_S256x768_d1_w32 (ix2 r j))) (s (ix2 r j)) fill = _
  rw [iota_single_apply, iota_single_apply]
  show Scalar.select (IntOp.cmpi .sge (IntOp.addi (BitVec.ofNat 32 r.val) (BitVec.ofNat 32 512)) (BitVec.ofNat 32 j.val)) (s (ix2 r j)) fill = _
  rw [sge_small 512 r.val j.val r.isLt (by omega) (by have := j.isLt; omega)]
  by_cases h : j.val ≤ 512 + r.val
  · rw [if_pos h, if_pos h]; exact select_one _ _
  · rw [if_neg h, if_neg h]; exact select_zero _ _

/-- The fill constant is −∞. -/
theorem neg_big : Named.named (F := Ideal) Cert.KernelIdeal.κ "neg_big" (φ := .f32) 0xFF333332#32 = (⊥ : EReal) :=
  IdealRules.named_const.ideal_named_scalar _ _ _ _ rfl

/-! ### The tile's intermediate blocks -/

/-- The masked scores of the 256 query rows against the 768 keys. -/
def msc (q : FVec Ideal S256x64 .bf16) (kb : FVec Ideal S768x64 .bf16) : FVec Ideal S256x768 .f32 :=
  select (cmpi .sge (addi (iota .tc S256x768 32 [0] iota_S256x768_d0_w32) (broadcast S256x768 512#32))
      (iota .tc S256x768 32 [1] iota_S256x768_d1_w32)) (k0_pay4 (F := Ideal) q kb)
    (broadcast S256x768 (Named.named (F := Ideal) Cert.KernelIdeal.κ "neg_big" (φ := .f32) 0xFF333332#32))

/-- The unnormalised weights: the exponential of each masked score less its row's maximum. -/
def wts (q : FVec Ideal S256x64 .bf16) (kb : FVec Ideal S768x64 .bf16) : FVec Ideal S256x768 .f32 :=
  exp (subf (msc q kb) (broadcastTo S256x768 (shapeCast S256x1
    (multiReduction (F := Ideal) .maximumf [1] S256 (msc q kb) 0xFF800000#32 reduces_S256x768_S256 (.inl rfl) rfl)
    shapeCasts_S256_S256x1) broadcasts_S256x1_S256x768))

/-- The tile's block is the weighted sum of the keys over the sum of the weights. -/
theorem pay_eq (q : FVec Ideal S256x64 .bf16) (kb : FVec Ideal S768x64 .bf16) :
    k0_pay6 (F := Ideal) kb (k0_pay4 q kb) (iota .tc S256x768 32 [0] iota_S256x768_d0_w32) k0_pay5
      = divf (matmul dot_S256x768_S768x64_S256x64_1_0_0_1_n_n none (truncf .bf16 (wts q kb) bitsLt_bf16_f32) kb
            (constant (F := Ideal) S256x64 .f32 0x00000000#32))
          (broadcastTo S256x64 (shapeCast S256x1
            (multiReduction (F := Ideal) .add [1] S256 (wts q kb) 0x00000000#32 reduces_S256x768_S256 (.inl rfl) rfl)
            shapeCasts_S256_S256x1) broadcasts_S256x1_S256x64) := rfl

/-- The exponential of a block, entry by entry. -/
theorem exp_at {s : Shape} (x : FVec Ideal s .f32) (i : s.Idx) : exp x i = Ideal.exp (x i) := rfl

/-- The scale word is the specification's scale. -/
theorem scale_eq : Scalar.ofBits (F := Ideal) .f32 0x3D000000#32 = Attn.scI := rfl

/-- The scaled scores are the score product times the scale. -/
theorem sc_eq (q : FVec Ideal S256x64 .bf16) (kb : FVec Ideal S768x64 .bf16) :
    k0_pay4 (F := Ideal) q kb
      = mulf (matmul dot_S256x64_S768x64_S256x768_1_1_0_0_n_n none q kb (constant (F := Ideal) S256x768 .f32 0x00000000#32))
          (broadcast S256x768 (Scalar.ofBits (F := Ideal) .f32 0x3D000000#32)) := rfl

/-- A scaled score. -/
theorem score_apply (q : FVec Ideal S256x64 .bf16) (kb : FVec Ideal S768x64 .bf16) (r : Fin 256) (j : Fin 768) :
    k0_pay4 (F := Ideal) q kb (ix2 r j) = (∑ h' : Fin 64, q (ix2 r h') * kb (ix2 j h')) * Attn.scI := by
  rw [sc_eq, mulf_apply, broadcast_apply, scores_mm, scale_eq]

/-- A masked score is the specification's score row at position `512 + r`. -/
theorem msc_apply (q : FVec Ideal S256x64 .bf16) (kb : FVec Ideal S768x64 .bf16) (r : Fin 256) (j : Fin 768) :
    msc q kb (ix2 r j)
      = Attn.srow (n := 768) (512 + r.val) Attn.scI (fun h' => q (ix2 r h')) (fun j' h' => kb (ix2 j' h')) j := by
  unfold msc Attn.srow
  rw [masked, score_apply, neg_big]

/-- A weight. -/
theorem wts_apply (q : FVec Ideal S256x64 .bf16) (kb : FVec Ideal S768x64 .bf16) (r : Fin 256) (j : Fin 768) :
    wts q kb (ix2 r j)
      = Ideal.exp (Attn.srow (n := 768) (512 + r.val) Attn.scI (fun h' => q (ix2 r h')) (fun j' h' => kb (ix2 j' h')) j
          - Finset.univ.fold max ⊥ (Attn.srow (n := 768) (512 + r.val) Attn.scI (fun h' => q (ix2 r h')) (fun j' h' => kb (ix2 j' h')))) := by
  have hrow : (fun j' : Fin 768 => msc q kb (ix2 r j'))
      = Attn.srow (n := 768) (512 + r.val) Attn.scI (fun h' => q (ix2 r h')) (fun j' h' => kb (ix2 j' h')) :=
    funext fun j' => msc_apply q kb r j'
  unfold wts
  rw [exp_at, subf_apply, col768, rowmax, hrow, msc_apply]

/-- The tile's block at an entry, over any query block and key block. -/
theorem pay_apply (q : FVec Ideal S256x64 .bf16) (kb : FVec Ideal S768x64 .bf16) (r : Fin 256) (h : Fin 64) :
    k0_pay6 (F := Ideal) kb (k0_pay4 q kb) (iota .tc S256x768 32 [0] iota_S256x768_d0_w32) k0_pay5 (ix2 r h)
      = Attn.attnTile (n := 768) (512 + r.val) Attn.scI (fun h' => q (ix2 r h')) (fun j' h' => kb (ix2 j' h')) h := by
  rw [pay_eq, divf_apply, wsum_mm, col64, cast_col, rowsum]
  unfold Attn.attnTile
  have e1 : (∑ j : Fin 768, truncf .bf16 (wts q kb) bitsLt_bf16_f32 (ix2 r j) * kb (ix2 j h))
      = ∑ j : Fin 768, Ideal.exp (Attn.srow (n := 768) (512 + r.val) Attn.scI (fun h' => q (ix2 r h')) (fun j' h' => kb (ix2 j' h')) j
          - Finset.univ.fold max ⊥ (Attn.srow (n := 768) (512 + r.val) Attn.scI (fun h' => q (ix2 r h')) (fun j' h' => kb (ix2 j' h')))) * kb (ix2 j h) :=
    Finset.sum_congr rfl fun j _ => by rw [truncf_apply, wts_apply]
  have e2 : (∑ j : Fin 768, wts q kb (ix2 r j))
      = ∑ j : Fin 768, Ideal.exp (Attn.srow (n := 768) (512 + r.val) Attn.scI (fun h' => q (ix2 r h')) (fun j' h' => kb (ix2 j' h')) j
          - Finset.univ.fold max ⊥ (Attn.srow (n := 768) (512 + r.val) Attn.scI (fun h' => q (ix2 r h')) (fun j' h' => kb (ix2 j' h')))) :=
    Finset.sum_congr rfl fun j _ => wts_apply q kb r j
  rw [e1, e2]

/-! ### The two row blocks of the keys the tile reads -/

theorem ld_q (K : Vec Ideal S2048x64 .bf16) (r : Fin 256) (h' : Fin 64) :
    View.ld K rq2 (ix2 r h') = K (ix2 (⟨512 + r.val, by have := r.isLt; omega⟩ : Fin 2048) h') :=
  congrArg K (funext fun a => Fin.ext (by
    match a with
    | ⟨0, _⟩ => show 512 + 1 * r.val = 512 + r.val; omega
    | ⟨1, _⟩ => show 0 + 1 * h'.val = h'.val; omega))

theorem ld_k (K : Vec Ideal S2048x64 .bf16) (j : Fin 768) (h' : Fin 64) :
    View.ld K rk2 (ix2 j h') = K (ix2 (Fin.castLE (by decide : 768 ≤ 2048) j) h') :=
  congrArg K (funext fun a => Fin.ext (by
    match a with
    | ⟨0, _⟩ => show 0 + 1 * j.val = j.val; omega
    | ⟨1, _⟩ => show 0 + 1 * h'.val = h'.val; omega))

end T2

/-- Entry `(r, h)` of tile 2 is the softmax-weighted average of the first 768 keys' column `h`, for the query at position
    `512 + r`, divided once by the sum of the weights. -/
theorem tile2_apply (K : Vec Ideal S2048x64 .bf16) (r : Fin 256) (h : Fin 64) :
    tile2 (F := Ideal) K (ix2 r h)
      = Attn.attnTile (n := 768) (512 + r.val) Attn.scI
          (fun h' => K (ix2 (⟨512 + r.val, by have := r.isLt; omega⟩ : Fin 2048) h'))
          (fun (j : Fin 768) h' => K (ix2 (Fin.castLE (by decide : 768 ≤ 2048) j) h')) h := by
  unfold tile2
  rw [T2.pay_apply]
  have hq : (fun h' : Fin 64 => View.ld K rq2 (ix2 r h'))
      = fun h' => K (ix2 (⟨512 + r.val, by have := r.isLt; omega⟩ : Fin 2048) h') := funext fun h' => T2.ld_q K r h'
  have hk : (fun (j : Fin 768) (h' : Fin 64) => View.ld K rk2 (ix2 j h'))
      = fun (j : Fin 768) h' => K (ix2 (Fin.castLE (by decide : 768 ≤ 2048) j) h') :=
    funext fun j => funext fun h' => T2.ld_k K j h'
  rw [hq, hk]

end Cert.KernelIdeal.Body

end
-- ==== Proof.KITile3.lean ====
/-
  Tile 3 of the idealized kernel read at one entry: rows 768 … 1023 against the first 1024 keys.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Idealize.SL.Sem Cert.KernelIdeal Cert.KernelIdeal.Gen

namespace T3

/-! ### The score product: a 256 × 64 block against a 1024 × 64 block, contracted over the 64 columns -/

theorem sc_lhs_0 (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem sc_lhs_1 (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem sc_rhs_0 (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem sc_rhs_1 (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

/-- Entry `(r, j)` of the product is the inner product of query row `r` with key row `j`. -/
theorem scores_mm (q : FVec Ideal S256x64 .bf16) (kb : FVec Ideal S1024x64 .bf16) (r : Fin 256) (j : Fin 1024) :
    matmul dot_S256x64_S1024x64_S256x1024_1_1_0_0_n_n none q kb (constant (F := Ideal) S256x1024 .f32 0x00000000#32) (ix2 r j)
      = ∑ h' : Fin 64, q (ix2 r h') * kb (ix2 j h') := by
  simp only [matmul]
  rw [Ideal.matmul_constant_zero_apply, ← Equiv.sum_comp (ValueIdx.contrEquiv1 dot_S256x64_S1024x64_S256x1024_1_1_0_0_n_n 64 rfl rfl).symm]
  refine Finset.sum_congr rfl fun k _ => ?_
  have hk := ValueIdx.contrEquiv1_symm_val dot_S256x64_S1024x64_S256x1024_1_1_0_0_n_n 64 rfl rfl k
  have el : dot_S256x64_S1024x64_S256x1024_1_1_0_0_n_n.lhsIdx (ix2 r j) ((ValueIdx.contrEquiv1 dot_S256x64_S1024x64_S256x1024_1_1_0_0_n_n 64 rfl rfl).symm k) = ix2 r k := funext fun a => Fin.ext (by
    match a with
    | ⟨0, _⟩ => exact sc_lhs_0 _ _
    | ⟨1, _⟩ => exact (sc_lhs_1 _ _).trans hk)
  have er : dot_S256x64_S1024x64_S256x1024_1_1_0_0_n_n.rhsIdx (ix2 r j) ((ValueIdx.contrEquiv1 dot_S256x64_S1024x64_S256x1024_1_1_0_0_n_n 64 rfl rfl).symm k) = ix2 j k := funext fun a => Fin.ext (by
    match a with
    | ⟨0, _⟩ => exact sc_rhs_0 _ _
    | ⟨1, _⟩ => exact (sc_rhs_1 _ _).trans hk)
  rw [el, er]

/-! ### The weighted sum: a 256 × 1024 block of weights against the 1024 × 64 keys, contracted over the 1024 keys -/

theorem ws_lhs_0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem ws_lhs_1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
theorem ws_rhs_0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
theorem ws_rhs_1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- Entry `(r, h)` of the product is the sum over the keys `j` of weight `(r, j)` times key `(j, h)`. -/
theorem wsum_mm (w : FVec Ideal S256x1024 .bf16) (kb : FVec Ideal S1024x64 .bf16) (r : Fin 256) (h : Fin 64) :
    matmul dot_S256x1024_S1024x64_S256x64_1_0_0_1_n_n none w kb (constant (F := Ideal) S256x64 .f32 0x00000000#32) (ix2 r h)
      = ∑ j : Fin 1024, w (ix2 r j) * kb (ix2 j h) := by
  simp only [matmul]
  rw [Ideal.matmul_constant_zero_apply, ← Equiv.sum_comp (ValueIdx.contrEquiv1 dot_S256x1024_S1024x64_S256x64_1_0_0_1_n_n 1024 rfl rfl).symm]
  refine Finset.sum_congr rfl fun k _ => ?_
  have hk := ValueIdx.contrEquiv1_symm_val dot_S256x1024_S1024x64_S256x64_1_0_0_1_n_n 1024 rfl rfl k
  have el : dot_S256x1024_S1024x64_S256x64_1_0_0_1_n_n.lhsIdx (ix2 r h) ((ValueIdx.contrEquiv1 dot_S256x1024_S1024x64_S256x64_1_0_0_1_n_n 1024 rfl rfl).symm k) = ix2 r k := funext fun a => Fin.ext (by
    match a with
    | ⟨0, _⟩ => exact ws_lhs_0 _ _
    | ⟨1, _⟩ => exact (ws_lhs_1 _ _).trans hk)
  have er : dot_S256x1024_S1024x64_S256x64_1_0_0_1_n_n.rhsIdx (ix2 r h) ((ValueIdx.contrEquiv1 dot_S256x1024_S1024x64_S256x64_1_0_0_1_n_n 1024 rfl rfl).symm k) = ix2 k h := funext fun a => Fin.ext (by
    match a with
    | ⟨0, _⟩ => exact (ws_rhs_0 _ _).trans hk
    | ⟨1, _⟩ => exact ws_rhs_1 _ _)
  rw [el, er]

/-! ### The two row reductions and the column they are spread back over -/

/-- The index a reduced row index `r` and a column `k` name in the 256 × 1024 block. -/
theorem lift_eq (r : Fin 256) (k : Fin 1024) : reduces_S256x1024_S256.lift (ix1 r) k = ix2 r k :=
  funext fun a => Fin.ext (by
    match a with
    | ⟨0, _⟩ => rfl
    | ⟨1, _⟩ => rfl)

/-- The row maximum, from −∞. -/
theorem rowmax (src : FVec Ideal S256x1024 .f32) (r : Fin 256) :
    multiReduction (F := Ideal) .maximumf [1] S256 src 0xFF800000#32 reduces_S256x1024_S256 (.inl rfl) rfl (ix1 r)
      = Finset.univ.fold max ⊥ (fun j : Fin 1024 => src (ix2 r j)) := by
  refine (Ideal.multiReduction_maximumf_single src 0xFF800000#32 reduces_S256x1024_S256 (.inl rfl) rfl (ix1 r)).trans ?_
  have hb : (FloatOps.ofBits (F := Ideal) .f32 0xFF800000#32 : EReal) = ⊥ := by
    show Ideal.ofBits .f32 0xFF800000#32 = ⊥
    simp [Ideal.ofBits, Ideal.ieee]
  have hf : (src ∘ reduces_S256x1024_S256.lift (ix1 r)) = fun j : Fin 1024 => src (ix2 r j) :=
    funext fun k => congrArg src (lift_eq r k)
  rw [hb, hf]
  rfl

/-- The row sum. -/
theorem rowsum (src : FVec Ideal S256x1024 .f32) (r : Fin 256) :
    multiReduction (F := Ideal) .add [1] S256 src 0x00000000#32 reduces_S256x1024_S256 (.inl rfl) rfl (ix1 r)
      = ∑ j : Fin 1024, src (ix2 r j) := by
  refine (Ideal.multiReduction_add_single src 0x00000000#32 reduces_S256x1024_S256 (.inl rfl) rfl (ix1 r)).trans ?_
  exact Finset.sum_congr rfl fun k _ => congrArg src (lift_eq r k)

/-- A length-256 vector made a column and spread over 1024 columns reads its row's entry. -/
theorem col1024 {α : Type} (v : S256.Idx → α) (r : Fin 256) (j : Fin 1024) :
    broadcastTo S256x1024 (shapeCast S256x1 v shapeCasts_S256_S256x1) broadcasts_S256x1_S256x1024 (ix2 r j) = v (ix1 r) := by
  refine (broadcastTo_apply _ broadcasts_S256x1_S256x1024 (ix2 r j) (ix2 r (0 : Fin 1)) fun a => ?_).trans ?_
  · match a with
    | ⟨0, _⟩ => rfl
    | ⟨1, _⟩ => rfl
  · refine shapeCast_apply v shapeCasts_S256_S256x1 (ix2 r (0 : Fin 1)) (ix1 r) ?_
    rw [Shape.rowMajor_val_two, Shape.rowMajor_val_one]
    show r.val = r.val * 1 + 0
    omega

/-- A column spread over the 64 head columns reads its row's entry. -/
theorem col64 {α : Type} (v : S256x1.Idx → α) (r : Fin 256) (h : Fin 64) :
    broadcastTo S256x64 v broadcasts_S256x1_S256x64 (ix2 r h) = v (ix2 r (0 : Fin 1)) := by
  refine broadcastTo_apply _ broadcasts_S256x1_S256x64 (ix2 r h) (ix2 r (0 : Fin 1)) fun a => ?_
  match a with
  | ⟨0, _⟩ => rfl
  | ⟨1, _⟩ => rfl

/-- A length-256 vector made a column reads its row's entry. -/
theorem cast_col {α : Type} (v : S256.Idx → α) (r : Fin 256) :
    shapeCast S256x1 v shapeCasts_S256_S256x1 (ix2 r (0 : Fin 1)) = v (ix1 r) := by
  refine shapeCast_apply v shapeCasts_S256_S256x1 (ix2 r (0 : Fin 1)) (ix1 r) ?_
  rw [Shape.rowMajor_val_two, Shape.rowMajor_val_one]
  show r.val = r.val * 1 + 0
  omega

/-! ### The causal mask -/

/-- A small natural carried as a 32-bit word is itself as a signed integer. -/
theorem toInt_small (n : ℕ) (hn : n < 4096) : (BitVec.ofNat 32 n).toInt = (n : ℤ) := by
  have hm : (BitVec.ofNat 32 n).toNat = n := by
    rw [BitVec.toNat_ofNat]; exact Nat.mod_eq_of_lt (by omega)
  rw [BitVec.toInt_eq_toNat_of_lt (by rw [hm]; omega), hm]

/-- The signed comparison of two small naturals carried as 32-bit words. -/
theorem sge_small (c r j : ℕ) (hr : r < 256) (hc : c ≤ 2048) (hj : j < 2048) :
    IntOp.cmpi .sge (IntOp.addi (BitVec.ofNat 32 r) (BitVec.ofNat 32 c)) (BitVec.ofNat 32 j)
      = if j ≤ c + r then 1#1 else 0#1 := by
  unfold IntOp.cmpi IntOp.addi
  have h1 : (BitVec.ofNat 32 r + BitVec.ofNat 32 c).toInt = ((r + c : ℕ) : ℤ) := by
    rw [← BitVec.ofNat_add]; exact toInt_small _ (by omega)
  have h2 : (BitVec.ofNat 32 j).toInt = (j : ℤ) := toInt_small _ (by omega)
  simp only [BitVec.sle_eq_decide, h1, h2]
  by_cases h : j ≤ c + r
  · rw [if_pos h]
    have : decide ((j : ℤ) ≤ ((r + c : ℕ) : ℤ)) = true := by
      simp only [decide_eq_true_eq]; omega
    rw [this]; rfl
  · rw [if_neg h]
    have : decide ((j : ℤ) ≤ ((r + c : ℕ) : ℤ)) = false := by
      simp only [decide_eq_false_iff_not]; omega
    rw [this]; rfl

/-- The masked entry: the score where the key is at or before the query's position `768 + r`, the fill after it. -/
theorem masked (s : FVec Ideal S256x1024 .f32) (fill : EReal) (r : Fin 256) (j : Fin 1024) :
    select (cmpi .sge (addi (iota .tc S256x1024 32 [0] iota_S256x1024_d0_w32) (broadcast S256x1024 768#32))
        (iota .tc S256x1024 32 [1] iota_S256x1024_d1_w32)) s (broadcast S256x1024 fill) (ix2 r j)
      = if j.val ≤ 768 + r.val then s (ix2 r j) else fill := by
  show Scalar.select (IntOp.cmpi .sge (IntOp.addi (iota .tc S256x1024 32 [0] iota_S256x1024_d0_w32 (ix2 r j)) 768#32)
        (iota .tc S256x1024 32 [1] iota_S256x1024_d1_w32 (ix2 r j))) (s (ix2 r j)) fill = _
  rw [iota_single_apply, iota_single_apply]
  show Scalar.select (IntOp.cmpi .sge (IntOp.addi (BitVec.ofNat 32 r.val) (BitVec.ofNat 32 768)) (BitVec.ofNat 32 j.val)) (s (ix2 r j)) fill = _
  rw [sge_small 768 r.val j.val r.isLt (by omega) (by have := j.isLt; omega)]
  by_cases h : j.val ≤ 768 + r.val
  · rw [if_pos h, if_pos h]; exact select_one _ _
  · rw [if_neg h, if_neg h]; exact select_zero _ _

/-- The fill constant is −∞. -/
theorem neg_big : Named.named (F := Ideal) Cert.KernelIdeal.κ "neg_big" (φ := .f32) 0xFF333332#32 = (⊥ : EReal) :=
  IdealRules.named_const.ideal_named_scalar _ _ _ _ rfl

/-! ### The tile's intermediate blocks -/

/-- The scaled scores of the 256 query rows against the 1024 keys. -/
def sc (q : FVec Ideal S256x64 .bf16) (kb : FVec Ideal S1024x64 .bf16) : FVec Ideal S256x1024 .f32 :=
  mulf (matmul dot_S256x64_S1024x64_S256x1024_1_1_0_0_n_n none q kb (constant (F := Ideal) S256x1024 .f32 0x00000000#32))
    (broadcast S256x1024 (Scalar.ofBits (F := Ideal) .f32 0x3D000000#32))

/-- The masked scores. -/
def msc (q : FVec Ideal S256x64 .bf16) (kb : FVec Ideal S1024x64 .bf16) : FVec Ideal S256x1024 .f32 :=
  select (cmpi .sge (addi (iota .tc S256x1024 32 [0] iota_S256x1024_d0_w32) (broadcast S256x1024 768#32))
      (iota .tc S256x1024 32 [1] iota_S256x1024_d1_w32)) (sc q kb)
    (broadcast S256x1024 (Named.named (F := Ideal) Cert.KernelIdeal.κ "neg_big" (φ := .f32) 0xFF333332#32))

/-- The unnormalised weights are the exponential of each masked score less its row's maximum. -/
theorem wts_eq (q : FVec Ideal S256x64 .bf16) (kb : FVec Ideal S1024x64 .bf16) :
    k0_pay7 (F := Ideal) q kb
      = exp (subf (msc q kb) (broadcastTo S256x1024 (shapeCast S256x1
          (multiReduction (F := Ideal) .maximumf [1] S256 (msc q kb) 0xFF800000#32 reduces_S256x1024_S256 (.inl rfl) rfl)
          shapeCasts_S256_S256x1) broadcasts_S256x1_S256x1024)) := rfl

/-- The tile's block is the weighted sum of the keys over the sum of the weights. -/
theorem pay_eq (q : FVec Ideal S256x64 .bf16) (kb : FVec Ideal S1024x64 .bf16) :
    k0_pay10 (F := Ideal) kb (k0_pay8 q kb) (k0_pay9 q kb) (constant (F := Ideal) S256x64 .f32 0x00000000#32)
      = divf (matmul dot_S256x1024_S1024x64_S256x64_1_0_0_1_n_n none (truncf .bf16 (k0_pay7 (F := Ideal) q kb) bitsLt_bf16_f32) kb
            (constant (F := Ideal) S256x64 .f32 0x00000000#32))
          (broadcastTo S256x64 (shapeCast S256x1
            (multiReduction (F := Ideal) .add [1] S256 (k0_pay7 (F := Ideal) q kb) 0x00000000#32 reduces_S256x1024_S256 (.inl rfl) rfl)
            shapeCasts_S256_S256x1) broadcasts_S256x1_S256x64) := rfl

/-- The exponential of a block, entry by entry. -/
theorem exp_at {s : Shape} (x : FVec Ideal s .f32) (i : s.Idx) : exp x i = Ideal.exp (x i) := rfl

/-- The scale word is the specification's scale. -/
theorem scale_eq : Scalar.ofBits (F := Ideal) .f32 0x3D000000#32 = Attn.scI := rfl

/-- A scaled score. -/
theorem score_apply (q : FVec Ideal S256x64 .bf16) (kb : FVec Ideal S1024x64 .bf16) (r : Fin 256) (j : Fin 1024) :
    sc q kb (ix2 r j) = (∑ h' : Fin 64, q (ix2 r h') * kb (ix2 j h')) * Attn.scI := by
  unfold sc
  rw [mulf_apply, broadcast_apply, scores_mm, scale_eq]

/-- A masked score is the specification's score row at position `768 + r`. -/
theorem msc_apply (q : FVec Ideal S256x64 .bf16) (kb : FVec Ideal S1024x64 .bf16) (r : Fin 256) (j : Fin 1024) :
    msc q kb (ix2 r j)
      = Attn.srow (n := 1024) (768 + r.val) Attn.scI (fun h' => q (ix2 r h')) (fun j' h' => kb (ix2 j' h')) j := by
  unfold msc Attn.srow
  rw [masked, score_apply, neg_big]

/-- A weight. -/
theorem wts_apply (q : FVec Ideal S256x64 .bf16) (kb : FVec Ideal S1024x64 .bf16) (r : Fin 256) (j : Fin 1024) :
    k0_pay7 (F := Ideal) q kb (ix2 r j)
      = Ideal.exp (Attn.srow (n := 1024) (768 + r.val) Attn.scI (fun h' => q (ix2 r h')) (fun j' h' => kb (ix2 j' h')) j
          - Finset.univ.fold max ⊥ (Attn.srow (n := 1024) (768 + r.val) Attn.scI (fun h' => q (ix2 r h')) (fun j' h' => kb (ix2 j' h')))) := by
  have hrow : (fun j' : Fin 1024 => msc q kb (ix2 r j'))
      = Attn.srow (n := 1024) (768 + r.val) Attn.scI (fun h' => q (ix2 r h')) (fun j' h' => kb (ix2 j' h')) :=
    funext fun j' => msc_apply q kb r j'
  rw [wts_eq, exp_at, subf_apply, col1024, rowmax, hrow, msc_apply]

/-- The tile's block at an entry, over any query block and key block. -/
theorem pay_apply (q : FVec Ideal S256x64 .bf16) (kb : FVec Ideal S1024x64 .bf16) (r : Fin 256) (h : Fin 64) :
    k0_pay10 (F := Ideal) kb (k0_pay8 q kb) (k0_pay9 q kb) (constant (F := Ideal) S256x64 .f32 0x00000000#32) (ix2 r h)
      = Attn.attnTile (n := 1024) (768 + r.val) Attn.scI (fun h' => q (ix2 r h')) (fun j' h' => kb (ix2 j' h')) h := by
  rw [pay_eq, divf_apply, wsum_mm, col64, cast_col, rowsum]
  unfold Attn.attnTile
  have e1 : (∑ j : Fin 1024, truncf .bf16 (k0_pay7 (F := Ideal) q kb) bitsLt_bf16_f32 (ix2 r j) * kb (ix2 j h))
      = ∑ j : Fin 1024, Ideal.exp (Attn.srow (n := 1024) (768 + r.val) Attn.scI (fun h' => q (ix2 r h')) (fun j' h' => kb (ix2 j' h')) j
          - Finset.univ.fold max ⊥ (Attn.srow (n := 1024) (768 + r.val) Attn.scI (fun h' => q (ix2 r h')) (fun j' h' => kb (ix2 j' h')))) * kb (ix2 j h) :=
    Finset.sum_congr rfl fun j _ => by rw [truncf_apply, wts_apply]
  have e2 : (∑ j : Fin 1024, k0_pay7 (F := Ideal) q kb (ix2 r j))
      = ∑ j : Fin 1024, Ideal.exp (Attn.srow (n := 1024) (768 + r.val) Attn.scI (fun h' => q (ix2 r h')) (fun j' h' => kb (ix2 j' h')) j
          - Finset.univ.fold max ⊥ (Attn.srow (n := 1024) (768 + r.val) Attn.scI (fun h' => q (ix2 r h')) (fun j' h' => kb (ix2 j' h')))) :=
    Finset.sum_congr rfl fun j _ => wts_apply q kb r j
  rw [e1, e2]

/-! ### The two row blocks of the keys the tile reads -/

theorem ld_q (K : Vec Ideal S2048x64 .bf16) (r : Fin 256) (h' : Fin 64) :
    View.ld K rq3 (ix2 r h') = K (ix2 (⟨768 + r.val, by have := r.isLt; omega⟩ : Fin 2048) h') :=
  congrArg K (funext fun a => Fin.ext (by
    match a with
    | ⟨0, _⟩ => show 768 + 1 * r.val = 768 + r.val; omega
    | ⟨1, _⟩ => show 0 + 1 * h'.val = h'.val; omega))

theorem ld_k (K : Vec Ideal S2048x64 .bf16) (j : Fin 1024) (h' : Fin 64) :
    View.ld K rk3 (ix2 j h') = K (ix2 (Fin.castLE (by decide : 1024 ≤ 2048) j) h') :=
  congrArg K (funext fun a => Fin.ext (by
    match a with
    | ⟨0, _⟩ => show 0 + 1 * j.val = j.val; omega
    | ⟨1, _⟩ => show 0 + 1 * h'.val = h'.val; omega))

end T3

/-- Entry `(r, h)` of tile 3 is the softmax-weighted average of the first 1024 keys' column `h`, for the query at position
    `768 + r`, divided once by the sum of the weights. -/
theorem tile3_apply (K : Vec Ideal S2048x64 .bf16) (r : Fin 256) (h : Fin 64) :
    tile3 (F := Ideal) K (ix2 r h)
      = Attn.attnTile (n := 1024) (768 + r.val) Attn.scI
          (fun h' => K (ix2 (⟨768 + r.val, by have := r.isLt; omega⟩ : Fin 2048) h'))
          (fun (j : Fin 1024) h' => K (ix2 (Fin.castLE (by decide : 1024 ≤ 2048) j) h')) h := by
  unfold tile3
  rw [T3.pay_apply]
  have hq : (fun h' : Fin 64 => View.ld K rq3 (ix2 r h'))
      = fun h' => K (ix2 (⟨768 + r.val, by have := r.isLt; omega⟩ : Fin 2048) h') := funext fun h' => T3.ld_q K r h'
  have hk : (fun (j : Fin 1024) (h' : Fin 64) => View.ld K rk3 (ix2 j h'))
      = fun (j : Fin 1024) h' => K (ix2 (Fin.castLE (by decide : 1024 ≤ 2048) j) h') :=
    funext fun j => funext fun h' => T3.ld_k K j h'
  rw [hq, hk]

end Cert.KernelIdeal.Body

end
-- ==== Proof.KITile4.lean ====
/-
  Tile 4 of the idealized kernel read at one entry: rows 1024 … 1279 against the first 1280 keys.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws
import Idealize.ShloMosaic.Lib.StableHlo.Predicate
import Idealize.ShloMosaic.PureOps.IdealRules

noncomputable section

open scoped BigOperators

namespace Cert.KernelIdeal.Body

open Idealize.ShloMosaic Idealize.ShloMosaic.ValueIdx Idealize.SL.Sem Cert.KernelIdeal Cert.KernelIdeal.Gen

namespace T4

/-! ### The score product: queries against keys -/
theorem qk_lhs_0 (i : S256x1280.Idx) (c : dot_S256x64_S1280x64_S256x1280_1_1_0_0_n_n.contr.Idx) :
    (dot_S256x64_S1280x64_S256x1280_1_1_0_0_n_n.lhsIdx i c 0).val = (i 0).val := by
  unfold DotDims.lhsIdx
  rw [dif_neg (show ¬(0 : Fin S256x64.rank) ∈ dot_S256x64_S1280x64_S256x1280_1_1_0_0_n_n.lhsBatch by decide), dif_pos (show (0 : Fin S256x64.rank) ∈ dot_S256x64_S1280x64_S256x1280_1_1_0_0_n_n.lhsNonContracting by decide)]
  rfl
theorem qk_lhs_1 (i : S256x1280.Idx) (c : dot_S256x64_S1280x64_S256x1280_1_1_0_0_n_n.contr.Idx) :
    (dot_S256x64_S1280x64_S256x1280_1_1_0_0_n_n.lhsIdx i c 1).val = (c ⟨0, by decide⟩).val :=
  dot_S256x64_S1280x64_S256x1280_1_1_0_0_n_n.lhsIdx_val_of_single rfl i c
theorem qk_rhs_0 (i : S256x1280.Idx) (c : dot_S256x64_S1280x64_S256x1280_1_1_0_0_n_n.contr.Idx) :
    (dot_S256x64_S1280x64_S256x1280_1_1_0_0_n_n.rhsIdx i c 0).val = (i 1).val := by
  unfold DotDims.rhsIdx
  rw [dif_neg (show ¬(0 : Fin S1280x64.rank) ∈ dot_S256x64_S1280x64_S256x1280_1_1_0_0_n_n.rhsBatch by decide), dif_pos (show (0 : Fin S1280x64.rank) ∈ dot_S256x64_S1280x64_S256x1280_1_1_0_0_n_n.rhsNonContracting by decide)]
  rfl
theorem qk_rhs_1 (i : S256x1280.Idx) (c : dot_S256x64_S1280x64_S256x1280_1_1_0_0_n_n.contr.Idx) :
    (dot_S256x64_S1280x64_S256x1280_1_1_0_0_n_n.rhsIdx i c 1).val = (c ⟨0, by decide⟩).val :=
  dot_S256x64_S1280x64_S256x1280_1_1_0_0_n_n.rhsIdx_val_of_single rfl i c

/-- The first product at `(r, j)`: query row `r` against key row `j`. -/
theorem qk_apply (q : FVec Ideal S256x64 .bf16) (k : FVec Ideal S1280x64 .bf16) (r : Fin 256) (j : Fin 1280) :
    matmul dot_S256x64_S1280x64_S256x1280_1_1_0_0_n_n none q k (constant (F := Ideal) S256x1280 .f32 0x00000000#32) (ix2 r j)
      = ∑ h : Fin 64, q (ix2 r h) * k (ix2 j h) := by
  simp only [matmul]
  rw [Ideal.matmul_constant_zero_apply, ← Equiv.sum_comp (contrEquiv1 dot_S256x64_S1280x64_S256x1280_1_1_0_0_n_n 64 rfl rfl).symm]
  refine Finset.sum_congr rfl fun h _ => ?_
  have hk := contrEquiv1_symm_val dot_S256x64_S1280x64_S256x1280_1_1_0_0_n_n 64 rfl rfl h
  have el : dot_S256x64_S1280x64_S256x1280_1_1_0_0_n_n.lhsIdx (ix2 r j) ((contrEquiv1 dot_S256x64_S1280x64_S256x1280_1_1_0_0_n_n 64 rfl rfl).symm h) = ix2 r h := funext fun a => Fin.ext (by
    match a with
    | ⟨0, _⟩ => exact qk_lhs_0 _ _
    | ⟨1, _⟩ => exact (qk_lhs_1 _ _).trans hk)
  have er : dot_S256x64_S1280x64_S256x1280_1_1_0_0_n_n.rhsIdx (ix2 r j) ((contrEquiv1 dot_S256x64_S1280x64_S256x1280_1_1_0_0_n_n 64 rfl rfl).symm h) = ix2 j h := funext fun a => Fin.ext (by
    match a with
    | ⟨0, _⟩ => exact qk_rhs_0 _ _
    | ⟨1, _⟩ => exact (qk_rhs_1 _ _).trans hk)
  rw [el, er]

/-! ### The weighted sum: weights against keys -/
theorem pv_lhs_0 (i : S256x64.Idx) (c : dot_S256x1280_S1280x64_S256x64_1_0_0_1_n_n.contr.Idx) :
    (dot_S256x1280_S1280x64_S256x64_1_0_0_1_n_n.lhsIdx i c 0).val = (i 0).val := by
  unfold DotDims.lhsIdx
  rw [dif_neg (show ¬(0 : Fin S256x1280.rank) ∈ dot_S256x1280_S1280x64_S256x64_1_0_0_1_n_n.lhsBatch by decide), dif_pos (show (0 : Fin S256x1280.rank) ∈ dot_S256x1280_S1280x64_S256x64_1_0_0_1_n_n.lhsNonContracting by decide)]
  rfl
theorem pv_lhs_1 (i : S256x64.Idx) (c : dot_S256x1280_S1280x64_S256x64_1_0_0_1_n_n.contr.Idx) :
    (dot_S256x1280_S1280x64_S256x64_1_0_0_1_n_n.lhsIdx i c 1).val = (c ⟨0, by decide⟩).val :=
  dot_S256x1280_S1280x64_S256x64_1_0_0_1_n_n.lhsIdx_val_of_single rfl i c
theorem pv_rhs_0 (i : S256x64.Idx) (c : dot_S256x1280_S1280x64_S256x64_1_0_0_1_n_n.contr.Idx) :
    (dot_S256x1280_S1280x64_S256x64_1_0_0_1_n_n.rhsIdx i c 0).val = (c ⟨0, by decide⟩).val :=
  dot_S256x1280_S1280x64_S256x64_1_0_0_1_n_n.rhsIdx_val_of_single rfl i c
theorem pv_rhs_1 (i : S256x64.Idx) (c : dot_S256x1280_S1280x64_S256x64_1_0_0_1_n_n.contr.Idx) :
    (dot_S256x1280_S1280x64_S256x64_1_0_0_1_n_n.rhsIdx i c 1).val = (i 1).val := by
  unfold DotDims.rhsIdx
  rw [dif_neg (show ¬(1 : Fin S1280x64.rank) ∈ dot_S256x1280_S1280x64_S256x64_1_0_0_1_n_n.rhsBatch by decide), dif_pos (show (1 : Fin S1280x64.rank) ∈ dot_S256x1280_S1280x64_S256x64_1_0_0_1_n_n.rhsNonContracting by decide)]
  rfl

/-- The second product at `(r, h)`: the weights of row `r` against column `h` of the keys. -/
theorem pv_apply (p : FVec Ideal S256x1280 .bf16) (k : FVec Ideal S1280x64 .bf16) (r : Fin 256) (h : Fin 64) :
    matmul dot_S256x1280_S1280x64_S256x64_1_0_0_1_n_n none p k (constant (F := Ideal) S256x64 .f32 0x00000000#32) (ix2 r h)
      = ∑ j : Fin 1280, p (ix2 r j) * k (ix2 j h) := by
  simp only [matmul]
  rw [Ideal.matmul_constant_zero_apply, ← Equiv.sum_comp (contrEquiv1 dot_S256x1280_S1280x64_S256x64_1_0_0_1_n_n 1280 rfl rfl).symm]
  refine Finset.sum_congr rfl fun j _ => ?_
  have hk := contrEquiv1_symm_val dot_S256x1280_S1280x64_S256x64_1_0_0_1_n_n 1280 rfl rfl j
  have el : dot_S256x1280_S1280x64_S256x64_1_0_0_1_n_n.lhsIdx (ix2 r h) ((contrEquiv1 dot_S256x1280_S1280x64_S256x64_1_0_0_1_n_n 1280 rfl rfl).symm j) = ix2 r j := funext fun a => Fin.ext (by
    match a with
    | ⟨0, _⟩ => exact pv_lhs_0 _ _
    | ⟨1, _⟩ => exact (pv_lhs_1 _ _).trans hk)
  have er : dot_S256x1280_S1280x64_S256x64_1_0_0_1_n_n.rhsIdx (ix2 r h) ((contrEquiv1 dot_S256x1280_S1280x64_S256x64_1_0_0_1_n_n 1280 rfl rfl).symm j) = ix2 j h := funext fun a => Fin.ext (by
    match a with
    | ⟨0, _⟩ => exact (pv_rhs_0 _ _).trans hk
    | ⟨1, _⟩ => exact pv_rhs_1 _ _)
  rw [el, er]

/-! ### The row maximum and the row sum, spread back over the row -/

/-- The maximum of row `r`, cast to a column and spread over the 1280 columns, read at `(r, j)`. -/
theorem rowmax_apply (s : FVec Ideal S256x1280 .f32) (hφ : FKind.Formats .f32)
    (hacc : (0xFF800000#32 : BitVec 32) = FKind.maximumf.neutral .f32 hφ)
    (r : Fin 256) (j : Fin 1280) :
    broadcastTo S256x1280 (shapeCast S256x1 (multiReduction (F := Ideal) .maximumf [1] S256 s 0xFF800000#32 reduces_S256x1280_S256 hφ hacc)
        shapeCasts_S256_S256x1) broadcasts_S256x1_S256x1280 (ix2 r j)
      = Finset.univ.fold max ⊥ (fun j' : Fin 1280 => s (ix2 r j')) := by
  refine (broadcastTo_apply _ broadcasts_S256x1_S256x1280 (ix2 r j) (ix2 r (0 : Fin 1)) (fun a => by
    match a with
    | ⟨0, _⟩ => rfl
    | ⟨1, _⟩ => rfl)).trans ?_
  refine (shapeCast_apply _ shapeCasts_S256_S256x1 (ix2 r (0 : Fin 1)) (ix1 r) (by
    rw [Shape.rowMajor_val_one, Shape.rowMajor_val_two]
    show (r : ℕ) = (r : ℕ) * 1 + 0
    omega)).trans ?_
  refine (Ideal.multiReduction_maximumf_single s 0xFF800000#32 reduces_S256x1280_S256 hφ hacc (ix1 r)).trans ?_
  have hb : (FloatOps.ofBits (F := Ideal) .f32 0xFF800000#32 : EReal) = ⊥ := by simp [Ideal.ofBits, Ideal.ieee]
  rw [hb]
  refine congrArg (Finset.univ.fold max ⊥) (funext fun j' => ?_)
  show s (reduces_S256x1280_S256.lift (ix1 r) j') = s (ix2 r j')
  refine congrArg s (funext fun a => Fin.ext ?_)
  match a with
  | ⟨0, _⟩ => rfl
  | ⟨1, _⟩ => rfl

/-- The sum of row `r`, cast to a column and spread over the 64 columns, read at `(r, h)`. -/
theorem rowsum_apply (e : FVec Ideal S256x1280 .f32) (hφ : FKind.Formats .f32)
    (hacc : (0x00000000#32 : BitVec 32) = FKind.add.neutral .f32 hφ)
    (r : Fin 256) (h : Fin 64) :
    broadcastTo S256x64 (shapeCast S256x1 (multiReduction (F := Ideal) .add [1] S256 e 0x00000000#32 reduces_S256x1280_S256 hφ hacc)
        shapeCasts_S256_S256x1) broadcasts_S256x1_S256x64 (ix2 r h)
      = ∑ j : Fin 1280, e (ix2 r j) := by
  refine (broadcastTo_apply _ broadcasts_S256x1_S256x64 (ix2 r h) (ix2 r (0 : Fin 1)) (fun a => by
    match a with
    | ⟨0, _⟩ => rfl
    | ⟨1, _⟩ => rfl)).trans ?_
  refine (shapeCast_apply _ shapeCasts_S256_S256x1 (ix2 r (0 : Fin 1)) (ix1 r) (by
    rw [Shape.rowMajor_val_one, Shape.rowMajor_val_two]
    show (r : ℕ) = (r : ℕ) * 1 + 0
    omega)).trans ?_
  refine (Ideal.multiReduction_add_single e 0x00000000#32 reduces_S256x1280_S256 hφ hacc (ix1 r)).trans ?_
  refine Finset.sum_congr rfl fun j _ => ?_
  refine congrArg e (funext fun a => Fin.ext ?_)
  match a with
  | ⟨0, _⟩ => rfl
  | ⟨1, _⟩ => rfl

/-! ### The causal mask and the masked, scaled score row -/

/-- The mask bit at `(r, j)` is set exactly when key `j` is at or before the query's position `1024 + r`. -/
theorem mask_apply (r : Fin 256) (j : Fin 1280) :
    cmpi .sge (addi (iota .tc S256x1280 32 [0] iota_S256x1280_d0_w32) (broadcast S256x1280 1024#32))
      (iota .tc S256x1280 32 [1] iota_S256x1280_d1_w32) (ix2 r j) = 1#1 ↔ j.val ≤ 1024 + r.val := by
  show IntOp.cmpi .sge (IntOp.addi (iota .tc S256x1280 32 [0] iota_S256x1280_d0_w32 (ix2 r j)) 1024#32)
      (iota .tc S256x1280 32 [1] iota_S256x1280_d1_w32 (ix2 r j)) = 1#1 ↔ _
  rw [iota_single_apply, iota_single_apply]
  show IntOp.cmpi .sge (BitVec.ofNat 32 r.val + 1024#32) (BitVec.ofNat 32 j.val) = 1#1 ↔ _
  have hr := r.isLt
  have hj := j.isLt
  have ha : (BitVec.ofNat 32 r.val + 1024#32).toNat = 1024 + r.val := by
    rw [BitVec.toNat_add, BitVec.toNat_ofNat]
    show (r.val % 2 ^ 32 + 1024) % 2 ^ 32 = _
    omega
  have hb : (BitVec.ofNat 32 j.val).toNat = j.val := by
    rw [BitVec.toNat_ofNat]; omega
  rw [StableHlo.Predicate.sge_iff_toNat (by rw [ha]; omega) (by rw [hb]; omega), ha, hb]

/-- The fill of the masked entries is −∞ on the extended reals. -/
theorem neg_big_eq : Named.named (F := Ideal) Cert.KernelIdeal.κ "neg_big" (φ := .f32) 0xFF333332#32 = (⊥ : EReal) :=
  IdealRules.named_const.ideal_named_scalar _ _ _ _ rfl

/-- The masked, scaled scores at `(r, j)` are the score row of the query at position `1024 + r`. -/
theorem scores_apply (q : FVec Ideal S256x64 .bf16) (k : FVec Ideal S1280x64 .bf16) (r : Fin 256) (j : Fin 1280) :
    select (cmpi .sge (addi (iota .tc S256x1280 32 [0] iota_S256x1280_d0_w32) (broadcast S256x1280 1024#32))
        (iota .tc S256x1280 32 [1] iota_S256x1280_d1_w32))
      (mulf (matmul dot_S256x64_S1280x64_S256x1280_1_1_0_0_n_n none q k (constant (F := Ideal) S256x1280 .f32 0x00000000#32))
        (broadcast S256x1280 (Scalar.ofBits (F := Ideal) .f32 0x3D000000#32)))
      (broadcast S256x1280 (Named.named (F := Ideal) Cert.KernelIdeal.κ "neg_big" (φ := .f32) 0xFF333332#32)) (ix2 r j)
    = Attn.srow (1024 + r.val) Attn.scI (fun h => q (ix2 r h)) (fun (j : Fin 1280) h => k (ix2 j h)) j := by
  rw [select_apply, mulf_apply, broadcast_apply, broadcast_apply, qk_apply, neg_big_eq]
  unfold Attn.srow Scalar.select
  exact if_congr (mask_apply r j) rfl rfl

/-! ### The tile's payload as three stages: scores, weights, quotient -/

/-- The masked, scaled scores, as the kernel forms them. -/
def scoresV (q : FVec Ideal S256x64 .bf16) (k : FVec Ideal S1280x64 .bf16) : FVec Ideal S256x1280 .f32 :=
  select (cmpi .sge (addi (iota .tc S256x1280 32 [0] iota_S256x1280_d0_w32) (broadcast S256x1280 1024#32))
      (iota .tc S256x1280 32 [1] iota_S256x1280_d1_w32))
    (mulf (matmul dot_S256x64_S1280x64_S256x1280_1_1_0_0_n_n none q k (constant (F := Ideal) S256x1280 .f32 0x00000000#32))
      (broadcast S256x1280 (Scalar.ofBits (F := Ideal) .f32 0x3D000000#32)))
    (broadcast S256x1280 (Named.named (F := Ideal) Cert.KernelIdeal.κ "neg_big" (φ := .f32) 0xFF333332#32))

/-- The weights: the exponential of each score less its row's maximum. -/
def weightsV (q : FVec Ideal S256x64 .bf16) (k : FVec Ideal S1280x64 .bf16) : FVec Ideal S256x1280 .f32 :=
  exp (subf (scoresV q k)
    (broadcastTo S256x1280 (shapeCast S256x1 (multiReduction (F := Ideal) .maximumf [1] S256 (scoresV q k) 0xFF800000#32
      reduces_S256x1280_S256 (.inl rfl) rfl) shapeCasts_S256_S256x1) broadcasts_S256x1_S256x1280))

/-- The payload is the weighted sum of the keys divided by the row sums of the weights. -/
theorem pay_eq (q : FVec Ideal S256x64 .bf16) (k : FVec Ideal S1280x64 .bf16) :
    k0_pay11 (F := Ideal) q k
      = divf (matmul dot_S256x1280_S1280x64_S256x64_1_0_0_1_n_n none (truncf .bf16 (weightsV q k) bitsLt_bf16_f32) k
            (constant (F := Ideal) S256x64 .f32 0x00000000#32))
          (broadcastTo S256x64 (shapeCast S256x1 (multiReduction (F := Ideal) .add [1] S256 (weightsV q k) 0x00000000#32
            reduces_S256x1280_S256 (.inl rfl) rfl) shapeCasts_S256_S256x1) broadcasts_S256x1_S256x64) := rfl

/-- The exponential acts entry by entry. -/
theorem exp_apply (a : FVec Ideal S256x1280 .f32) (i : S256x1280.Idx) : exp a i = Ideal.exp (a i) := rfl

theorem scoresV_apply (q : FVec Ideal S256x64 .bf16) (k : FVec Ideal S1280x64 .bf16) (r : Fin 256) (j : Fin 1280) :
    scoresV q k (ix2 r j)
      = Attn.srow (1024 + r.val) Attn.scI (fun h => q (ix2 r h)) (fun (j : Fin 1280) h => k (ix2 j h)) j :=
  scores_apply q k r j

theorem weightsV_apply (q : FVec Ideal S256x64 .bf16) (k : FVec Ideal S1280x64 .bf16) (r : Fin 256) (j : Fin 1280) :
    weightsV q k (ix2 r j)
      = Ideal.exp (Attn.srow (1024 + r.val) Attn.scI (fun h => q (ix2 r h)) (fun (j : Fin 1280) h => k (ix2 j h)) j
          - Finset.univ.fold max ⊥ (Attn.srow (1024 + r.val) Attn.scI (fun h => q (ix2 r h)) (fun (j : Fin 1280) h => k (ix2 j h)))) := by
  have hs : ∀ j' : Fin 1280, scoresV q k (ix2 r j')
      = Attn.srow (1024 + r.val) Attn.scI (fun h => q (ix2 r h)) (fun (j : Fin 1280) h => k (ix2 j h)) j' :=
    fun j' => scoresV_apply q k r j'
  have hm := rowmax_apply (scoresV q k) (.inl rfl) rfl r j
  unfold weightsV
  refine (exp_apply _ _).trans (congrArg Ideal.exp ?_)
  refine (subf_apply _ _ _).trans ?_
  refine congrArg₂ (fun a b : EReal => a - b) (hs j) (hm.trans ?_)
  exact congrArg (Finset.univ.fold max ⊥) (funext hs)

/-- The payload at `(r, h)`. -/
theorem pay_apply (q : FVec Ideal S256x64 .bf16) (k : FVec Ideal S1280x64 .bf16) (r : Fin 256) (h : Fin 64) :
    k0_pay11 (F := Ideal) q k (ix2 r h)
      = Attn.attnTile (n := 1280) (1024 + r.val) Attn.scI (fun h' => q (ix2 r h')) (fun (j : Fin 1280) h' => k (ix2 j h')) h := by
  rw [pay_eq, divf_apply]
  unfold Attn.attnTile
  have hw := weightsV_apply q k r
  refine congrArg₂ Ideal.div
    ((pv_apply _ k r h).trans (Finset.sum_congr rfl fun j _ => ?_))
    ((rowsum_apply (weightsV q k) (.inl rfl) rfl r h).trans (Finset.sum_congr rfl fun j _ => hw j))
  rw [truncf_apply, hw j]

/-! ### The rows of the keys the tile reads -/

theorem ld_rq (K : Vec Ideal S2048x64 .bf16) (r : Fin 256) (h : Fin 64) :
    View.ld K rq4 (ix2 r h) = K (ix2 (⟨1024 + r.val, by have := r.isLt; omega⟩ : Fin 2048) h) := by
  refine congrArg K (funext fun a => Fin.ext ?_)
  match a with
  | ⟨0, _⟩ => show 1024 + 1 * r.val = 1024 + r.val; omega
  | ⟨1, _⟩ => show 0 + 1 * h.val = h.val; omega

theorem ld_rk (K : Vec Ideal S2048x64 .bf16) (j : Fin 1280) (h : Fin 64) :
    View.ld K rk4 (ix2 j h) = K (ix2 (Fin.castLE (by decide : 1280 ≤ 2048) j) h) := by
  refine congrArg K (funext fun a => Fin.ext ?_)
  match a with
  | ⟨0, _⟩ => show 0 + 1 * j.val = j.val; omega
  | ⟨1, _⟩ => show 0 + 1 * h.val = h.val; omega

end T4

/-- Entry `(r, h)` of tile 4 is the softmax-weighted average of the first 1280 keys' column `h`, for the query at position
    `1024 + r`, divided once by the sum of the weights. -/
theorem tile4_apply (K : Vec Ideal S2048x64 .bf16) (r : Fin 256) (h : Fin 64) :
    tile4 (F := Ideal) K (ix2 r h)
      = Attn.attnTile (n := 1280) (1024 + r.val) Attn.scI
          (fun h' => K (ix2 (⟨1024 + r.val, by have := r.isLt; omega⟩ : Fin 2048) h'))
          (fun (j : Fin 1280) h' => K (ix2 (Fin.castLE (by decide : 1280 ≤ 2048) j) h')) h := by
  have hq : (fun h' : Fin 64 => View.ld K rq4 (ix2 r h'))
      = fun h' => K (ix2 (⟨1024 + r.val, by have := r.isLt; omega⟩ : Fin 2048) h') := funext fun h' => T4.ld_rq K r h'
  have hk : (fun (j : Fin 1280) (h' : Fin 64) => View.ld K rk4 (ix2 j h'))
      = fun j h' => K (ix2 (Fin.castLE (by decide : 1280 ≤ 2048) j) h') := funext fun j => funext fun h' => T4.ld_rk K j h'
  unfold tile4
  refine (T4.pay_apply (View.ld K rq4) (View.ld K rk4) r h).trans ?_
  rw [hq, hk]

end Cert.KernelIdeal.Body

end
-- ==== Proof.KITile5.lean ====
/-
  Tile 5 of the idealized kernel read at one entry: rows 1280 … 1535 against the first 1536 keys.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws
import Idealize.ShloMosaic.Lib.StableHlo.Predicate
import Idealize.ShloMosaic.PureOps.IdealRules

noncomputable section

open scoped BigOperators

namespace Cert.KernelIdeal.Body

open Idealize.ShloMosaic Idealize.ShloMosaic.ValueIdx Idealize.SL.Sem Cert.KernelIdeal Cert.KernelIdeal.Gen

namespace T5

/-! ### The score product: queries against keys -/
theorem qk_lhs_0 (i : S256x1536.Idx) (c : dot_S256x64_S1536x64_S256x1536_1_1_0_0_n_n.contr.Idx) :
    (dot_S256x64_S1536x64_S256x1536_1_1_0_0_n_n.lhsIdx i c 0).val = (i 0).val := by
  unfold DotDims.lhsIdx
  rw [dif_neg (show ¬(0 : Fin S256x64.rank) ∈ dot_S256x64_S1536x64_S256x1536_1_1_0_0_n_n.lhsBatch by decide), dif_pos (show (0 : Fin S256x64.rank) ∈ dot_S256x64_S1536x64_S256x1536_1_1_0_0_n_n.lhsNonContracting by decide)]
  rfl
theorem qk_lhs_1 (i : S256x1536.Idx) (c : dot_S256x64_S1536x64_S256x1536_1_1_0_0_n_n.contr.Idx) :
    (dot_S256x64_S1536x64_S256x1536_1_1_0_0_n_n.lhsIdx i c 1).val = (c ⟨0, by decide⟩).val :=
  dot_S256x64_S1536x64_S256x1536_1_1_0_0_n_n.lhsIdx_val_of_single rfl i c
theorem qk_rhs_0 (i : S256x1536.Idx) (c : dot_S256x64_S1536x64_S256x1536_1_1_0_0_n_n.contr.Idx) :
    (dot_S256x64_S1536x64_S256x1536_1_1_0_0_n_n.rhsIdx i c 0).val = (i 1).val := by
  unfold DotDims.rhsIdx
  rw [dif_neg (show ¬(0 : Fin S1536x64.rank) ∈ dot_S256x64_S1536x64_S256x1536_1_1_0_0_n_n.rhsBatch by decide), dif_pos (show (0 : Fin S1536x64.rank) ∈ dot_S256x64_S1536x64_S256x1536_1_1_0_0_n_n.rhsNonContracting by decide)]
  rfl
theorem qk_rhs_1 (i : S256x1536.Idx) (c : dot_S256x64_S1536x64_S256x1536_1_1_0_0_n_n.contr.Idx) :
    (dot_S256x64_S1536x64_S256x1536_1_1_0_0_n_n.rhsIdx i c 1).val = (c ⟨0, by decide⟩).val :=
  dot_S256x64_S1536x64_S256x1536_1_1_0_0_n_n.rhsIdx_val_of_single rfl i c

/-- The first product at (r, j): query row r against key row j. -/
theorem qk_apply (q : FVec Ideal S256x64 .bf16) (k : FVec Ideal S1536x64 .bf16) (r : Fin 256) (j : Fin 1536) :
    matmul dot_S256x64_S1536x64_S256x1536_1_1_0_0_n_n none q k (constant (F := Ideal) S256x1536 .f32 0x00000000#32) (ix2 r j)
      = ∑ h : Fin 64, q (ix2 r h) * k (ix2 j h) := by
  simp only [matmul]
  rw [Ideal.matmul_constant_zero_apply, ← Equiv.sum_comp (contrEquiv1 dot_S256x64_S1536x64_S256x1536_1_1_0_0_n_n 64 rfl rfl).symm]
  refine Finset.sum_congr rfl fun h _ => ?_
  have hk := contrEquiv1_symm_val dot_S256x64_S1536x64_S256x1536_1_1_0_0_n_n 64 rfl rfl h
  have el : dot_S256x64_S1536x64_S256x1536_1_1_0_0_n_n.lhsIdx (ix2 r j) ((contrEquiv1 dot_S256x64_S1536x64_S256x1536_1_1_0_0_n_n 64 rfl rfl).symm h) = ix2 r h := funext fun a => Fin.ext (by
    match a with
    | ⟨0, _⟩ => exact qk_lhs_0 _ _
    | ⟨1, _⟩ => exact (qk_lhs_1 _ _).trans hk)
  have er : dot_S256x64_S1536x64_S256x1536_1_1_0_0_n_n.rhsIdx (ix2 r j) ((contrEquiv1 dot_S256x64_S1536x64_S256x1536_1_1_0_0_n_n 64 rfl rfl).symm h) = ix2 j h := funext fun a => Fin.ext (by
    match a with
    | ⟨0, _⟩ => exact qk_rhs_0 _ _
    | ⟨1, _⟩ => exact (qk_rhs_1 _ _).trans hk)
  rw [el, er]

/-! ### The weighted sum: weights against keys -/
theorem pv_lhs_0 (i : S256x64.Idx) (c : dot_S256x1536_S1536x64_S256x64_1_0_0_1_n_n.contr.Idx) :
    (dot_S256x1536_S1536x64_S256x64_1_0_0_1_n_n.lhsIdx i c 0).val = (i 0).val := by
  unfold DotDims.lhsIdx
  rw [dif_neg (show ¬(0 : Fin S256x1536.rank) ∈ dot_S256x1536_S1536x64_S256x64_1_0_0_1_n_n.lhsBatch by decide), dif_pos (show (0 : Fin S256x1536.rank) ∈ dot_S256x1536_S1536x64_S256x64_1_0_0_1_n_n.lhsNonContracting by decide)]
  rfl
theorem pv_lhs_1 (i : S256x64.Idx) (c : dot_S256x1536_S1536x64_S256x64_1_0_0_1_n_n.contr.Idx) :
    (dot_S256x1536_S1536x64_S256x64_1_0_0_1_n_n.lhsIdx i c 1).val = (c ⟨0, by decide⟩).val :=
  dot_S256x1536_S1536x64_S256x64_1_0_0_1_n_n.lhsIdx_val_of_single rfl i c
theorem pv_rhs_0 (i : S256x64.Idx) (c : dot_S256x1536_S1536x64_S256x64_1_0_0_1_n_n.contr.Idx) :
    (dot_S256x1536_S1536x64_S256x64_1_0_0_1_n_n.rhsIdx i c 0).val = (c ⟨0, by decide⟩).val :=
  dot_S256x1536_S1536x64_S256x64_1_0_0_1_n_n.rhsIdx_val_of_single rfl i c
theorem pv_rhs_1 (i : S256x64.Idx) (c : dot_S256x1536_S1536x64_S256x64_1_0_0_1_n_n.contr.Idx) :
    (dot_S256x1536_S1536x64_S256x64_1_0_0_1_n_n.rhsIdx i c 1).val = (i 1).val := by
  unfold DotDims.rhsIdx
  rw [dif_neg (show ¬(1 : Fin S1536x64.rank) ∈ dot_S256x1536_S1536x64_S256x64_1_0_0_1_n_n.rhsBatch by decide), dif_pos (show (1 : Fin S1536x64.rank) ∈ dot_S256x1536_S1536x64_S256x64_1_0_0_1_n_n.rhsNonContracting by decide)]
  rfl

/-- The second product at (r, h): the weights of row r against column h of the keys. -/
theorem pv_apply (p : FVec Ideal S256x1536 .bf16) (k : FVec Ideal S1536x64 .bf16) (r : Fin 256) (h : Fin 64) :
    matmul dot_S256x1536_S1536x64_S256x64_1_0_0_1_n_n none p k (constant (F := Ideal) S256x64 .f32 0x00000000#32) (ix2 r h)
      = ∑ j : Fin 1536, p (ix2 r j) * k (ix2 j h) := by
  simp only [matmul]
  rw [Ideal.matmul_constant_zero_apply, ← Equiv.sum_comp (contrEquiv1 dot_S256x1536_S1536x64_S256x64_1_0_0_1_n_n 1536 rfl rfl).symm]
  refine Finset.sum_congr rfl fun j _ => ?_
  have hk := contrEquiv1_symm_val dot_S256x1536_S1536x64_S256x64_1_0_0_1_n_n 1536 rfl rfl j
  have el : dot_S256x1536_S1536x64_S256x64_1_0_0_1_n_n.lhsIdx (ix2 r h) ((contrEquiv1 dot_S256x1536_S1536x64_S256x64_1_0_0_1_n_n 1536 rfl rfl).symm j) = ix2 r j := funext fun a => Fin.ext (by
    match a with
    | ⟨0, _⟩ => exact pv_lhs_0 _ _
    | ⟨1, _⟩ => exact (pv_lhs_1 _ _).trans hk)
  have er : dot_S256x1536_S1536x64_S256x64_1_0_0_1_n_n.rhsIdx (ix2 r h) ((contrEquiv1 dot_S256x1536_S1536x64_S256x64_1_0_0_1_n_n 1536 rfl rfl).symm j) = ix2 j h := funext fun a => Fin.ext (by
    match a with
    | ⟨0, _⟩ => exact (pv_rhs_0 _ _).trans hk
    | ⟨1, _⟩ => exact pv_rhs_1 _ _)
  rw [el, er]

/-! ### The row maximum and the row sum, spread back over the row -/

/-- The maximum of row r, cast to a column and spread over the 1536 columns, read at (r, j). -/
theorem rowmax_apply (s : FVec Ideal S256x1536 .f32) (hφ : FKind.Formats .f32)
    (hacc : (0xFF800000#32 : BitVec 32) = FKind.maximumf.neutral .f32 hφ)
    (r : Fin 256) (j : Fin 1536) :
    broadcastTo S256x1536 (shapeCast S256x1 (multiReduction (F := Ideal) .maximumf [1] S256 s 0xFF800000#32 reduces_S256x1536_S256 hφ hacc)
        shapeCasts_S256_S256x1) broadcasts_S256x1_S256x1536 (ix2 r j)
      = Finset.univ.fold max ⊥ (fun j' : Fin 1536 => s (ix2 r j')) := by
  refine (broadcastTo_apply _ broadcasts_S256x1_S256x1536 (ix2 r j) (ix2 r (0 : Fin 1)) (fun a => by
    match a with
    | ⟨0, _⟩ => rfl
    | ⟨1, _⟩ => rfl)).trans ?_
  refine (shapeCast_apply _ shapeCasts_S256_S256x1 (ix2 r (0 : Fin 1)) (ix1 r) (by
    rw [Shape.rowMajor_val_one, Shape.rowMajor_val_two]
    show (r : ℕ) = (r : ℕ) * 1 + 0
    omega)).trans ?_
  refine (Ideal.multiReduction_maximumf_single s 0xFF800000#32 reduces_S256x1536_S256 hφ hacc (ix1 r)).trans ?_
  have hb : (FloatOps.ofBits (F := Ideal) .f32 0xFF800000#32 : EReal) = ⊥ := by simp [Ideal.ofBits, Ideal.ieee]
  rw [hb]
  refine congrArg (Finset.univ.fold max ⊥) (funext fun j' => ?_)
  show s (reduces_S256x1536_S256.lift (ix1 r) j') = s (ix2 r j')
  refine congrArg s (funext fun a => Fin.ext ?_)
  match a with
  | ⟨0, _⟩ => rfl
  | ⟨1, _⟩ => rfl

/-- The sum of row r, cast to a column and spread over the 64 columns, read at (r, h). -/
theorem rowsum_apply (e : FVec Ideal S256x1536 .f32) (hφ : FKind.Formats .f32)
    (hacc : (0x00000000#32 : BitVec 32) = FKind.add.neutral .f32 hφ)
    (r : Fin 256) (h : Fin 64) :
    broadcastTo S256x64 (shapeCast S256x1 (multiReduction (F := Ideal) .add [1] S256 e 0x00000000#32 reduces_S256x1536_S256 hφ hacc)
        shapeCasts_S256_S256x1) broadcasts_S256x1_S256x64 (ix2 r h)
      = ∑ j : Fin 1536, e (ix2 r j) := by
  refine (broadcastTo_apply _ broadcasts_S256x1_S256x64 (ix2 r h) (ix2 r (0 : Fin 1)) (fun a => by
    match a with
    | ⟨0, _⟩ => rfl
    | ⟨1, _⟩ => rfl)).trans ?_
  refine (shapeCast_apply _ shapeCasts_S256_S256x1 (ix2 r (0 : Fin 1)) (ix1 r) (by
    rw [Shape.rowMajor_val_one, Shape.rowMajor_val_two]
    show (r : ℕ) = (r : ℕ) * 1 + 0
    omega)).trans ?_
  refine (Ideal.multiReduction_add_single e 0x00000000#32 reduces_S256x1536_S256 hφ hacc (ix1 r)).trans ?_
  refine Finset.sum_congr rfl fun j _ => ?_
  refine congrArg e (funext fun a => Fin.ext ?_)
  match a with
  | ⟨0, _⟩ => rfl
  | ⟨1, _⟩ => rfl

/-! ### The causal mask and the masked, scaled score row -/

/-- The mask bit at (r, j) is set exactly when key j is at or before the query's position 1280 + r. -/
theorem mask_apply (r : Fin 256) (j : Fin 1536) :
    cmpi .sge (addi (iota .tc S256x1536 32 [0] iota_S256x1536_d0_w32) (broadcast S256x1536 1280#32))
      (iota .tc S256x1536 32 [1] iota_S256x1536_d1_w32) (ix2 r j) = 1#1 ↔ j.val ≤ 1280 + r.val := by
  show IntOp.cmpi .sge (IntOp.addi (iota .tc S256x1536 32 [0] iota_S256x1536_d0_w32 (ix2 r j)) 1280#32)
      (iota .tc S256x1536 32 [1] iota_S256x1536_d1_w32 (ix2 r j)) = 1#1 ↔ _
  rw [iota_single_apply, iota_single_apply]
  show IntOp.cmpi .sge (BitVec.ofNat 32 r.val + 1280#32) (BitVec.ofNat 32 j.val) = 1#1 ↔ _
  have hr := r.isLt
  have hj := j.isLt
  have ha : (BitVec.ofNat 32 r.val + 1280#32).toNat = 1280 + r.val := by
    rw [BitVec.toNat_add, BitVec.toNat_ofNat]
    show (r.val % 2 ^ 32 + 1280) % 2 ^ 32 = _
    omega
  have hb : (BitVec.ofNat 32 j.val).toNat = j.val := by
    rw [BitVec.toNat_ofNat]; omega
  rw [StableHlo.Predicate.sge_iff_toNat (by rw [ha]; omega) (by rw [hb]; omega), ha, hb]

/-- The fill of the masked entries is −∞ on the extended reals. -/
theorem neg_big_eq : Named.named (F := Ideal) Cert.KernelIdeal.κ "neg_big" (φ := .f32) 0xFF333332#32 = (⊥ : EReal) :=
  IdealRules.named_const.ideal_named_scalar _ _ _ _ rfl

/-- The masked, scaled scores at (r, j) are the score row of the query at position 1280 + r. -/
theorem scores_apply (q : FVec Ideal S256x64 .bf16) (k : FVec Ideal S1536x64 .bf16) (r : Fin 256) (j : Fin 1536) :
    select (cmpi .sge (addi (iota .tc S256x1536 32 [0] iota_S256x1536_d0_w32) (broadcast S256x1536 1280#32))
        (iota .tc S256x1536 32 [1] iota_S256x1536_d1_w32))
      (mulf (matmul dot_S256x64_S1536x64_S256x1536_1_1_0_0_n_n none q k (constant (F := Ideal) S256x1536 .f32 0x00000000#32))
        (broadcast S256x1536 (Scalar.ofBits (F := Ideal) .f32 0x3D000000#32)))
      (broadcast S256x1536 (Named.named (F := Ideal) Cert.KernelIdeal.κ "neg_big" (φ := .f32) 0xFF333332#32)) (ix2 r j)
    = Attn.srow (1280 + r.val) Attn.scI (fun h => q (ix2 r h)) (fun (j : Fin 1536) h => k (ix2 j h)) j := by
  rw [select_apply, mulf_apply, broadcast_apply, broadcast_apply, qk_apply, neg_big_eq]
  unfold Attn.srow Scalar.select
  exact if_congr (mask_apply r j) rfl rfl

/-! ### The tile's payload as three stages: scores, weights, quotient -/

/-- The masked, scaled scores, as the kernel forms them. -/
def scoresV (q : FVec Ideal S256x64 .bf16) (k : FVec Ideal S1536x64 .bf16) : FVec Ideal S256x1536 .f32 :=
  select (cmpi .sge (addi (iota .tc S256x1536 32 [0] iota_S256x1536_d0_w32) (broadcast S256x1536 1280#32))
      (iota .tc S256x1536 32 [1] iota_S256x1536_d1_w32))
    (mulf (matmul dot_S256x64_S1536x64_S256x1536_1_1_0_0_n_n none q k (constant (F := Ideal) S256x1536 .f32 0x00000000#32))
      (broadcast S256x1536 (Scalar.ofBits (F := Ideal) .f32 0x3D000000#32)))
    (broadcast S256x1536 (Named.named (F := Ideal) Cert.KernelIdeal.κ "neg_big" (φ := .f32) 0xFF333332#32))

/-- The weights: the exponential of each score less its row's maximum. -/
def weightsV (q : FVec Ideal S256x64 .bf16) (k : FVec Ideal S1536x64 .bf16) : FVec Ideal S256x1536 .f32 :=
  exp (subf (scoresV q k)
    (broadcastTo S256x1536 (shapeCast S256x1 (multiReduction (F := Ideal) .maximumf [1] S256 (scoresV q k) 0xFF800000#32
      reduces_S256x1536_S256 (.inl rfl) rfl) shapeCasts_S256_S256x1) broadcasts_S256x1_S256x1536))

/-- The payload is the weighted sum of the keys divided by the row sums of the weights. -/
theorem pay_eq (q : FVec Ideal S256x64 .bf16) (k : FVec Ideal S1536x64 .bf16) :
    k0_pay12 (F := Ideal) q k
      = divf (matmul dot_S256x1536_S1536x64_S256x64_1_0_0_1_n_n none (truncf .bf16 (weightsV q k) bitsLt_bf16_f32) k
            (constant (F := Ideal) S256x64 .f32 0x00000000#32))
          (broadcastTo S256x64 (shapeCast S256x1 (multiReduction (F := Ideal) .add [1] S256 (weightsV q k) 0x00000000#32
            reduces_S256x1536_S256 (.inl rfl) rfl) shapeCasts_S256_S256x1) broadcasts_S256x1_S256x64) := rfl

/-- The exponential acts entry by entry. -/
theorem exp_apply (a : FVec Ideal S256x1536 .f32) (i : S256x1536.Idx) : exp a i = Ideal.exp (a i) := rfl

theorem scoresV_apply (q : FVec Ideal S256x64 .bf16) (k : FVec Ideal S1536x64 .bf16) (r : Fin 256) (j : Fin 1536) :
    scoresV q k (ix2 r j)
      = Attn.srow (1280 + r.val) Attn.scI (fun h => q (ix2 r h)) (fun (j : Fin 1536) h => k (ix2 j h)) j :=
  scores_apply q k r j

theorem weightsV_apply (q : FVec Ideal S256x64 .bf16) (k : FVec Ideal S1536x64 .bf16) (r : Fin 256) (j : Fin 1536) :
    weightsV q k (ix2 r j)
      = Ideal.exp (Attn.srow (1280 + r.val) Attn.scI (fun h => q (ix2 r h)) (fun (j : Fin 1536) h => k (ix2 j h)) j
          - Finset.univ.fold max ⊥ (Attn.srow (1280 + r.val) Attn.scI (fun h => q (ix2 r h)) (fun (j : Fin 1536) h => k (ix2 j h)))) := by
  have hs : ∀ j' : Fin 1536, scoresV q k (ix2 r j')
      = Attn.srow (1280 + r.val) Attn.scI (fun h => q (ix2 r h)) (fun (j : Fin 1536) h => k (ix2 j h)) j' :=
    fun j' => scoresV_apply q k r j'
  have hm := rowmax_apply (scoresV q k) (.inl rfl) rfl r j
  unfold weightsV
  refine (exp_apply _ _).trans (congrArg Ideal.exp ?_)
  refine (subf_apply _ _ _).trans ?_
  refine congrArg₂ (fun a b : EReal => a - b) (hs j) (hm.trans ?_)
  exact congrArg (Finset.univ.fold max ⊥) (funext hs)

/-- The payload at (r, h). -/
theorem pay_apply (q : FVec Ideal S256x64 .bf16) (k : FVec Ideal S1536x64 .bf16) (r : Fin 256) (h : Fin 64) :
    k0_pay12 (F := Ideal) q k (ix2 r h)
      = Attn.attnTile (n := 1536) (1280 + r.val) Attn.scI (fun h' => q (ix2 r h')) (fun (j : Fin 1536) h' => k (ix2 j h')) h := by
  rw [pay_eq, divf_apply]
  unfold Attn.attnTile
  have hw := weightsV_apply q k r
  refine congrArg₂ Ideal.div
    ((pv_apply _ k r h).trans (Finset.sum_congr rfl fun j _ => ?_))
    ((rowsum_apply (weightsV q k) (.inl rfl) rfl r h).trans (Finset.sum_congr rfl fun j _ => hw j))
  rw [truncf_apply, hw j]

/-! ### The rows of the keys the tile reads -/

theorem ld_rq (K : Vec Ideal S2048x64 .bf16) (r : Fin 256) (h : Fin 64) :
    View.ld K rq5 (ix2 r h) = K (ix2 (⟨1280 + r.val, by have := r.isLt; omega⟩ : Fin 2048) h) := by
  refine congrArg K (funext fun a => Fin.ext ?_)
  match a with
  | ⟨0, _⟩ => show 1280 + 1 * r.val = 1280 + r.val; omega
  | ⟨1, _⟩ => show 0 + 1 * h.val = h.val; omega

theorem ld_rk (K : Vec Ideal S2048x64 .bf16) (j : Fin 1536) (h : Fin 64) :
    View.ld K rk5 (ix2 j h) = K (ix2 (Fin.castLE (by decide : 1536 ≤ 2048) j) h) := by
  refine congrArg K (funext fun a => Fin.ext ?_)
  match a with
  | ⟨0, _⟩ => show 0 + 1 * j.val = j.val; omega
  | ⟨1, _⟩ => show 0 + 1 * h.val = h.val; omega

end T5

/-- Entry `(r, h)` of tile 5 is the softmax-weighted average of the first 1536 keys' column `h`, for the query at position
    `1280 + r`, divided once by the sum of the weights. -/
theorem tile5_apply (K : Vec Ideal S2048x64 .bf16) (r : Fin 256) (h : Fin 64) :
    tile5 (F := Ideal) K (ix2 r h)
      = Attn.attnTile (n := 1536) (1280 + r.val) Attn.scI
          (fun h' => K (ix2 (⟨1280 + r.val, by have := r.isLt; omega⟩ : Fin 2048) h'))
          (fun (j : Fin 1536) h' => K (ix2 (Fin.castLE (by decide : 1536 ≤ 2048) j) h')) h := by
  have hq : (fun h' : Fin 64 => View.ld K rq5 (ix2 r h'))
      = fun h' => K (ix2 (⟨1280 + r.val, by have := r.isLt; omega⟩ : Fin 2048) h') := funext fun h' => T5.ld_rq K r h'
  have hk : (fun (j : Fin 1536) (h' : Fin 64) => View.ld K rk5 (ix2 j h'))
      = fun j h' => K (ix2 (Fin.castLE (by decide : 1536 ≤ 2048) j) h') := funext fun j => funext fun h' => T5.ld_rk K j h'
  unfold tile5
  refine (T5.pay_apply (View.ld K rq5) (View.ld K rk5) r h).trans ?_
  rw [hq, hk]

end Cert.KernelIdeal.Body

end
-- ==== Proof.KITile6.lean ====
/-
  Tile 6 of the idealized kernel read at one entry: rows 1536 … 1791 against the first 1792 keys.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Idealize.SL.Sem Cert.KernelIdeal Cert.KernelIdeal.Gen

namespace T6

/-! ### The score product: a 256 × 64 block against a 1792 × 64 block, contracted over the 64 columns -/

theorem sc_lhs_0 (i : S256x1792.Idx) (q : dot_S256x64_S1792x64_S256x1792_1_1_0_0_n_n.contr.Idx) :
    (dot_S256x64_S1792x64_S256x1792_1_1_0_0_n_n.lhsIdx i q 0).val = (i 0).val := by
  unfold DotDims.lhsIdx
  rw [dif_neg (show ¬(0 : Fin S256x64.rank) ∈ dot_S256x64_S1792x64_S256x1792_1_1_0_0_n_n.lhsBatch by decide), dif_pos (show (0 : Fin S256x64.rank) ∈ dot_S256x64_S1792x64_S256x1792_1_1_0_0_n_n.lhsNonContracting by decide)]
  rfl
theorem sc_lhs_1 (i : S256x1792.Idx) (q : dot_S256x64_S1792x64_S256x1792_1_1_0_0_n_n.contr.Idx) :
    (dot_S256x64_S1792x64_S256x1792_1_1_0_0_n_n.lhsIdx i q 1).val = (q ⟨0, by decide⟩).val :=
  dot_S256x64_S1792x64_S256x1792_1_1_0_0_n_n.lhsIdx_val_of_single rfl i q
theorem sc_rhs_0 (i : S256x1792.Idx) (q : dot_S256x64_S1792x64_S256x1792_1_1_0_0_n_n.contr.Idx) :
    (dot_S256x64_S1792x64_S256x1792_1_1_0_0_n_n.rhsIdx i q 0).val = (i 1).val := by
  unfold DotDims.rhsIdx
  rw [dif_neg (show ¬(0 : Fin S1792x64.rank) ∈ dot_S256x64_S1792x64_S256x1792_1_1_0_0_n_n.rhsBatch by decide), dif_pos (show (0 : Fin S1792x64.rank) ∈ dot_S256x64_S1792x64_S256x1792_1_1_0_0_n_n.rhsNonContracting by decide)]
  rfl
theorem sc_rhs_1 (i : S256x1792.Idx) (q : dot_S256x64_S1792x64_S256x1792_1_1_0_0_n_n.contr.Idx) :
    (dot_S256x64_S1792x64_S256x1792_1_1_0_0_n_n.rhsIdx i q 1).val = (q ⟨0, by decide⟩).val :=
  dot_S256x64_S1792x64_S256x1792_1_1_0_0_n_n.rhsIdx_val_of_single rfl i q

/-- Entry `(r, j)` of the product is the inner product of query row `r` with key row `j`. -/
theorem scores_mm (q : FVec Ideal S256x64 .bf16) (kb : FVec Ideal S1792x64 .bf16) (r : Fin 256) (j : Fin 1792) :
    matmul dot_S256x64_S1792x64_S256x1792_1_1_0_0_n_n none q kb (constant (F := Ideal) S256x1792 .f32 0x00000000#32) (ix2 r j)
      = ∑ h' : Fin 64, q (ix2 r h') * kb (ix2 j h') := by
  simp only [matmul]
  rw [Ideal.matmul_constant_zero_apply, ← Equiv.sum_comp (ValueIdx.contrEquiv1 dot_S256x64_S1792x64_S256x1792_1_1_0_0_n_n 64 rfl rfl).symm]
  refine Finset.sum_congr rfl fun k _ => ?_
  have hk := ValueIdx.contrEquiv1_symm_val dot_S256x64_S1792x64_S256x1792_1_1_0_0_n_n 64 rfl rfl k
  have el : dot_S256x64_S1792x64_S256x1792_1_1_0_0_n_n.lhsIdx (ix2 r j) ((ValueIdx.contrEquiv1 dot_S256x64_S1792x64_S256x1792_1_1_0_0_n_n 64 rfl rfl).symm k) = ix2 r k := funext fun a => Fin.ext (by
    match a with
    | ⟨0, _⟩ => exact sc_lhs_0 _ _
    | ⟨1, _⟩ => exact (sc_lhs_1 _ _).trans hk)
  have er : dot_S256x64_S1792x64_S256x1792_1_1_0_0_n_n.rhsIdx (ix2 r j) ((ValueIdx.contrEquiv1 dot_S256x64_S1792x64_S256x1792_1_1_0_0_n_n 64 rfl rfl).symm k) = ix2 j k := funext fun a => Fin.ext (by
    match a with
    | ⟨0, _⟩ => exact sc_rhs_0 _ _
    | ⟨1, _⟩ => exact (sc_rhs_1 _ _).trans hk)
  rw [el, er]

/-! ### The weighted sum: a 256 × 1792 block of weights against the 1792 × 64 keys, contracted over the 1792 keys -/

theorem ws_lhs_0 (i : S256x64.Idx) (q : dot_S256x1792_S1792x64_S256x64_1_0_0_1_n_n.contr.Idx) :
    (dot_S256x1792_S1792x64_S256x64_1_0_0_1_n_n.lhsIdx i q 0).val = (i 0).val := by
  unfold DotDims.lhsIdx
  rw [dif_neg (show ¬(0 : Fin S256x1792.rank) ∈ dot_S256x1792_S1792x64_S256x64_1_0_0_1_n_n.lhsBatch by decide), dif_pos (show (0 : Fin S256x1792.rank) ∈ dot_S256x1792_S1792x64_S256x64_1_0_0_1_n_n.lhsNonContracting by decide)]
  rfl
theorem ws_lhs_1 (i : S256x64.Idx) (q : dot_S256x1792_S1792x64_S256x64_1_0_0_1_n_n.contr.Idx) :
    (dot_S256x1792_S1792x64_S256x64_1_0_0_1_n_n.lhsIdx i q 1).val = (q ⟨0, by decide⟩).val :=
  dot_S256x1792_S1792x64_S256x64_1_0_0_1_n_n.lhsIdx_val_of_single rfl i q
theorem ws_rhs_0 (i : S256x64.Idx) (q : dot_S256x1792_S1792x64_S256x64_1_0_0_1_n_n.contr.Idx) :
    (dot_S256x1792_S1792x64_S256x64_1_0_0_1_n_n.rhsIdx i q 0).val = (q ⟨0, by decide⟩).val :=
  dot_S256x1792_S1792x64_S256x64_1_0_0_1_n_n.rhsIdx_val_of_single rfl i q
theorem ws_rhs_1 (i : S256x64.Idx) (q : dot_S256x1792_S1792x64_S256x64_1_0_0_1_n_n.contr.Idx) :
    (dot_S256x1792_S1792x64_S256x64_1_0_0_1_n_n.rhsIdx i q 1).val = (i 1).val := by
  unfold DotDims.rhsIdx
  rw [dif_neg (show ¬(1 : Fin S1792x64.rank) ∈ dot_S256x1792_S1792x64_S256x64_1_0_0_1_n_n.rhsBatch by decide), dif_pos (show (1 : Fin S1792x64.rank) ∈ dot_S256x1792_S1792x64_S256x64_1_0_0_1_n_n.rhsNonContracting by decide)]
  rfl

/-- Entry `(r, h)` of the product is the sum over the keys `j` of weight `(r, j)` times key `(j, h)`. -/
theorem wsum_mm (w : FVec Ideal S256x1792 .bf16) (kb : FVec Ideal S1792x64 .bf16) (r : Fin 256) (h : Fin 64) :
    matmul dot_S256x1792_S1792x64_S256x64_1_0_0_1_n_n none w kb (constant (F := Ideal) S256x64 .f32 0x00000000#32) (ix2 r h)
      = ∑ j : Fin 1792, w (ix2 r j) * kb (ix2 j h) := by
  simp only [matmul]
  rw [Ideal.matmul_constant_zero_apply, ← Equiv.sum_comp (ValueIdx.contrEquiv1 dot_S256x1792_S1792x64_S256x64_1_0_0_1_n_n 1792 rfl rfl).symm]
  refine Finset.sum_congr rfl fun k _ => ?_
  have hk := ValueIdx.contrEquiv1_symm_val dot_S256x1792_S1792x64_S256x64_1_0_0_1_n_n 1792 rfl rfl k
  have el : dot_S256x1792_S1792x64_S256x64_1_0_0_1_n_n.lhsIdx (ix2 r h) ((ValueIdx.contrEquiv1 dot_S256x1792_S1792x64_S256x64_1_0_0_1_n_n 1792 rfl rfl).symm k) = ix2 r k := funext fun a => Fin.ext (by
    match a with
    | ⟨0, _⟩ => exact ws_lhs_0 _ _
    | ⟨1, _⟩ => exact (ws_lhs_1 _ _).trans hk)
  have er : dot_S256x1792_S1792x64_S256x64_1_0_0_1_n_n.rhsIdx (ix2 r h) ((ValueIdx.contrEquiv1 dot_S256x1792_S1792x64_S256x64_1_0_0_1_n_n 1792 rfl rfl).symm k) = ix2 k h := funext fun a => Fin.ext (by
    match a with
    | ⟨0, _⟩ => exact (ws_rhs_0 _ _).trans hk
    | ⟨1, _⟩ => exact ws_rhs_1 _ _)
  rw [el, er]

/-! ### The two row reductions and the column they are spread back over -/

/-- The index a reduced row index `r` and a column `k` name in the 256 × 1792 block. -/
theorem lift_eq (r : Fin 256) (k : Fin 1792) : reduces_S256x1792_S256.lift (ix1 r) k = ix2 r k :=
  funext fun a => Fin.ext (by
    match a with
    | ⟨0, _⟩ => rfl
    | ⟨1, _⟩ => rfl)

/-- The row maximum, from −∞. -/
theorem rowmax (src : FVec Ideal S256x1792 .f32) (r : Fin 256) :
    multiReduction (F := Ideal) .maximumf [1] S256 src 0xFF800000#32 reduces_S256x1792_S256 (.inl rfl) rfl (ix1 r)
      = Finset.univ.fold max ⊥ (fun j : Fin 1792 => src (ix2 r j)) := by
  refine (Ideal.multiReduction_maximumf_single src 0xFF800000#32 reduces_S256x1792_S256 (.inl rfl) rfl (ix1 r)).trans ?_
  have hb : (FloatOps.ofBits (F := Ideal) .f32 0xFF800000#32 : EReal) = ⊥ := by
    show Ideal.ofBits .f32 0xFF800000#32 = ⊥
    simp [Ideal.ofBits, Ideal.ieee]
  have hf : (src ∘ reduces_S256x1792_S256.lift (ix1 r)) = fun j : Fin 1792 => src (ix2 r j) :=
    funext fun k => congrArg src (lift_eq r k)
  rw [hb, hf]
  rfl

/-- The row sum. -/
theorem rowsum (src : FVec Ideal S256x1792 .f32) (r : Fin 256) :
    multiReduction (F := Ideal) .add [1] S256 src 0x00000000#32 reduces_S256x1792_S256 (.inl rfl) rfl (ix1 r)
      = ∑ j : Fin 1792, src (ix2 r j) := by
  refine (Ideal.multiReduction_add_single src 0x00000000#32 reduces_S256x1792_S256 (.inl rfl) rfl (ix1 r)).trans ?_
  exact Finset.sum_congr rfl fun k _ => congrArg src (lift_eq r k)

/-- A length-256 vector made a column and spread over 1792 columns reads its row's entry. -/
theorem col1792 {α : Type} (v : S256.Idx → α) (r : Fin 256) (j : Fin 1792) :
    broadcastTo S256x1792 (shapeCast S256x1 v shapeCasts_S256_S256x1) broadcasts_S256x1_S256x1792 (ix2 r j) = v (ix1 r) := by
  refine (broadcastTo_apply _ broadcasts_S256x1_S256x1792 (ix2 r j) (ix2 r (0 : Fin 1)) fun a => ?_).trans ?_
  · match a with
    | ⟨0, _⟩ => rfl
    | ⟨1, _⟩ => rfl
  · refine shapeCast_apply v shapeCasts_S256_S256x1 (ix2 r (0 : Fin 1)) (ix1 r) ?_
    rw [Shape.rowMajor_val_two, Shape.rowMajor_val_one]
    show r.val = r.val * 1 + 0
    omega

/-- A column spread over the 64 head columns reads its row's entry. -/
theorem col64 {α : Type} (v : S256x1.Idx → α) (r : Fin 256) (h : Fin 64) :
    broadcastTo S256x64 v broadcasts_S256x1_S256x64 (ix2 r h) = v (ix2 r (0 : Fin 1)) := by
  refine broadcastTo_apply _ broadcasts_S256x1_S256x64 (ix2 r h) (ix2 r (0 : Fin 1)) fun a => ?_
  match a with
  | ⟨0, _⟩ => rfl
  | ⟨1, _⟩ => rfl

/-- A length-256 vector made a column reads its row's entry. -/
theorem cast_col {α : Type} (v : S256.Idx → α) (r : Fin 256) :
    shapeCast S256x1 v shapeCasts_S256_S256x1 (ix2 r (0 : Fin 1)) = v (ix1 r) := by
  refine shapeCast_apply v shapeCasts_S256_S256x1 (ix2 r (0 : Fin 1)) (ix1 r) ?_
  rw [Shape.rowMajor_val_two, Shape.rowMajor_val_one]
  show r.val = r.val * 1 + 0
  omega

/-! ### The causal mask -/

/-- A small natural carried as a 32-bit word is itself as a signed integer. -/
theorem toInt_small (n : ℕ) (hn : n < 4096) : (BitVec.ofNat 32 n).toInt = (n : ℤ) := by
  have hm : (BitVec.ofNat 32 n).toNat = n := by
    rw [BitVec.toNat_ofNat]; exact Nat.mod_eq_of_lt (by omega)
  rw [BitVec.toInt_eq_toNat_of_lt (by rw [hm]; omega), hm]

/-- The signed comparison of two small naturals carried as 32-bit words. -/
theorem sge_small (c r j : ℕ) (hr : r < 256) (hc : c ≤ 2048) (hj : j < 2048) :
    IntOp.cmpi .sge (IntOp.addi (BitVec.ofNat 32 r) (BitVec.ofNat 32 c)) (BitVec.ofNat 32 j)
      = if j ≤ c + r then 1#1 else 0#1 := by
  unfold IntOp.cmpi IntOp.addi
  have h1 : (BitVec.ofNat 32 r + BitVec.ofNat 32 c).toInt = ((r + c : ℕ) : ℤ) := by
    rw [← BitVec.ofNat_add]; exact toInt_small _ (by omega)
  have h2 : (BitVec.ofNat 32 j).toInt = (j : ℤ) := toInt_small _ (by omega)
  simp only [BitVec.sle_eq_decide, h1, h2]
  by_cases h : j ≤ c + r
  · rw [if_pos h]
    have : decide ((j : ℤ) ≤ ((r + c : ℕ) : ℤ)) = true := by
      simp only [decide_eq_true_eq]; omega
    rw [this]; rfl
  · rw [if_neg h]
    have : decide ((j : ℤ) ≤ ((r + c : ℕ) : ℤ)) = false := by
      simp only [decide_eq_false_iff_not]; omega
    rw [this]; rfl

/-- The masked entry: the score where the key is at or before the query's position `1536 + r`, the fill after it. -/
theorem masked (s : FVec Ideal S256x1792 .f32) (fill : EReal) (r : Fin 256) (j : Fin 1792) :
    select (cmpi .sge (addi (iota .tc S256x1792 32 [0] iota_S256x1792_d0_w32) (broadcast S256x1792 1536#32))
        (iota .tc S256x1792 32 [1] iota_S256x1792_d1_w32)) s (broadcast S256x1792 fill) (ix2 r j)
      = if j.val ≤ 1536 + r.val then s (ix2 r j) else fill := by
  show Scalar.select (IntOp.cmpi .sge (IntOp.addi (iota .tc S256x1792 32 [0] iota_S256x1792_d0_w32 (ix2 r j)) 1536#32)
        (iota .tc S256x1792 32 [1] iota_S256x1792_d1_w32 (ix2 r j))) (s (ix2 r j)) fill = _
  rw [iota_single_apply, iota_single_apply]
  show Scalar.select (IntOp.cmpi .sge (IntOp.addi (BitVec.ofNat 32 r.val) (BitVec.ofNat 32 1536)) (BitVec.ofNat 32 j.val)) (s (ix2 r j)) fill = _
  rw [sge_small 1536 r.val j.val r.isLt (by omega) (by have := j.isLt; omega)]
  by_cases h : j.val ≤ 1536 + r.val
  · rw [if_pos h, if_pos h]; exact select_one _ _
  · rw [if_neg h, if_neg h]; exact select_zero _ _

/-- The fill constant is −∞. -/
theorem neg_big : Named.named (F := Ideal) Cert.KernelIdeal.κ "neg_big" (φ := .f32) 0xFF333332#32 = (⊥ : EReal) :=
  IdealRules.named_const.ideal_named_scalar _ _ _ _ rfl

/-! ### The tile's intermediate blocks -/

/-- The scaled scores of the 256 query rows against the 1792 keys. -/
def sc (q : FVec Ideal S256x64 .bf16) (kb : FVec Ideal S1792x64 .bf16) : FVec Ideal S256x1792 .f32 :=
  mulf (matmul dot_S256x64_S1792x64_S256x1792_1_1_0_0_n_n none q kb (constant (F := Ideal) S256x1792 .f32 0x00000000#32))
    (broadcast S256x1792 (Scalar.ofBits (F := Ideal) .f32 0x3D000000#32))

/-- The masked scores are the scaled scores under the causal mask. -/
theorem msc_eq (q : FVec Ideal S256x64 .bf16) (kb : FVec Ideal S1792x64 .bf16) :
    k0_pay13 (F := Ideal) q kb
      = select (cmpi .sge (addi (iota .tc S256x1792 32 [0] iota_S256x1792_d0_w32) (broadcast S256x1792 1536#32))
          (iota .tc S256x1792 32 [1] iota_S256x1792_d1_w32)) (sc q kb)
        (broadcast S256x1792 (Named.named (F := Ideal) Cert.KernelIdeal.κ "neg_big" (φ := .f32) 0xFF333332#32)) := rfl

/-- The row maxima of the masked scores. -/
theorem mx_eq (q : FVec Ideal S256x64 .bf16) (kb : FVec Ideal S1792x64 .bf16) :
    k0_pay14 (F := Ideal) q kb
      = multiReduction (F := Ideal) .maximumf [1] S256 (k0_pay13 (F := Ideal) q kb) 0xFF800000#32 reduces_S256x1792_S256 (.inl rfl) rfl := rfl

/-- The unnormalised weights: the exponential of each masked score less its row's maximum. -/
def wts (q : FVec Ideal S256x64 .bf16) (kb : FVec Ideal S1792x64 .bf16) : FVec Ideal S256x1792 .f32 :=
  exp (subf (k0_pay13 (F := Ideal) q kb) (broadcastTo S256x1792 (shapeCast S256x1 (k0_pay14 (F := Ideal) q kb)
    shapeCasts_S256_S256x1) broadcasts_S256x1_S256x1792))

/-- The tile's block is the weighted sum of the keys over the sum of the weights. -/
theorem pay_eq (q : FVec Ideal S256x64 .bf16) (kb : FVec Ideal S1792x64 .bf16) :
    k0_pay15 (F := Ideal) kb (k0_pay13 q kb) (k0_pay14 q kb)
      = divf (matmul dot_S256x1792_S1792x64_S256x64_1_0_0_1_n_n none (truncf .bf16 (wts q kb) bitsLt_bf16_f32) kb
            (constant (F := Ideal) S256x64 .f32 0x00000000#32))
          (broadcastTo S256x64 (shapeCast S256x1
            (multiReduction (F := Ideal) .add [1] S256 (wts q kb) 0x00000000#32 reduces_S256x1792_S256 (.inl rfl) rfl)
            shapeCasts_S256_S256x1) broadcasts_S256x1_S256x64) := rfl

/-- The exponential of a block, entry by entry. -/
theorem exp_at {s : Shape} (x : FVec Ideal s .f32) (i : s.Idx) : exp x i = Ideal.exp (x i) := rfl

/-- The scale word is the specification's scale. -/
theorem scale_eq : Scalar.ofBits (F := Ideal) .f32 0x3D000000#32 = Attn.scI := rfl

/-- A scaled score. -/
theorem score_apply (q : FVec Ideal S256x64 .bf16) (kb : FVec Ideal S1792x64 .bf16) (r : Fin 256) (j : Fin 1792) :
    sc q kb (ix2 r j) = (∑ h' : Fin 64, q (ix2 r h') * kb (ix2 j h')) * Attn.scI := by
  unfold sc
  rw [mulf_apply, broadcast_apply, scores_mm, scale_eq]

/-- A masked score is the specification's score row at position `1536 + r`. -/
theorem msc_apply (q : FVec Ideal S256x64 .bf16) (kb : FVec Ideal S1792x64 .bf16) (r : Fin 256) (j : Fin 1792) :
    k0_pay13 (F := Ideal) q kb (ix2 r j)
      = Attn.srow (n := 1792) (1536 + r.val) Attn.scI (fun h' => q (ix2 r h')) (fun j' h' => kb (ix2 j' h')) j := by
  unfold Attn.srow
  rw [msc_eq, masked, score_apply, neg_big]

/-- A weight. -/
theorem wts_apply (q : FVec Ideal S256x64 .bf16) (kb : FVec Ideal S1792x64 .bf16) (r : Fin 256) (j : Fin 1792) :
    wts q kb (ix2 r j)
      = Ideal.exp (Attn.srow (n := 1792) (1536 + r.val) Attn.scI (fun h' => q (ix2 r h')) (fun j' h' => kb (ix2 j' h')) j
          - Finset.univ.fold max ⊥ (Attn.srow (n := 1792) (1536 + r.val) Attn.scI (fun h' => q (ix2 r h')) (fun j' h' => kb (ix2 j' h')))) := by
  have hrow : (fun j' : Fin 1792 => k0_pay13 (F := Ideal) q kb (ix2 r j'))
      = Attn.srow (n := 1792) (1536 + r.val) Attn.scI (fun h' => q (ix2 r h')) (fun j' h' => kb (ix2 j' h')) :=
    funext fun j' => msc_apply q kb r j'
  unfold wts
  rw [exp_at, subf_apply, col1792, mx_eq, rowmax, hrow, msc_apply]

/-- The tile's block at an entry, over any query block and key block. -/
theorem pay_apply (q : FVec Ideal S256x64 .bf16) (kb : FVec Ideal S1792x64 .bf16) (r : Fin 256) (h : Fin 64) :
    k0_pay15 (F := Ideal) kb (k0_pay13 q kb) (k0_pay14 q kb) (ix2 r h)
      = Attn.attnTile (n := 1792) (1536 + r.val) Attn.scI (fun h' => q (ix2 r h')) (fun j' h' => kb (ix2 j' h')) h := by
  rw [pay_eq, divf_apply, wsum_mm, col64, cast_col, rowsum]
  unfold Attn.attnTile
  have e1 : (∑ j : Fin 1792, truncf .bf16 (wts q kb) bitsLt_bf16_f32 (ix2 r j) * kb (ix2 j h))
      = ∑ j : Fin 1792, Ideal.exp (Attn.srow (n := 1792) (1536 + r.val) Attn.scI (fun h' => q (ix2 r h')) (fun j' h' => kb (ix2 j' h')) j
          - Finset.univ.fold max ⊥ (Attn.srow (n := 1792) (1536 + r.val) Attn.scI (fun h' => q (ix2 r h')) (fun j' h' => kb (ix2 j' h')))) * kb (ix2 j h) :=
    Finset.sum_congr rfl fun j _ => by rw [truncf_apply, wts_apply]
  have e2 : (∑ j : Fin 1792, wts q kb (ix2 r j))
      = ∑ j : Fin 1792, Ideal.exp (Attn.srow (n := 1792) (1536 + r.val) Attn.scI (fun h' => q (ix2 r h')) (fun j' h' => kb (ix2 j' h')) j
          - Finset.univ.fold max ⊥ (Attn.srow (n := 1792) (1536 + r.val) Attn.scI (fun h' => q (ix2 r h')) (fun j' h' => kb (ix2 j' h')))) :=
    Finset.sum_congr rfl fun j _ => wts_apply q kb r j
  rw [e1, e2]

/-! ### The two row blocks of the keys the tile reads -/

theorem ld_q (K : Vec Ideal S2048x64 .bf16) (r : Fin 256) (h' : Fin 64) :
    View.ld K rq6 (ix2 r h') = K (ix2 (⟨1536 + r.val, by have := r.isLt; omega⟩ : Fin 2048) h') :=
  congrArg K (funext fun a => Fin.ext (by
    match a with
    | ⟨0, _⟩ => show 1536 + 1 * r.val = 1536 + r.val; omega
    | ⟨1, _⟩ => show 0 + 1 * h'.val = h'.val; omega))

theorem ld_k (K : Vec Ideal S2048x64 .bf16) (j : Fin 1792) (h' : Fin 64) :
    View.ld K rk6 (ix2 j h') = K (ix2 (Fin.castLE (by decide : 1792 ≤ 2048) j) h') :=
  congrArg K (funext fun a => Fin.ext (by
    match a with
    | ⟨0, _⟩ => show 0 + 1 * j.val = j.val; omega
    | ⟨1, _⟩ => show 0 + 1 * h'.val = h'.val; omega))

end T6

/-- Entry `(r, h)` of tile 6 is the softmax-weighted average of the first 1792 keys' column `h`, for the query at position
    `1536 + r`, divided once by the sum of the weights. -/
theorem tile6_apply (K : Vec Ideal S2048x64 .bf16) (r : Fin 256) (h : Fin 64) :
    tile6 (F := Ideal) K (ix2 r h)
      = Attn.attnTile (n := 1792) (1536 + r.val) Attn.scI
          (fun h' => K (ix2 (⟨1536 + r.val, by have := r.isLt; omega⟩ : Fin 2048) h'))
          (fun (j : Fin 1792) h' => K (ix2 (Fin.castLE (by decide : 1792 ≤ 2048) j) h')) h := by
  unfold tile6
  rw [T6.pay_apply]
  have hq : (fun h' : Fin 64 => View.ld K rq6 (ix2 r h'))
      = fun h' => K (ix2 (⟨1536 + r.val, by have := r.isLt; omega⟩ : Fin 2048) h') := funext fun h' => T6.ld_q K r h'
  have hk : (fun (j : Fin 1792) (h' : Fin 64) => View.ld K rk6 (ix2 j h'))
      = fun (j : Fin 1792) h' => K (ix2 (Fin.castLE (by decide : 1792 ≤ 2048) j) h') :=
    funext fun j => funext fun h' => T6.ld_k K j h'
  rw [hq, hk]

end Cert.KernelIdeal.Body

end
-- ==== Proof.KITile7.lean ====
/-
  Tile 7 of the idealized kernel read at one entry: rows 1792 … 2047 against all 2048 keys.
-/
import proofs.«409626_j19258633355334_3_alg».proof.Proof.KITerms
import proofs.«409626_j19258633355334_3_alg».proof.Proof.Spec
import Idealize.ShloMosaic.Lib.Pipeline.Value
import Idealize.ShloMosaic.Lib.ValueLayout
import Idealize.ShloMosaic.PureOps.Ideal.Laws
import Idealize.ShloMosaic.Lib.StableHlo.Predicate
import Idealize.ShloMosaic.PureOps.IdealRules

noncomputable section

open scoped BigOperators

namespace Cert.KernelIdeal.Body

open Idealize.ShloMosaic Idealize.ShloMosaic.ValueIdx Idealize.SL.Sem Cert.KernelIdeal Cert.KernelIdeal.Gen

namespace T7

/-! ### The score product: queries against keys -/
theorem qk_lhs_0 (i : S256x2048.Idx) (c : dot_S256x64_S2048x64_S256x2048_1_1_0_0_n_n.contr.Idx) :
    (dot_S256x64_S2048x64_S256x2048_1_1_0_0_n_n.lhsIdx i c 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs_1 (i : S256x2048.Idx) (c : dot_S256x64_S2048x64_S256x2048_1_1_0_0_n_n.contr.Idx) :
    (dot_S256x64_S2048x64_S256x2048_1_1_0_0_n_n.lhsIdx i c 1).val = (c ⟨0, by decide⟩).val :=
  dot_S256x64_S2048x64_S256x2048_1_1_0_0_n_n.lhsIdx_val_of_single rfl i c
theorem qk_rhs_0 (i : S256x2048.Idx) (c : dot_S256x64_S2048x64_S256x2048_1_1_0_0_n_n.contr.Idx) :
    (dot_S256x64_S2048x64_S256x2048_1_1_0_0_n_n.rhsIdx i c 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs_1 (i : S256x2048.Idx) (c : dot_S256x64_S2048x64_S256x2048_1_1_0_0_n_n.contr.Idx) :
    (dot_S256x64_S2048x64_S256x2048_1_1_0_0_n_n.rhsIdx i c 1).val = (c ⟨0, by decide⟩).val :=
  dot_S256x64_S2048x64_S256x2048_1_1_0_0_n_n.rhsIdx_val_of_single rfl i c

/-- The first product at (r, j): query row r against key row j. -/
theorem qk_apply (q : FVec Ideal S256x64 .bf16) (k : FVec Ideal S2048x64 .bf16) (r : Fin 256) (j : Fin 2048) :
    matmul dot_S256x64_S2048x64_S256x2048_1_1_0_0_n_n none q k (constant (F := Ideal) S256x2048 .f32 0x00000000#32) (ix2 r j)
      = ∑ h : Fin 64, q (ix2 r h) * k (ix2 j h) := by
  simp only [matmul]
  rw [Ideal.matmul_constant_zero_apply, ← Equiv.sum_comp (contrEquiv1 dot_S256x64_S2048x64_S256x2048_1_1_0_0_n_n 64 rfl rfl).symm]
  refine Finset.sum_congr rfl fun h _ => ?_
  have hk := contrEquiv1_symm_val dot_S256x64_S2048x64_S256x2048_1_1_0_0_n_n 64 rfl rfl h
  have el : dot_S256x64_S2048x64_S256x2048_1_1_0_0_n_n.lhsIdx (ix2 r j) ((contrEquiv1 dot_S256x64_S2048x64_S256x2048_1_1_0_0_n_n 64 rfl rfl).symm h) = ix2 r h := funext fun a => Fin.ext (by
    match a with
    | ⟨0, _⟩ => exact qk_lhs_0 _ _
    | ⟨1, _⟩ => exact (qk_lhs_1 _ _).trans hk)
  have er : dot_S256x64_S2048x64_S256x2048_1_1_0_0_n_n.rhsIdx (ix2 r j) ((contrEquiv1 dot_S256x64_S2048x64_S256x2048_1_1_0_0_n_n 64 rfl rfl).symm h) = ix2 j h := funext fun a => Fin.ext (by
    match a with
    | ⟨0, _⟩ => exact qk_rhs_0 _ _
    | ⟨1, _⟩ => exact (qk_rhs_1 _ _).trans hk)
  rw [el, er]

/-! ### The weighted sum: weights against keys -/
theorem pv_lhs_0 (i : S256x64.Idx) (c : dot_S256x2048_S2048x64_S256x64_1_0_0_1_n_n.contr.Idx) :
    (dot_S256x2048_S2048x64_S256x64_1_0_0_1_n_n.lhsIdx i c 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhs_1 (i : S256x64.Idx) (c : dot_S256x2048_S2048x64_S256x64_1_0_0_1_n_n.contr.Idx) :
    (dot_S256x2048_S2048x64_S256x64_1_0_0_1_n_n.lhsIdx i c 1).val = (c ⟨0, by decide⟩).val :=
  dot_S256x2048_S2048x64_S256x64_1_0_0_1_n_n.lhsIdx_val_of_single rfl i c
theorem pv_rhs_0 (i : S256x64.Idx) (c : dot_S256x2048_S2048x64_S256x64_1_0_0_1_n_n.contr.Idx) :
    (dot_S256x2048_S2048x64_S256x64_1_0_0_1_n_n.rhsIdx i c 0).val = (c ⟨0, by decide⟩).val :=
  dot_S256x2048_S2048x64_S256x64_1_0_0_1_n_n.rhsIdx_val_of_single rfl i c
theorem pv_rhs_1 (i : S256x64.Idx) (c : dot_S256x2048_S2048x64_S256x64_1_0_0_1_n_n.contr.Idx) :
    (dot_S256x2048_S2048x64_S256x64_1_0_0_1_n_n.rhsIdx i c 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The second product at (r, h): the weights of row r against column h of the keys. -/
theorem pv_apply (p : FVec Ideal S256x2048 .bf16) (k : FVec Ideal S2048x64 .bf16) (r : Fin 256) (h : Fin 64) :
    matmul dot_S256x2048_S2048x64_S256x64_1_0_0_1_n_n none p k (constant (F := Ideal) S256x64 .f32 0x00000000#32) (ix2 r h)
      = ∑ j : Fin 2048, p (ix2 r j) * k (ix2 j h) := by
  simp only [matmul]
  rw [Ideal.matmul_constant_zero_apply, ← Equiv.sum_comp (contrEquiv1 dot_S256x2048_S2048x64_S256x64_1_0_0_1_n_n 2048 rfl rfl).symm]
  refine Finset.sum_congr rfl fun j _ => ?_
  have hk := contrEquiv1_symm_val dot_S256x2048_S2048x64_S256x64_1_0_0_1_n_n 2048 rfl rfl j
  have el : dot_S256x2048_S2048x64_S256x64_1_0_0_1_n_n.lhsIdx (ix2 r h) ((contrEquiv1 dot_S256x2048_S2048x64_S256x64_1_0_0_1_n_n 2048 rfl rfl).symm j) = ix2 r j := funext fun a => Fin.ext (by
    match a with
    | ⟨0, _⟩ => exact pv_lhs_0 _ _
    | ⟨1, _⟩ => exact (pv_lhs_1 _ _).trans hk)
  have er : dot_S256x2048_S2048x64_S256x64_1_0_0_1_n_n.rhsIdx (ix2 r h) ((contrEquiv1 dot_S256x2048_S2048x64_S256x64_1_0_0_1_n_n 2048 rfl rfl).symm j) = ix2 j h := funext fun a => Fin.ext (by
    match a with
    | ⟨0, _⟩ => exact (pv_rhs_0 _ _).trans hk
    | ⟨1, _⟩ => exact pv_rhs_1 _ _)
  rw [el, er]

/-! ### The row maximum and the row sum, spread back over the row -/

/-- The maximum of row r, cast to a column and spread over the 2048 columns, read at (r, j). -/
theorem rowmax_apply (s : FVec Ideal S256x2048 .f32) (hφ : FKind.Formats .f32)
    (hacc : (0xFF800000#32 : BitVec 32) = FKind.maximumf.neutral .f32 hφ)
    (r : Fin 256) (j : Fin 2048) :
    broadcastTo S256x2048 (shapeCast S256x1 (multiReduction (F := Ideal) .maximumf [1] S256 s 0xFF800000#32 reduces_S256x2048_S256 hφ hacc)
        shapeCasts_S256_S256x1) broadcasts_S256x1_S256x2048 (ix2 r j)
      = Finset.univ.fold max ⊥ (fun j' : Fin 2048 => s (ix2 r j')) := by
  refine (broadcastTo_apply _ broadcasts_S256x1_S256x2048 (ix2 r j) (ix2 r (0 : Fin 1)) (fun a => by
    match a with
    | ⟨0, _⟩ => rfl
    | ⟨1, _⟩ => rfl)).trans ?_
  refine (shapeCast_apply _ shapeCasts_S256_S256x1 (ix2 r (0 : Fin 1)) (ix1 r) (by
    rw [Shape.rowMajor_val_one, Shape.rowMajor_val_two]
    show (r : ℕ) = (r : ℕ) * 1 + 0
    omega)).trans ?_
  refine (Ideal.multiReduction_maximumf_single s 0xFF800000#32 reduces_S256x2048_S256 hφ hacc (ix1 r)).trans ?_
  have hb : (FloatOps.ofBits (F := Ideal) .f32 0xFF800000#32 : EReal) = ⊥ := by simp [Ideal.ofBits, Ideal.ieee]
  rw [hb]
  refine congrArg (Finset.univ.fold max ⊥) (funext fun j' => ?_)
  show s (reduces_S256x2048_S256.lift (ix1 r) j') = s (ix2 r j')
  refine congrArg s (funext fun a => Fin.ext ?_)
  match a with
  | ⟨0, _⟩ => rfl
  | ⟨1, _⟩ => rfl

/-- The sum of row r, cast to a column and spread over the 64 columns, read at (r, h). -/
theorem rowsum_apply (e : FVec Ideal S256x2048 .f32) (hφ : FKind.Formats .f32)
    (hacc : (0x00000000#32 : BitVec 32) = FKind.add.neutral .f32 hφ)
    (r : Fin 256) (h : Fin 64) :
    broadcastTo S256x64 (shapeCast S256x1 (multiReduction (F := Ideal) .add [1] S256 e 0x00000000#32 reduces_S256x2048_S256 hφ hacc)
        shapeCasts_S256_S256x1) broadcasts_S256x1_S256x64 (ix2 r h)
      = ∑ j : Fin 2048, e (ix2 r j) := by
  refine (broadcastTo_apply _ broadcasts_S256x1_S256x64 (ix2 r h) (ix2 r (0 : Fin 1)) (fun a => by
    match a with
    | ⟨0, _⟩ => rfl
    | ⟨1, _⟩ => rfl)).trans ?_
  refine (shapeCast_apply _ shapeCasts_S256_S256x1 (ix2 r (0 : Fin 1)) (ix1 r) (by
    rw [Shape.rowMajor_val_one, Shape.rowMajor_val_two]
    show (r : ℕ) = (r : ℕ) * 1 + 0
    omega)).trans ?_
  refine (Ideal.multiReduction_add_single e 0x00000000#32 reduces_S256x2048_S256 hφ hacc (ix1 r)).trans ?_
  refine Finset.sum_congr rfl fun j _ => ?_
  refine congrArg e (funext fun a => Fin.ext ?_)
  match a with
  | ⟨0, _⟩ => rfl
  | ⟨1, _⟩ => rfl

/-! ### The causal mask and the masked, scaled score row -/

/-- The mask bit at (r, j) is set exactly when key j is at or before the query's position 1792 + r. -/
theorem mask_apply (r : Fin 256) (j : Fin 2048) :
    cmpi .sge (addi (iota .tc S256x2048 32 [0] iota_S256x2048_d0_w32) (broadcast S256x2048 1792#32))
      (iota .tc S256x2048 32 [1] iota_S256x2048_d1_w32) (ix2 r j) = 1#1 ↔ j.val ≤ 1792 + r.val := by
  show IntOp.cmpi .sge (IntOp.addi (iota .tc S256x2048 32 [0] iota_S256x2048_d0_w32 (ix2 r j)) 1792#32)
      (iota .tc S256x2048 32 [1] iota_S256x2048_d1_w32 (ix2 r j)) = 1#1 ↔ _
  rw [iota_single_apply, iota_single_apply]
  show IntOp.cmpi .sge (BitVec.ofNat 32 r.val + 1792#32) (BitVec.ofNat 32 j.val) = 1#1 ↔ _
  have hr := r.isLt
  have hj := j.isLt
  have ha : (BitVec.ofNat 32 r.val + 1792#32).toNat = 1792 + r.val := by
    rw [BitVec.toNat_add, BitVec.toNat_ofNat]
    show (r.val % 2 ^ 32 + 1792) % 2 ^ 32 = _
    omega
  have hb : (BitVec.ofNat 32 j.val).toNat = j.val := by
    rw [BitVec.toNat_ofNat]; omega
  rw [StableHlo.Predicate.sge_iff_toNat (by rw [ha]; omega) (by rw [hb]; omega), ha, hb]

/-- The fill of the masked entries is −∞ on the extended reals. -/
theorem neg_big_eq : Named.named (F := Ideal) Cert.KernelIdeal.κ "neg_big" (φ := .f32) 0xFF333332#32 = (⊥ : EReal) :=
  IdealRules.named_const.ideal_named_scalar _ _ _ _ rfl

/-- The masked, scaled scores at (r, j) are the score row of the query at position 1792 + r. -/
theorem scores_apply (q : FVec Ideal S256x64 .bf16) (k : FVec Ideal S2048x64 .bf16) (r : Fin 256) (j : Fin 2048) :
    select (cmpi .sge (addi (iota .tc S256x2048 32 [0] iota_S256x2048_d0_w32) (broadcast S256x2048 1792#32))
        (iota .tc S256x2048 32 [1] iota_S256x2048_d1_w32))
      (mulf (matmul dot_S256x64_S2048x64_S256x2048_1_1_0_0_n_n none q k (constant (F := Ideal) S256x2048 .f32 0x00000000#32))
        (broadcast S256x2048 (Scalar.ofBits (F := Ideal) .f32 0x3D000000#32)))
      (broadcast S256x2048 (Named.named (F := Ideal) Cert.KernelIdeal.κ "neg_big" (φ := .f32) 0xFF333332#32)) (ix2 r j)
    = Attn.srow (1792 + r.val) Attn.scI (fun h => q (ix2 r h)) (fun (j : Fin 2048) h => k (ix2 j h)) j := by
  rw [select_apply, mulf_apply, broadcast_apply, broadcast_apply, qk_apply, neg_big_eq]
  unfold Attn.srow Scalar.select
  exact if_congr (mask_apply r j) rfl rfl

/-! ### The tile's payload as three stages: scores, weights, quotient -/

/-- The masked, scaled scores, as the kernel forms them. -/
def scoresV (q : FVec Ideal S256x64 .bf16) (k : FVec Ideal S2048x64 .bf16) : FVec Ideal S256x2048 .f32 :=
  select (cmpi .sge (addi (iota .tc S256x2048 32 [0] iota_S256x2048_d0_w32) (broadcast S256x2048 1792#32))
      (iota .tc S256x2048 32 [1] iota_S256x2048_d1_w32))
    (mulf (matmul dot_S256x64_S2048x64_S256x2048_1_1_0_0_n_n none q k (constant (F := Ideal) S256x2048 .f32 0x00000000#32))
      (broadcast S256x2048 (Scalar.ofBits (F := Ideal) .f32 0x3D000000#32)))
    (broadcast S256x2048 (Named.named (F := Ideal) Cert.KernelIdeal.κ "neg_big" (φ := .f32) 0xFF333332#32))

/-- The weights: the exponential of each score less its row's maximum. -/
def weightsV (q : FVec Ideal S256x64 .bf16) (k : FVec Ideal S2048x64 .bf16) : FVec Ideal S256x2048 .f32 :=
  exp (subf (scoresV q k)
    (broadcastTo S256x2048 (shapeCast S256x1 (multiReduction (F := Ideal) .maximumf [1] S256 (scoresV q k) 0xFF800000#32
      reduces_S256x2048_S256 (.inl rfl) rfl) shapeCasts_S256_S256x1) broadcasts_S256x1_S256x2048))

/-- The payload is the weighted sum of the keys divided by the row sums of the weights. -/
theorem pay_eq (q : FVec Ideal S256x64 .bf16) (k : FVec Ideal S2048x64 .bf16) :
    k0_pay16 (F := Ideal) q k
      = divf (matmul dot_S256x2048_S2048x64_S256x64_1_0_0_1_n_n none (truncf .bf16 (weightsV q k) bitsLt_bf16_f32) k
            (constant (F := Ideal) S256x64 .f32 0x00000000#32))
          (broadcastTo S256x64 (shapeCast S256x1 (multiReduction (F := Ideal) .add [1] S256 (weightsV q k) 0x00000000#32
            reduces_S256x2048_S256 (.inl rfl) rfl) shapeCasts_S256_S256x1) broadcasts_S256x1_S256x64) := rfl

/-- The exponential acts entry by entry. -/
theorem exp_apply (a : FVec Ideal S256x2048 .f32) (i : S256x2048.Idx) : exp a i = Ideal.exp (a i) := rfl

theorem scoresV_apply (q : FVec Ideal S256x64 .bf16) (k : FVec Ideal S2048x64 .bf16) (r : Fin 256) (j : Fin 2048) :
    scoresV q k (ix2 r j)
      = Attn.srow (1792 + r.val) Attn.scI (fun h => q (ix2 r h)) (fun (j : Fin 2048) h => k (ix2 j h)) j :=
  scores_apply q k r j

theorem weightsV_apply (q : FVec Ideal S256x64 .bf16) (k : FVec Ideal S2048x64 .bf16) (r : Fin 256) (j : Fin 2048) :
    weightsV q k (ix2 r j)
      = Ideal.exp (Attn.srow (1792 + r.val) Attn.scI (fun h => q (ix2 r h)) (fun (j : Fin 2048) h => k (ix2 j h)) j
          - Finset.univ.fold max ⊥ (Attn.srow (1792 + r.val) Attn.scI (fun h => q (ix2 r h)) (fun (j : Fin 2048) h => k (ix2 j h)))) := by
  have hs : ∀ j' : Fin 2048, scoresV q k (ix2 r j')
      = Attn.srow (1792 + r.val) Attn.scI (fun h => q (ix2 r h)) (fun (j : Fin 2048) h => k (ix2 j h)) j' :=
    fun j' => scoresV_apply q k r j'
  have hm := rowmax_apply (scoresV q k) (.inl rfl) rfl r j
  unfold weightsV
  refine (exp_apply _ _).trans (congrArg Ideal.exp ?_)
  refine (subf_apply _ _ _).trans ?_
  refine congrArg₂ (fun a b : EReal => a - b) (hs j) (hm.trans ?_)
  exact congrArg (Finset.univ.fold max ⊥) (funext hs)

/-- The payload at (r, h). -/
theorem pay_apply (q : FVec Ideal S256x64 .bf16) (k : FVec Ideal S2048x64 .bf16) (r : Fin 256) (h : Fin 64) :
    k0_pay16 (F := Ideal) q k (ix2 r h)
      = Attn.attnTile (n := 2048) (1792 + r.val) Attn.scI (fun h' => q (ix2 r h')) (fun (j : Fin 2048) h' => k (ix2 j h')) h := by
  rw [pay_eq, divf_apply]
  unfold Attn.attnTile
  have hw := weightsV_apply q k r
  refine congrArg₂ Ideal.div
    ((pv_apply _ k r h).trans (Finset.sum_congr rfl fun j _ => ?_))
    ((rowsum_apply (weightsV q k) (.inl rfl) rfl r h).trans (Finset.sum_congr rfl fun j _ => hw j))
  rw [truncf_apply, hw j]

/-! ### The rows of the keys the tile reads -/

theorem ld_rq (K : Vec Ideal S2048x64 .bf16) (r : Fin 256) (h : Fin 64) :
    View.ld K rq7 (ix2 r h) = K (ix2 (⟨1792 + r.val, by have := r.isLt; omega⟩ : Fin 2048) h) := by
  refine congrArg K (funext fun a => Fin.ext ?_)
  match a with
  | ⟨0, _⟩ => show 1792 + 1 * r.val = 1792 + r.val; omega
  | ⟨1, _⟩ => show 0 + 1 * h.val = h.val; omega

theorem ld_rk (K : Vec Ideal S2048x64 .bf16) (j : Fin 2048) (h : Fin 64) :
    View.ld K rk7 (ix2 j h) = K (ix2 (Fin.castLE (by decide : 2048 ≤ 2048) j) h) := by
  refine congrArg K (funext fun a => Fin.ext ?_)
  match a with
  | ⟨0, _⟩ => show 0 + 1 * j.val = j.val; omega
  | ⟨1, _⟩ => show 0 + 1 * h.val = h.val; omega

end T7

/-- Entry `(r, h)` of tile 7 is the softmax-weighted average of the first 2048 keys' column `h`, for the query at position
    `1792 + r`, divided once by the sum of the weights. -/
theorem tile7_apply (K : Vec Ideal S2048x64 .bf16) (r : Fin 256) (h : Fin 64) :
    tile7 (F := Ideal) K (ix2 r h)
      = Attn.attnTile (n := 2048) (1792 + r.val) Attn.scI
          (fun h' => K (ix2 (⟨1792 + r.val, by have := r.isLt; omega⟩ : Fin 2048) h'))
          (fun (j : Fin 2048) h' => K (ix2 (Fin.castLE (by decide : 2048 ≤ 2048) j) h')) h := by
  have hq : (fun h' : Fin 64 => View.ld K rq7 (ix2 r h'))
      = fun h' => K (ix2 (⟨1792 + r.val, by have := r.isLt; omega⟩ : Fin 2048) h') := funext fun h' => T7.ld_rq K r h'
  have hk : (fun (j : Fin 2048) (h' : Fin 64) => View.ld K rk7 (ix2 j h'))
      = fun j h' => K (ix2 (Fin.castLE (by decide : 2048 ≤ 2048) j) h') := funext fun j => funext fun h' => T7.ld_rk K j h'
  unfold tile7
  refine (T7.pay_apply (View.ld K rq7) (View.ld K rk7) r h).trans ?_
  rw [hq, hk]

end Cert.KernelIdeal.Body

end
-- ==== Proof.Bridge.lean ====
/-
  The two arrangements of the causal softmax average agree on real keys.
-/
import proofs.«409626_j19258633355334_3_alg».proof.Proof.Spec

noncomputable section

open scoped BigOperators

namespace Cert.Attn

open Idealize.ShloMosaic

/-- The coercion of reals into the extended reals goes through a finite sum. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum taken from `⊥` over `N` columns of which all from `n` on are `⊥` is the maximum over the first `n`. -/
theorem fold_max_castLE {n N : ℕ} (hnN : n ≤ N) (f : Fin N → EReal) (hf : ∀ j : Fin N, n ≤ j.val → f j = ⊥) :
    Finset.univ.fold max ⊥ (fun j : Fin n => f (Fin.castLE hnN j)) = Finset.univ.fold max ⊥ f := by
  apply le_antisymm
  · rw [Finset.fold_max_le]
    refine ⟨bot_le, fun j _ => ?_⟩
    rw [Finset.le_fold_max]
    exact Or.inr ⟨Fin.castLE hnN j, Finset.mem_univ _, le_rfl⟩
  · rw [Finset.fold_max_le]
    refine ⟨bot_le, fun j _ => ?_⟩
    by_cases hj : j.val < n
    · rw [Finset.le_fold_max]
      exact Or.inr ⟨⟨j.val, hj⟩, Finset.mem_univ _, le_rfl⟩
    · rw [hf j (Nat.le_of_not_lt hj)]
      exact bot_le

/-- A sum over `N` columns of which all from `n` on are zero is the sum over the first `n`. -/
theorem sum_castLE {n N : ℕ} (hnN : n ≤ N) (f : Fin N → EReal) (hf : ∀ j : Fin N, n ≤ j.val → f j = 0) :
    ∑ j : Fin n, f (Fin.castLE hnN j) = ∑ j : Fin N, f j := by
  refine Fintype.sum_of_injective (Fin.castLE hnN) (Fin.castLE_injective hnN) _ _ ?_ (fun _ => rfl)
  intro j hj
  apply hf
  by_contra hlt
  exact hj ⟨⟨j.val, Nat.lt_of_not_le hlt⟩, Fin.ext rfl⟩

/-- With real scale, query and keys an unmasked score is a real, a masked one `⊥`. -/
theorem srow_coe {m : ℕ} (t : ℕ) (sc : ℝ) (q : Fin 64 → ℝ) (K : Fin m → Fin 64 → ℝ) (j : Fin m) :
    srow t (sc : EReal) (fun h' => (q h' : EReal)) (fun j h' => (K j h' : EReal)) j
      = if j.val ≤ t then (((∑ h' : Fin 64, q h' * K j h') * sc : ℝ) : EReal) else ⊥ := by
  unfold srow
  rw [EReal.coe_mul, coe_sum_real]
  simp only [EReal.coe_mul]

/-- The row may be cut off at any `n > t` columns: a masked column has score `⊥`, weight `exp ⊥ = 0`, and adds nothing to
    the maximum or to either sum. -/
theorem attnTile_castLE {n N : ℕ} (hnN : n ≤ N) (t : ℕ) (ht : t < n) (sc : EReal) (q : Fin 64 → EReal)
    (K : Fin N → Fin 64 → EReal) (h : Fin 64) :
    attnTile t sc q (fun (j : Fin n) h' => K (Fin.castLE hnN j) h') h = attnTile t sc q K h := by
  have hmask : ∀ j : Fin N, n ≤ j.val → srow t sc q K j = ⊥ := fun j hj => if_neg (by omega)
  have hSn : srow t sc q (fun (j : Fin n) h' => K (Fin.castLE hnN j) h')
      = fun j => srow t sc q K (Fin.castLE hnN j) := rfl
  unfold attnTile
  rw [hSn, fold_max_castLE hnN _ hmask]
  congr 1
  · exact sum_castLE hnN
      (fun j => Ideal.exp (srow t sc q K j - Finset.univ.fold max ⊥ (srow t sc q K)) * K j h)
      (fun j hj => by rw [hmask j hj, EReal.bot_sub, Ideal.exp_bot, zero_mul])
  · exact sum_castLE hnN
      (fun j => Ideal.exp (srow t sc q K j - Finset.univ.fold max ⊥ (srow t sc q K)))
      (fun j hj => by rw [hmask j hj, EReal.bot_sub, Ideal.exp_bot])

/-- Over one and the same row of columns, dividing once after the weighted sum or normalising every weight first is the
    same: the maximum `M` is a real (column `t` is unmasked), the weights are the reals `exp (σ j − M)` and `0`, their
    sum `L` is a positive real, and `(∑ e j * k j) * (1/L) = ∑ (e j * (1/L)) * k j`. -/
theorem attnTile_eq_attnRef {N : ℕ} (t : ℕ) (ht : t < N) (sc : ℝ) (q : Fin 64 → ℝ) (K : Fin N → Fin 64 → ℝ)
    (h : Fin 64) :
    attnTile t (sc : EReal) (fun h' => (q h' : EReal)) (fun j h' => (K j h' : EReal)) h
      = attnRef t (sc : EReal) (fun h' => (q h' : EReal)) (fun j h' => (K j h' : EReal)) h := by
  unfold attnTile attnRef
  generalize hS : srow t (sc : EReal) (fun h' => (q h' : EReal)) (fun j h' => (K j h' : EReal)) = S
  have hSj : ∀ j : Fin N, S j = if j.val ≤ t then (((∑ h' : Fin 64, q h' * K j h') * sc : ℝ) : EReal) else ⊥ :=
    fun j => by rw [← hS, srow_coe]
  -- the maximum of the row is a real
  obtain ⟨M, hM⟩ : ∃ M : ℝ, Finset.univ.fold max ⊥ S = (M : EReal) := by
    have h1 : Finset.univ.fold max ⊥ S ≠ ⊥ := by
      apply ne_of_gt
      rw [Finset.lt_fold_max]
      refine Or.inr ⟨⟨t, ht⟩, Finset.mem_univ _, ?_⟩
      rw [hSj, if_pos le_rfl]
      exact EReal.bot_lt_coe _
    have h2 : Finset.univ.fold max ⊥ S ≠ ⊤ := by
      apply ne_of_lt
      rw [Finset.fold_max_lt]
      refine ⟨bot_lt_top, fun j _ => ?_⟩
      rw [hSj]
      split_ifs
      · exact EReal.coe_lt_top _
      · exact bot_lt_top
    exact ⟨(Finset.univ.fold max ⊥ S).toReal, (EReal.coe_toReal h2 h1).symm⟩
  rw [hM, max_eq_right (bot_le : (⊥ : EReal) ≤ (M : EReal))]
  -- the weights are reals
  have hw : ∀ j : Fin N, Ideal.exp (S j - (M : EReal))
      = ((if j.val ≤ t then Real.exp ((∑ h' : Fin 64, q h' * K j h') * sc - M) else 0 : ℝ) : EReal) := by
    intro j
    rw [hSj]
    split_ifs
    · rw [← EReal.coe_sub, Ideal.exp_coe]
    · rw [EReal.bot_sub, Ideal.exp_bot, EReal.coe_zero]
  simp only [hw]
  generalize he : (fun j : Fin N => if j.val ≤ t then Real.exp ((∑ h' : Fin 64, q h' * K j h') * sc - M) else 0) = e
  have hej : ∀ j : Fin N, (if j.val ≤ t then Real.exp ((∑ h' : Fin 64, q h' * K j h') * sc - M) else 0) = e j :=
    fun j => by rw [← he]
  simp only [hej]
  -- their sum is a positive real
  have hL : (0 : ℝ) < ∑ j : Fin N, e j := by
    apply Finset.sum_pos'
    · intro j _
      rw [← hej]
      split_ifs
      · exact (Real.exp_pos _).le
      · exact le_rfl
    · refine ⟨⟨t, ht⟩, Finset.mem_univ _, ?_⟩
      rw [← hej, if_pos le_rfl]
      exact Real.exp_pos _
  rw [zero_add, ← coe_sum_real]
  simp only [Ideal.div_coe hL.ne', ← EReal.coe_mul, ← coe_sum_real]
  rw [Finset.sum_mul]
  congr 1
  exact Finset.sum_congr rfl (fun j _ => by ring)

/-- Cut off at any `n > t` columns and divided once, or over all `N` columns and normalised weight by weight: the same
    extended real, when scale, query and keys are real. -/
theorem attn_bridge {n N : ℕ} (hnN : n ≤ N) (t : ℕ) (ht : t < n) (sc : ℝ) (q : Fin 64 → ℝ) (K : Fin N → Fin 64 → ℝ) (h : Fin 64) :
    attnTile t (sc : EReal) (fun h' => (q h' : EReal)) (fun (j : Fin n) h' => (K (Fin.castLE hnN j) h' : EReal)) h
      = attnRef t (sc : EReal) (fun h' => (q h' : EReal)) (fun j h' => (K j h' : EReal)) h :=
  (attnTile_castLE hnN t ht (sc : EReal) (fun h' => (q h' : EReal)) (fun j h' => (K j h' : EReal)) h).trans
    (attnTile_eq_attnRef t (lt_of_lt_of_le ht hnN) sc q K h)

end Cert.Attn

end
-- ==== Proof.KIValue.lean ====
/-
  The idealized kernel's result array as one function of its arguments. Per batch the eight tiles are rows of ONE
  function of the keys: row `t` is the softmax-weighted average of all 2048 keys, the columns after `t` weighing nothing —
  each tile computes it cut off at its own end and divided once, which on real keys is the same extended real. The keys
  of batch `b` are the rows of `x[b]` against the rows of `W_k`; grid point `b` writes back batch `b`'s slab, and the eight
  slabs are the whole array.
-/
import proofs.«409626_j19258633355334_3_alg».proof.Proof.KIBody
import proofs.«409626_j19258633355334_3_alg».proof.Proof.KIProj
import proofs.«409626_j19258633355334_3_alg».proof.Proof.KITile0
import proofs.«409626_j19258633355334_3_alg».proof.Proof.KITile1
import proofs.«409626_j19258633355334_3_alg».proof.Proof.KITile2
import proofs.«409626_j19258633355334_3_alg».proof.Proof.KITile3
import proofs.«409626_j19258633355334_3_alg».proof.Proof.KITile4
import proofs.«409626_j19258633355334_3_alg».proof.Proof.KITile5
import proofs.«409626_j19258633355334_3_alg».proof.Proof.KITile6
import proofs.«409626_j19258633355334_3_alg».proof.Proof.KITile7
import proofs.«409626_j19258633355334_3_alg».proof.Proof.Bridge
import Idealize.ShloMosaic.Lib.Pipeline.Value

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

/-! ## One batch: the 2048 × 64 block as a function of the keys -/

/-- Row `t`, column `h` of one batch's result from its keys `K`. -/
def Gs (K : Vec Ideal S2048x64 .bf16) : Vec Ideal S2048x64 .f32 := fun y =>
  Attn.attnRef (N := 2048) (y 0).val Attn.scI
    (fun h' => K (ix2 (⟨(y 0).val, (y 0).isLt⟩ : Fin 2048) h'))
    (fun j h' => K (ix2 j h')) (⟨(y 1).val, (y 1).isLt⟩ : Fin 64)

/-- A row cut off after its own position and divided once is the row of `Gs`, on real keys. -/
theorem attnTile_eq_Gs (K : Vec Ideal S2048x64 .bf16) (Kr : Fin 2048 → Fin 64 → ℝ) (hK : ∀ t h, K (ix2 t h) = ((Kr t h : ℝ) : EReal))
    (sc : ℝ) (hsc : Attn.scI = ((sc : ℝ) : EReal)) {n : ℕ} (hn : n ≤ 2048) (t : Fin 2048) (ht : t.val < n) (h : Fin 64) :
    Attn.attnTile (n := n) t.val Attn.scI (fun h' => K (ix2 t h')) (fun (j : Fin n) h' => K (ix2 (Fin.castLE hn j) h')) h
      = Gs K (ix2 t h) := by
  have e1 : (fun h' => K (ix2 t h')) = fun h' => ((Kr t h' : ℝ) : EReal) := funext fun h' => hK t h'
  have e2 : (fun (j : Fin n) h' => K (ix2 (Fin.castLE hn j) h')) = fun (j : Fin n) h' => ((Kr (Fin.castLE hn j) h' : ℝ) : EReal) :=
    funext fun j => funext fun h' => hK _ _
  have e3 : (fun (j : Fin 2048) h' => K (ix2 j h')) = fun (j : Fin 2048) h' => ((Kr j h' : ℝ) : EReal) :=
    funext fun j => funext fun h' => hK _ _
  show _ = Attn.attnRef (N := 2048) t.val Attn.scI (fun h' => K (ix2 t h')) (fun j h' => K (ix2 j h')) h
  rw [e1, e2, e3, hsc]
  exact Attn.attn_bridge hn t.val ht sc (Kr t) Kr h

/-- Row `r` of the tile at row offset `off` is row `off + r` of the block. -/
theorem emb_rows (off : ℕ) (inb : ∀ a, (![off, 0] : Fin 2 → Nat) a + S256x64.size a ≤ S2048x64.size a) (r : Fin 256) (h : Fin 64)
    (hlt : off + r.val < 2048) :
    (Rect.unit (s := S2048x64) ![off, 0] S256x64.size inb).emb (ix2 r h) = ix2 (⟨off + r.val, hlt⟩ : Fin 2048) h := by
  funext a; apply Fin.ext
  match a with
  | ⟨0, _⟩ => show off + 1 * r.val = off + r.val; omega
  | ⟨1, _⟩ => show 0 + 1 * h.val = h.val; omega

/-! ## Each tile is its rows of `Gs` -/

/-- A tile at row offset `off` attending the first `n` keys, whose entry `(r, h)` is the cut-off average for position
    `off + r`, is rows `off … off + 255` of `Gs` — whatever its size, as long as its own rows are among its keys. -/
theorem agree_of_apply (K : Vec Ideal S2048x64 .bf16) (Kr : Fin 2048 → Fin 64 → ℝ) (hK : ∀ t h, K (ix2 t h) = ((Kr t h : ℝ) : EReal))
    (sc : ℝ) (hsc : Attn.scI = ((sc : ℝ) : EReal)) (off n : ℕ) (hn : n ≤ 2048) (hoff : off + 256 ≤ n)
    (inb : ∀ a, (![off, 0] : Fin 2 → Nat) a + S256x64.size a ≤ S2048x64.size a) (tile : FVec Ideal S256x64 .f32)
    (happ : ∀ (r : Fin 256) (h : Fin 64) (hlt : off + r.val < 2048),
      tile (ix2 r h) = Attn.attnTile (n := n) (off + r.val) Attn.scI (fun h' => K (ix2 (⟨off + r.val, hlt⟩ : Fin 2048) h'))
        (fun (j : Fin n) h' => K (ix2 (Fin.castLE hn j) h')) h)
    (x : (Rect.unit (s := S2048x64) ![off, 0] S256x64.size inb).shape.Idx) :
    tile x = Gs K ((Rect.unit (s := S2048x64) ![off, 0] S256x64.size inb).emb x) := by
  obtain ⟨r, h, rfl⟩ : ∃ (r : Fin 256) (h : Fin 64), x = ix2 r h := ⟨x 0, x 1, eq_ix2 x⟩
  have hlt : off + r.val < 2048 := by have := r.isLt; omega
  rw [emb_rows off inb r h hlt, happ r h hlt]
  exact attnTile_eq_Gs K Kr hK sc hsc hn ⟨off + r.val, hlt⟩ (by have := r.isLt; show off + r.val < n; omega) h

/-- So the eight stores leave `Gs` of the keys. -/
theorem outS_eq (x0 : Vec Ideal S1x2048x1024 .f32) (x1 : Vec Ideal S64x1024 .f32) (Kr : Fin 2048 → Fin 64 → ℝ)
    (hK : ∀ t h, proj (F := Ideal) x0 x1 (ix2 t h) = ((Kr t h : ℝ) : EReal)) (sc : ℝ) (hsc : Attn.scI = ((sc : ℝ) : EReal)) :
    outS (F := Ideal) x0 x1 = Gs (proj x0 x1) := by
  funext y
  unfold outS
  refine View.canon_apply_of_pieces (Gs (proj x0 x1)) (pieces (proj x0 x1)) ?_ y (cover_pieces _ _ _ _ _ _ _ _ y)
  intro p hp
  simp only [pieces, List.mem_cons, List.mem_singleton, List.not_mem_nil, or_false] at hp
  rcases hp with rfl | rfl | rfl | rfl | rfl | rfl | rfl | rfl
  · exact agree_of_apply _ Kr hK sc hsc 1792 2048 (by decide) (by decide) inb_S2048x64_S256x64_1792_0 _ (fun r h _ => tile7_apply _ r h)
  · exact agree_of_apply _ Kr hK sc hsc 1536 1792 (by decide) (by decide) inb_S2048x64_S256x64_1536_0 _ (fun r h _ => tile6_apply _ r h)
  · exact agree_of_apply _ Kr hK sc hsc 1280 1536 (by decide) (by decide) inb_S2048x64_S256x64_1280_0 _ (fun r h _ => tile5_apply _ r h)
  · exact agree_of_apply _ Kr hK sc hsc 1024 1280 (by decide) (by decide) inb_S2048x64_S256x64_1024_0 _ (fun r h _ => tile4_apply _ r h)
  · exact agree_of_apply _ Kr hK sc hsc 768 1024 (by decide) (by decide) inb_S2048x64_S256x64_768_0 _ (fun r h _ => tile3_apply _ r h)
  · exact agree_of_apply _ Kr hK sc hsc 512 768 (by decide) (by decide) inb_S2048x64_S256x64_512_0 _ (fun r h _ => tile2_apply _ r h)
  · exact agree_of_apply _ Kr hK sc hsc 256 512 (by decide) (by decide) inb_S2048x64_S256x64_256_0 _ (fun r h _ => tile1_apply _ r h)
  · exact agree_of_apply _ Kr hK sc hsc 0 256 (by decide) (by decide) inb_S2048x64_S256x64_0_0 _ (fun r h _ => tile0_apply _ r h)

/-! ## The array: grid point `b` writes batch `b`'s slab -/

variable (m : (ℓ : Loc nD τ sig) → Buf (Elt Ideal) ℓ) (ρ : Dev nD → PrngReg)

/-- The printed index maps over the grid: `x`'s and the result's block index is the point on the batch axis and zero
    elsewhere; `W_k`'s is zero. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The grid point as a batch number. -/
def bat (t : Fin cfg0.N) : Fin 8 := ⟨t.val, by have h : t.val < grid0.N := t.isLt; rw [N_0] at h; exact h⟩

/-- The block of `x` at point `t` is batch `t` of `x`. -/
theorem iblk0_apply (c : Dev nD) (t : Fin cfg0.N) (t' : Fin 2048) (k : Fin 1024) :
    iblk m c 0 t (ix3 (0 : Fin 1) t' k) = V m c main_arg0 (ix3 (bat t) t' k) := by
  obtain ⟨e0, e1, e2, -⟩ := idx_facts t
  show V m c main_arg0 (((cfg0.win 0).blk t).view.emb (ix3 (0 : Fin 1) t' k)) = V m c main_arg0 (ix3 (bat t) t' k)
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * t'.val = t'.val; omega
  | ⟨2, _⟩ => show win0_0.index t (2 : Fin 3) * 1024 + 1 * k.val = k.val; omega

/-- The block of `W_k` at any point is `W_k`. -/
theorem iblk1_apply (c : Dev nD) (t : Fin cfg0.N) (h : Fin 64) (k : Fin 1024) :
    iblk m c 1 t (ix2 h k) = V m c main_arg1 (ix2 h k) := by
  obtain ⟨-, -, -, e3, e4, -⟩ := idx_facts t
  show V m c main_arg1 (((cfg0.win 1).blk t).view.emb (ix2 h k)) = V m c main_arg1 (ix2 h k)
  refine congrArg _ (funext fun a => Fin.ext ?_)
  match a with
  | ⟨0, _⟩ => show win0_1.index t (0 : Fin 2) * 64 + 1 * h.val = h.val; omega
  | ⟨1, _⟩ => show win0_1.index t (1 : Fin 2) * 1024 + 1 * k.val = k.val; omega

/-- The keys the body projects at point `t` are batch `t`'s keys of the specification. -/
theorem proj_eq_kk (c : Dev nD) (t : Fin cfg0.N) (t' : Fin 2048) (h : Fin 64) :
    proj (F := Ideal) (iblk m c 0 t) (iblk m c 1 t) (ix2 t' h) = Attn.kk (V m c main_arg0) (V m c main_arg1) (bat t) t' h := by
  rw [proj_apply]
  unfold Attn.kk
  exact Finset.sum_congr rfl fun k _ => by rw [iblk0_apply, iblk1_apply]

/-! ## Real arguments give real keys -/

/-- The scale word denotes the real 1/32. -/
theorem scI_real : Attn.scI = (((1 : ℝ) / 32 : ℝ) : EReal) := by
  simp [Attn.scI, Ideal.ofBits, Ideal.ieee, -EReal.coe_mul]; norm_num

/-- With real `x` and `W_k` every key is a real. -/
theorem kk_real (X : (⟨3, ![8, 2048, 1024]⟩ : Shape).Idx → EReal) (W : (⟨2, ![64, 1024]⟩ : Shape).Idx → EReal)
    (Xr : (⟨3, ![8, 2048, 1024]⟩ : Shape).Idx → ℝ) (Wr : (⟨2, ![64, 1024]⟩ : Shape).Idx → ℝ)
    (hX : ∀ i, X i = ((Xr i : ℝ) : EReal)) (hW : ∀ i, W i = ((Wr i : ℝ) : EReal)) (b : Fin 8) (t : Fin 2048) (h : Fin 64) :
    Attn.kk X W b t h = ((∑ k : Fin 1024, Xr (ix3 b t k) * Wr (ix2 h k) : ℝ) : EReal) := by
  unfold Attn.kk
  rw [Attn.coe_sum_real]
  exact Finset.sum_congr rfl fun k _ => by rw [hX, hW, EReal.coe_mul]

/-! ## What a point writes back, the cover, the array -/

/-- WHAT POINT `t` WRITES BACK is batch `t`'s slab of the specification, when the arguments are real. -/
theorem flushed_eq (c : Dev nD) (Xr : S8x2048x1024.Idx → ℝ) (Wr : S64x1024.Idx → ℝ)
    (hX : ∀ i, V m c main_arg0 i = ((Xr i : ℝ) : EReal)) (hW : ∀ i, V m c main_arg1 i = ((Wr i : ℝ) : EReal)) (t : Fin cfg0.N) :
    (dats m 0 c).flushed 2 t = ((cfg0.win 2).blk t).view.read (Elt Ideal) (Attn.G (V m c main_arg0) (V m c main_arg1)) := by
  show (cfg0.win 2).cut (grid0.coords t) ((dats m 0 c).after 2 t) = _
  rw [after0_2]
  obtain ⟨-, -, -, -, -, e5, e6, e7⟩ := idx_facts t
  funext j
  have hK : ∀ t' h, proj (F := Ideal) (iblk m c 0 t) (iblk m c 1 t) (ix2 t' h)
      = ((∑ k : Fin 1024, Xr (ix3 (bat t) t' k) * Wr (ix2 h k) : ℝ) : EReal) :=
    fun t' h => (proj_eq_kk m c t t' h).trans (kk_real _ _ Xr Wr hX hW _ _ _)
  show outS (F := Ideal) (iblk m c 0 t) (iblk m c 1 t) (sq j) = Attn.G (V m c main_arg0) (V m c main_arg1) (((cfg0.win 2).blk t).view.emb j)
  rw [outS_eq _ _ _ hK _ scI_real]
  have ej : ((cfg0.win 2).blk t).view.emb j = ix3 (bat t) (⟨(j 1).val, (j 1).isLt⟩ : Fin 2048) (⟨(j 2).val, (j 2).isLt⟩ : Fin 64) := by
    funext a; apply Fin.ext
    match a with
    | ⟨0, _⟩ => show win0_2.index t (0 : Fin 3) * 1 + 1 * (j 0).val = t.val; have hj : (j 0).val < 1 := (j 0).isLt; omega
    | ⟨1, _⟩ => show win0_2.index t (1 : Fin 3) * 2048 + 1 * (j 1).val = (j 1).val; omega
    | ⟨2, _⟩ => show win0_2.index t (2 : Fin 3) * 64 + 1 * (j 2).val = (j 2).val; omega
  rw [ej]
  have e1 : (fun (j' : Fin 2048) (h' : Fin 64) => proj (F := Ideal) (iblk m c 0 t) (iblk m c 1 t) (ix2 j' h'))
      = Attn.kk (V m c main_arg0) (V m c main_arg1) (bat t) := funext fun j' => funext fun h' => proj_eq_kk m c t j' h'
  have e2 : (fun (h' : Fin 64) => proj (F := Ideal) (iblk m c 0 t) (iblk m c 1 t) (ix2 (⟨(j 1).val, (j 1).isLt⟩ : Fin 2048) h'))
      = Attn.kk (V m c main_arg0) (V m c main_arg1) (bat t) ⟨(j 1).val, (j 1).isLt⟩ := funext fun h' => proj_eq_kk m c t _ h'
  show Attn.attnRef (N := 2048) (j 1).val Attn.scI
      (fun (h' : Fin 64) => proj (F := Ideal) (iblk m c 0 t) (iblk m c 1 t) (ix2 (⟨(j 1).val, (j 1).isLt⟩ : Fin 2048) h'))
      (fun (j' : Fin 2048) (h' : Fin 64) => proj (F := Ideal) (iblk m c 0 t) (iblk m c 1 t) (ix2 j' h')) ⟨(j 2).val, (j 2).isLt⟩
    = Attn.attnRef (N := 2048) (j 1).val Attn.scI (Attn.kk (V m c main_arg0) (V m c main_arg1) (bat t) ⟨(j 1).val, (j 1).isLt⟩)
      (Attn.kk (V m c main_arg0) (V m c main_arg1) (bat t)) ⟨(j 2).val, (j 2).isLt⟩
  rw [e1, e2]

/-- An index of the array is in point `t`'s slab iff each coordinate is in the slab's range. -/
theorem mem_blk (t : Fin cfg0.N) (i : S8x2048x64.Idx) :
    i ∈ ((cfg0.win 2).blk t).view.set ↔ ∀ a : Fin 3, win0_2.index t a * S1x2048x64.size a ≤ (i a).val ∧ (i a).val < win0_2.index t a * S1x2048x64.size a + S1x2048x64.size a := by
  show i ∈ ((View.whole main_v0).slice (win0_2.rect t)).set ↔ _
  rw [View.set_slice_whole, Rect.mem_set_unit]
  exact Iff.rfl

/-- Every index lies in its batch's slab. -/
theorem cover (i : S8x2048x64.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 64 := (i 2).isLt
  have ht : (i 0).val < grid0.N := by rw [N_0]; exact hi0
  obtain ⟨-, -, -, -, -, e5, e6, e7⟩ := idx_facts ⟨(i 0).val, ht⟩
  refine ⟨⟨(i 0).val, ht⟩, flush0_2 _, ?_⟩
  rw [mem_blk]
  intro a
  match a with
  | ⟨0, _⟩ =>
    show win0_2.index ⟨(i 0).val, ht⟩ (0 : Fin 3) * 1 ≤ (i 0).val ∧ (i 0).val < win0_2.index ⟨(i 0).val, ht⟩ (0 : Fin 3) * 1 + 1
    have e5' : win0_2.index ⟨(i 0).val, ht⟩ (0 : Fin 3) = (i 0).val := e5
    omega
  | ⟨1, _⟩ => show win0_2.index ⟨(i 0).val, ht⟩ (1 : Fin 3) * 2048 ≤ (i 1).val ∧ (i 1).val < win0_2.index ⟨(i 0).val, ht⟩ (1 : Fin 3) * 2048 + 2048; omega
  | ⟨2, _⟩ => show win0_2.index ⟨(i 0).val, ht⟩ (2 : Fin 3) * 64 ≤ (i 2).val ∧ (i 2).val < win0_2.index ⟨(i 0).val, ht⟩ (2 : Fin 3) * 64 + 64; omega

/-- THE ARRAY after the run: the specification of the two argument arrays. -/
theorem final (c : Dev nD) (Xr : S8x2048x1024.Idx → ℝ) (Wr : S64x1024.Idx → ℝ)
    (hX : ∀ i, V m c main_arg0 i = ((Xr i : ℝ) : EReal)) (hW : ∀ i, V m c main_arg1 i = ((Wr i : ℝ) : EReal)) :
    (dats m 0 c).arrAt 2 cfg0.N = Attn.G (V m c main_arg0) (V m c main_arg1) :=
  (dats m 0 c).arrAt_eq_of_cover 2 _ (fun t _ => flushed_eq m c Xr Wr hX hW t) cover

/-- The run re-posted: the result array at the specification of the arguments, the arguments unchanged. -/
theorem run (hfin : ∀ c : Dev nD, (∃ Xr : S8x2048x1024.Idx → ℝ, ∀ i, V m c main_arg0 i = ((Xr i : ℝ) : EReal))
      ∧ ∃ Wr : S64x1024.Idx → ℝ, ∀ i, V m c main_arg1 i = ((Wr i : ℝ) : EReal)) :
    θ_run defs (onTc (τ := τ) (main (F := Ideal))) ⟨m, fun _ => 0, ρ⟩ fun r => ∀ c : Dev nD,
      r.2.mem ((c.tc : Thread nD τ).loc main_v0) = Attn.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
      obtain ⟨⟨Xr, hX⟩, ⟨Wr, hW⟩⟩ := hfin c
      exact ⟨((h c).1 2).trans (final m c Xr Wr hX hW),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.RefValue.lean ====
/-
  The reference's result, entry by entry, is the specification `Attn.G`: keys by the first product, scores by the second,
  the lower-triangular mask with −∞ above the diagonal, the row maximum, the exponentials, their sum, the normalised
  weights, and the last product with the keys.
-/
import proofs.«409626_j19258633355334_3_alg».proof.Proof.Spec
import proofs.«409626_j19258633355334_3_alg».proof.Proof.Gen.ReferenceIdeal.Run
import proofs.«409626_j19258633355334_3_alg».proof.Proof.Gen.ReferenceIdeal.Read
import Idealize.ShloMosaic.Lib.StableHlo.Predicate

noncomputable section

open scoped BigOperators

namespace Cert.ReferenceIdeal.RefValue

open Idealize.ShloMosaic Idealize.ShloMosaic.ValueIdx Idealize.SL.Sem Cert.ReferenceIdeal Cert.ReferenceIdeal.Gen

/-- The arguments' types: the activations [8, 2048, 1024] and the projection [64, 1024]. -/
abbrev XTy := (⟨S8x2048x1024, .f32⟩ : BufTy).Contents (Elt Ideal)
abbrev WTy := (⟨S64x1024, .f32⟩ : BufTy).Contents (Elt Ideal)

/-! ## Keys: the first product at (b, t, h) is the projected key -/

theorem key_apply (X : XTy) (W : WTy) (b : Fin 8) (t : Fin 2048) (h : Fin 64) :
    Read.val_main_v0 (F := Ideal) X W (ix3 b t h) = Attn.kk X W b t h := by
  rw [Read.val_main_v0_apply]
  unfold Attn.kk
  refine Finset.sum_congr rfl fun c _ => ?_
  have e1 : Read.lidx_main_v0 (ix3 b t h) c = ix3 b t c :=
    funext fun a => Fin.ext (by match a with | ⟨0, _⟩ => rfl | ⟨1, _⟩ => rfl | ⟨2, _⟩ => rfl)
  have e2 : Read.ridx_main_v0 (ix3 b t h) c = ix2 h c :=
    funext fun a => Fin.ext (by match a with | ⟨0, _⟩ => rfl | ⟨1, _⟩ => rfl)
  rw [e1, e2]

/-! ## Scores: the second product, scaled, at (b, t, j) -/

theorem score_apply (X : XTy) (W : WTy) (b : Fin 8) (t j : Fin 2048) :
    Read.val_main_v3 (F := Ideal) X W (ix3 b t j)
      = (∑ h : Fin 64, Attn.kk X W b t h * Attn.kk X W b j h) * Attn.scI := by
  rw [Read.val_main_v3_apply, Read.val_main_v1_apply, Read.val_main_v2_apply, Read.val_main_cst_apply]
  simp only [Ideal.mulf_def, Ideal.ofBits_def]
  unfold Attn.scI
  refine congrArg (· * _) (Finset.sum_congr rfl fun h _ => ?_)
  have e1 : Read.lidx_main_v1 (ix3 b t j) h = ix3 b t h :=
    funext fun a => Fin.ext (by match a with | ⟨0, _⟩ => rfl | ⟨1, _⟩ => rfl | ⟨2, _⟩ => rfl)
  have e2 : Read.ridx_main_v1 (ix3 b t j) h = ix3 b j h :=
    funext fun a => Fin.ext (by match a with | ⟨0, _⟩ => rfl | ⟨1, _⟩ => rfl | ⟨2, _⟩ => rfl)
  rw [e1, e2, key_apply, key_apply]

/-! ## The mask: at (b, t, j) the bit of "j ≤ t" -/

theorem mask_apply (b : Fin 8) (t j : Fin 2048) :
    Read.val_main_call1_v1 (F := Ideal) (ix3 b t j) = if j.val ≤ t.val then 1#1 else 0#1 := by
  rw [Read.val_main_call1_v1_apply, Read.val_main_v5_apply, Read.val_main_call0_v4_apply, Read.val_main_call0_v2_apply,
    Read.val_main_call0_v0_apply, Read.val_main_call0_v1_apply, Read.val_main_call0_c_apply, Read.val_main_call0_v3_apply,
    Read.val_main_v4_apply, Read.val_main_c_apply, Read.val_main_call0_v5_apply, Read.val_main_call0_c_0_apply]
  show Scalar.select (IntOp.cmpi .sge (IntOp.addi (BitVec.ofNat 32 t.val) 0#32) (BitVec.ofNat 32 j.val)) 1#1 0#1 = _
  have ht : (IntOp.addi (BitVec.ofNat 32 t.val) 0#32).toNat = t.val := by
    unfold IntOp.addi
    rw [BitVec.add_zero, BitVec.toNat_ofNat]
    exact Nat.mod_eq_of_lt (by have := t.isLt; omega)
  have hj : (BitVec.ofNat 32 j.val).toNat = j.val := by
    rw [BitVec.toNat_ofNat]
    exact Nat.mod_eq_of_lt (by have := j.isLt; omega)
  have hiff := StableHlo.Predicate.sge_iff_toNat (a := IntOp.addi (BitVec.ofNat 32 t.val) 0#32) (b := BitVec.ofNat 32 j.val)
    (by rw [ht]; have := t.isLt; omega) (by rw [hj]; have := j.isLt; omega)
  rw [ht, hj] at hiff
  by_cases hjt : j.val ≤ t.val
  · rw [if_pos hjt, hiff.mpr hjt, select_one]
  · rw [if_neg hjt, eq_zero_of_ne_one (fun h1 => hjt (hiff.mp h1)), select_zero]

/-! ## The masked row: the scores where j ≤ t, −∞ after -/

theorem negInf_eq : (FloatOps.ofBits (F := Ideal) .f32 0xFF800000#32 : Ideal .f32) = (⊥ : EReal) := by
  show Ideal.ofBits .f32 0xFF800000#32 = ⊥
  simp [Ideal.ofBits, Ideal.ieee]

theorem masked_apply (X : XTy) (W : WTy) (b : Fin 8) (t j : Fin 2048) :
    Read.val_main_v6 (F := Ideal) X W (ix3 b t j)
      = Attn.srow t.val Attn.scI (Attn.kk X W b t) (Attn.kk X W b) j := by
  rw [Read.val_main_v6_apply, mask_apply, score_apply, Read.val_main_call1_v2_apply, Read.val_main_call1_v0_apply,
    Read.val_main_cst_0_apply, negInf_eq]
  unfold Attn.srow
  by_cases hjt : j.val ≤ t.val
  · rw [if_pos hjt, if_pos hjt, select_one]
  · rw [if_neg hjt, if_neg hjt, select_zero]

/-! ## The row maximum: the fold of max over the row, from −∞ -/

/-- The reduced index (b, t) with column `k` put back is (b, t, k). -/
theorem lift_row (h : S8x2048x2048.Reduces [2] S8x2048) (b : Fin 8) (t : Fin 2048) (k : Fin (S8x2048x2048.size 2)) :
    h.lift (ix2 b t) k = ix3 b t (⟨k.val, k.isLt⟩ : Fin 2048) := by
  funext c; apply Fin.ext
  match c with
  | ⟨0, _⟩ => rfl
  | ⟨1, _⟩ => rfl
  | ⟨2, _⟩ => rfl

theorem rowmax_apply (X : XTy) (W : WTy) (b : Fin 8) (t : Fin 2048) :
    Read.val_main_v7 (F := Ideal) X W (ix2 b t)
      = Finset.univ.fold max ⊥ (Attn.srow t.val Attn.scI (Attn.kk X W b t) (Attn.kk X W b)) := by
  unfold Read.val_main_v7
  have hrow : ∀ j : Fin 2048, Read.val_main_v6 (F := Ideal) X W (ix3 b t j)
      = Attn.srow t.val Attn.scI (Attn.kk X W b t) (Attn.kk X W b) j := masked_apply X W b t
  generalize Read.val_main_v6 (F := Ideal) X W = y at hrow ⊢
  have hred : S8x2048x2048.Reduces [2] S8x2048 := by decide
  refine (Host.reduce_eq_fold_single (α := Ideal .f32) (FloatOps.maximumf (F := Ideal) (φ := .f32)) y _
    reducesTo_S8x2048x2048_S8x2048_d2 hred h_S_ (ix2 b t)).trans ?_
  rw [Read.val_main_cst_1_apply, negInf_eq]
  have hf : (y ∘ hred.lift (ix2 b t)) = Attn.srow t.val Attn.scI (Attn.kk X W b t) (Attn.kk X W b) :=
    funext fun k => (congrArg y (lift_row hred b t k)).trans (hrow ⟨k.val, k.isLt⟩)
  rw [hf]
  rfl

/-! ## The shifted row, its exponentials, their sum, the normalised weights -/

/-- The masked, scaled score row of batch `b` at position `t`. -/
abbrev row (X : XTy) (W : WTy) (b : Fin 8) (t : Fin 2048) : Fin 2048 → EReal :=
  Attn.srow t.val Attn.scI (Attn.kk X W b t) (Attn.kk X W b)

/-- Its maximum, as the reference takes it: once more against −∞. -/
abbrev rmax (X : XTy) (W : WTy) (b : Fin 8) (t : Fin 2048) : EReal :=
  max ⊥ (Finset.univ.fold max ⊥ (row X W b t))

theorem rmax_apply (X : XTy) (W : WTy) (b : Fin 8) (t : Fin 2048) :
    Read.val_main_v9 (F := Ideal) X W (ix2 b t) = rmax X W b t := by
  rw [Read.val_main_v9_apply, Read.val_main_v8_apply, Read.val_main_cst_2_apply, negInf_eq, rowmax_apply]
  rfl

theorem exp_apply (X : XTy) (W : WTy) (b : Fin 8) (t j : Fin 2048) :
    Read.val_main_v13 (F := Ideal) X W (ix3 b t j) = Ideal.exp (row X W b t j - rmax X W b t) := by
  rw [Read.val_main_v13_apply, Read.val_main_v12_apply, masked_apply, Read.val_main_v11_apply, Read.val_main_v10_apply]
  have e : Read.idx_main_v10 (Read.idx_main_v11 (ix3 b t j)) = ix2 b t :=
    funext fun a => Fin.ext (by match a with | ⟨0, _⟩ => rfl | ⟨1, _⟩ => rfl)
  rw [e, rmax_apply]
  rfl

theorem denom_apply (X : XTy) (W : WTy) (b : Fin 8) (t : Fin 2048) :
    Read.val_main_v14 (F := Ideal) X W (ix2 b t) = 0 + ∑ j : Fin 2048, Ideal.exp (row X W b t j - rmax X W b t) := by
  rw [Read.val_main_v14_apply, Read.val_main_cst_3_apply]
  rw [show (FloatOps.ofBits (F := Ideal) .f32 0x00000000#32 : Ideal .f32) = (0 : EReal) from Ideal.ofBits_zero_f32]
  refine congrArg (0 + ·) (Finset.sum_congr rfl fun j _ => ?_)
  have e : Read.idx_main_v14 (ix2 b t) j = ix3 b t j :=
    funext fun a => Fin.ext (by match a with | ⟨0, _⟩ => rfl | ⟨1, _⟩ => rfl | ⟨2, _⟩ => rfl)
  rw [e, exp_apply]

theorem weight_apply (X : XTy) (W : WTy) (b : Fin 8) (t j : Fin 2048) :
    Read.val_main_v17 (F := Ideal) X W (ix3 b t j)
      = Ideal.div (Ideal.exp (row X W b t j - rmax X W b t))
          (0 + ∑ j' : Fin 2048, Ideal.exp (row X W b t j' - rmax X W b t)) := by
  rw [Read.val_main_v17_apply, exp_apply, Read.val_main_v16_apply, Read.val_main_v15_apply]
  have e : Read.idx_main_v15 (Read.idx_main_v16 (ix3 b t j)) = ix2 b t :=
    funext fun a => Fin.ext (by match a with | ⟨0, _⟩ => rfl | ⟨1, _⟩ => rfl)
  rw [e, denom_apply]
  rfl

/-! ## The last product: the weights against the keys -/

theorem out_apply (X : XTy) (W : WTy) (b : Fin 8) (t : Fin 2048) (h : Fin 64) :
    Read.val_main_v18 (F := Ideal) X W (ix3 b t h)
      = Attn.attnRef t.val Attn.scI (Attn.kk X W b t) (Attn.kk X W b) h := by
  rw [Read.val_main_v18_apply]
  unfold Attn.attnRef
  refine Finset.sum_congr rfl fun j _ => ?_
  have e1 : Read.lidx_main_v18 (ix3 b t h) j = ix3 b t j :=
    funext fun a => Fin.ext (by match a with | ⟨0, _⟩ => rfl | ⟨1, _⟩ => rfl | ⟨2, _⟩ => rfl)
  have e2 : Read.ridx_main_v18 (ix3 b t h) j = ix3 b j h :=
    funext fun a => Fin.ext (by match a with | ⟨0, _⟩ => rfl | ⟨1, _⟩ => rfl | ⟨2, _⟩ => rfl)
  rw [e1, e2, weight_apply, key_apply]

theorem ref_eq (X : (⟨S8x2048x1024, .f32⟩ : BufTy).Contents (Elt Ideal)) (W : (⟨S64x1024, .f32⟩ : BufTy).Contents (Elt Ideal)) :
    Cert.ReferenceIdeal.Read.val_main_v18 (F := Ideal) X W = Attn.G X W := by
  funext i
  obtain ⟨b, t, h, rfl⟩ : ∃ (b : Fin 8) (t : Fin 2048) (h : Fin 64), i = ix3 b t h := ⟨i 0, i 1, i 2, eq_ix3 i⟩
  rw [out_apply]
  rfl

end Cert.ReferenceIdeal.RefValue

end
-- ==== Proof.Finite.lean ====
/-
  The precondition read: `finite_inputs` all ones says every entry of both arguments is strictly below +∞ in absolute
  value, and an extended real whose absolute value is below +∞ is a real.
-/
import proofs.«409626_j19258633355334_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- The rank-0 shape has one index. -/
instance : Subsingleton Cert.Pre_finite_inputs.S_.Idx := ⟨fun a b => funext fun d => d.elim0⟩

/-- A one-bit word made from a truth value is the set bit only when the value is true. -/
theorem true_of_ofBool_eq_one (b : Bool) (hb : BitVec.ofBool b = 1#1) : b = true := by
  cases b
  · exact absurd hb (by decide)
  · rfl

/-- An extended real whose absolute value is strictly below +∞ is a real. -/
theorem real_of_abs_lt_top (x : EReal) (hx : max x (-x) < ⊤) : ∃ r : ℝ, x = ((r : ℝ) : EReal) := by
  induction x using EReal.rec with
  | bot => exact absurd hx (by simp)
  | coe r => exact ⟨r, rfl⟩
  | top => exact absurd hx (by simp)

/-- The precondition's test of one entry: its absolute value compares below the word of +∞. -/
theorem real_of_test (x : EReal)
    (hx : Ideal.cmp .olt (max x (-x)) (Ideal.ofBits .f32 0x7F800000#32) = 1#1) : ∃ r : ℝ, x = ((r : ℝ) : EReal) := by
  have htop : Ideal.ofBits .f32 0x7F800000#32 = (⊤ : EReal) := by simp [Ideal.ofBits, Ideal.ieee]
  rw [htop] at hx
  have hlt : max x (-x) < ⊤ := of_decide_eq_true (true_of_ofBool_eq_one _ hx)
  exact real_of_abs_lt_top x hlt

/-- Under the precondition both arguments are arrays of reals. -/
theorem real_of_pre [hP : Cert.Pre_finite_inputs.Facts]
    (X : FVec Ideal Cert.Pre_finite_inputs.S8x2048x1024 .f32) (W : FVec Ideal Cert.Pre_finite_inputs.S64x1024 .f32)
    (h : Cert.Pre_finite_inputs.fn (F := Ideal) X W = fun _ => 1#1) :
    (∃ Xr : Cert.Pre_finite_inputs.S8x2048x1024.Idx → ℝ, ∀ i, X i = ((Xr i : ℝ) : EReal))
      ∧ ∃ Wr : Cert.Pre_finite_inputs.S64x1024.Idx → ℝ, ∀ i, W i = ((Wr i : ℝ) : EReal) := by
  have h0 := congrFun h ValueIdx.ix0
  unfold Cert.Pre_finite_inputs.fn at h0
  dsimp only at h0
  obtain ⟨hX, hW⟩ := IntOp.andi_eq_one.1 h0
  refine ⟨?_, ?_⟩
  · have hx : ∀ i, ∃ r : ℝ, X i = ((r : ℝ) : EReal) := fun i =>
      real_of_test (X i) (Host.reduce_andi_all _ _ _ _ _ hX i)
    choose Xr hXr using hx
    exact ⟨Xr, hXr⟩
  · have hw : ∀ i, ∃ r : ℝ, W i = ((r : ℝ) : EReal) := fun i =>
      real_of_test (W i) (Host.reduce_andi_all _ _ _ _ _ hW i)
    choose Wr hWr using hw
    exact ⟨Wr, hWr⟩

end Cert.Finite

end
-- ==== Proof.lean ====
/-
  Causal self-attention in which query, key and value are ONE projection of the input: `k = x · W_kᵀ` per batch, scores
  `(k kᵀ) / 32` masked to −∞ above the diagonal, a softmax along each row, and the weighted average of the keys.

  The kernel runs one grid point per batch: it projects the batch into a scratch and, for each of eight tiles of 256 query
  rows, attends only the keys up to the tile's end, filling the masked entries with a large negative number that the
  idealization names −∞ (eight ledger entries, one per unrolled tile), and divides the weighted sum once by the sum of
  the weights. The reference forms all 2048 × 2048 scores, masks with −∞, normalises every weight and then sums.
  On the extended reals the two agree whenever the inputs are finite: a masked column weighs `exp (−∞) = 0`, so the columns
  a tile leaves out add nothing; the row maximum is attained on the diagonal, which is never masked, so it is a real and
  the same for both; and with a real, positive sum of weights, dividing the sum is dividing each term.

  The frames: each kernel program's body is run symbolically once (the result block is written through a view that drops
  its unit axis, its eight row rectangles tiling it); the reference's is its straight-line run.
-/
import proofs.«409626_j19258633355334_3_alg».proof.Defs
import proofs.«409626_j19258633355334_3_alg».proof.Proof.Gen.Kernel
import proofs.«409626_j19258633355334_3_alg».proof.Proof.Gen.KernelIdeal
import proofs.«409626_j19258633355334_3_alg».proof.Proof.Gen.ReferenceIdeal
import proofs.«409626_j19258633355334_3_alg».proof.Proof.Gen.Pre_finite_inputs
import proofs.«409626_j19258633355334_3_alg».proof.Proof.Gen.ReferenceIdeal.Run
import proofs.«409626_j19258633355334_3_alg».proof.Proof.Gen.ReferenceIdeal.Read
import proofs.«409626_j19258633355334_3_alg».proof.Proof.KBody
import proofs.«409626_j19258633355334_3_alg».proof.Proof.KIBody
import proofs.«409626_j19258633355334_3_alg».proof.Proof.KIValue
import proofs.«409626_j19258633355334_3_alg».proof.Proof.RefValue
import proofs.«409626_j19258633355334_3_alg».proof.Proof.Finite
import Idealize.ShloMosaic.PureOps.IdealRules

noncomputable section

namespace Cert.Proof

open Idealize.ShloMosaic Idealize.SL.Sem

/-! ## The frames -/

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-! ## The idealization's ledger -/

/-- The mask's fill, a large negative float in the kernel, is named −∞: the certificate's table gives it that value. -/
theorem neg_big : IdealRules.named_const.Statement Cert.KernelIdeal.κ "neg_big" .f32 0xFF333332#32 ⊥ :=
  IdealRules.named_const.statement Cert.KernelIdeal.κ "neg_big" .f32 0xFF333332#32 ⊥ rfl

/-- One entry per unrolled tile, all the same constant. -/
theorem preserves : Cert.preserves_Kernel_KernelIdeal :=
  ⟨neg_big, neg_big, neg_big, neg_big, neg_big, neg_big, neg_big, neg_big⟩

/-! ## The two idealized programs agree -/

/-- Both runs end with the result array at the specification `Attn.G` of the (agreeing, finite) arguments. -/
theorem algebraic : Cert.algebraic_KernelIdeal_ReferenceIdeal := by
  intro m ρ m' ρ' hpre hagree
  have hfin : ∀ c : Dev Cert.KernelIdeal.nD,
      (∃ Xr : Cert.KernelIdeal.S8x2048x1024.Idx → ℝ, ∀ i, Cert.KernelIdeal.Gen.V m c Cert.KernelIdeal.main_arg0 i = ((Xr i : ℝ) : EReal))
      ∧ ∃ Wr : Cert.KernelIdeal.S64x1024.Idx → ℝ, ∀ i, Cert.KernelIdeal.Gen.V m c Cert.KernelIdeal.main_arg1 i = ((Wr i : ℝ) : EReal) :=
    fun c => Cert.Finite.real_of_pre _ _ (hpre c)
  refine ⟨_, Cert.KernelIdeal.KValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq, (hagree c).1, (hagree c).2]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
